-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x1024x1024 : Shape := ⟨4, ![8, 1, 1024, 1024]⟩
abbrev S8x1024x1024 : Shape := ⟨3, ![8, 1024, 1024]⟩
abbrev S512 : Shape := ⟨1, ![512]⟩
abbrev S_ : Shape := ⟨0, ![]⟩

class Facts : Prop where
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_arg2 : IVec S8x1024x1024 32) (main_v13 : IVec S_ 1) (main_v15 : IVec S8x1024x1024 1) (main_c_5 : IVec S_ 1) : IVec S_ 1 :=
  let main_v16 : IVec S_ 1 := (fun x v => Host.reduce IntOp.andi x v reducesTo_S8x1024x1024_S_d0_1_2 h_S_) main_v15 main_c_5
  let main_v17 : IVec S_ 1 := andi main_v13 main_v16
  let main_c_6 : IVec S_ 32 := constantI S_ 32 512#32
  let main_v18 : IVec S8x1024x1024 32 := broadcastInDim S8x1024x1024 ![] bcast_S_S8x1024x1024 main_c_6
  let main_v19 : IVec S8x1024x1024 1 := cmpi .slt main_arg2 main_v18
  let main_c_7 : IVec S_ 1 := constantI S_ 1 1#1
  let main_v20 : IVec S_ 1 := (fun x v => Host.reduce IntOp.andi x v reducesTo_S8x1024x1024_S_d0_1_2 h_S_) main_v19 main_c_7
  let main_v21 : IVec S_ 1 := andi main_v17 main_v20
  main_v21

def fn {F : FTy → Type} [FloatOps F] (main_arg0 : FVec F S8x1x1024x1024 .f32) (main_arg1 : FVec F S8x1x1024x1024 .f32) (main_arg2 : IVec S8x1024x1024 32) (main_arg3 : FVec F S512 .f32) : IVec S_ 1 :=
  let main_v0 : FVec F S8x1x1024x1024 .f32 := Host.absf main_arg0
  let main_cst : FVec F S_ .f32 := constant S_ .f32 0x7F800000#32
  let main_v1 : FVec F S8x1x1024x1024 .f32 := broadcastInDim S8x1x1024x1024 ![] bcast_S_S8x1x1024x1024 main_cst
  let main_v2 : IVec S8x1x1024x1024 1 := cmpf .olt main_v0 main_v1
  let main_c : IVec S_ 1 := constantI S_ 1 1#1
  let main_v3 : IVec S_ 1 := (fun x v => Host.reduce IntOp.andi x v reducesTo_S8x1x1024x1024_S_d0_1_2_3 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S8x1024x1024 32 := broadcastInDim S8x1024x1024 ![] bcast_S_S8x1024x1024 main_c_4
  let main_v15 : IVec S8x1024x1024 1 := cmpi .sge main_arg2 main_v14
  let main_c_5 : IVec S_ 1 := constantI S_ 1 1#1
  fn_part1 (F := F) main_arg2 main_v13 main_v15 main_c_5
-- ==== Kernel.lean ====
abbrev S8x1x1024x1024 : Shape := ⟨4, ![8, 1, 1024, 1024]⟩
abbrev S8x1024x1024 : Shape := ⟨3, ![8, 1024, 1024]⟩
abbrev S512 : Shape := ⟨1, ![512]⟩
abbrev S8x1x512 : Shape := ⟨3, ![8, 1, 512]⟩
abbrev S1x1x128x1024 : Shape := ⟨4, ![1, 1, 128, 1024]⟩
abbrev S1x128x1024 : Shape := ⟨3, ![1, 128, 1024]⟩
abbrev S1x1x512 : Shape := ⟨3, ![1, 1, 512]⟩
abbrev S1x512 : Shape := ⟨2, ![1, 512]⟩
abbrev S8x1024x128 : Shape := ⟨3, ![8, 1024, 128]⟩
abbrev S1x128 : Shape := ⟨2, ![1, 128]⟩
abbrev S1x1x8x1024 : Shape := ⟨4, ![1, 1, 8, 1024]⟩
abbrev S8x1024 : Shape := ⟨2, ![8, 1024]⟩
abbrev S1x8x1024 : Shape := ⟨3, ![1, 8, 1024]⟩
abbrev S8x1024x1 : Shape := ⟨3, ![8, 1024, 1]⟩
abbrev S1024x128 : Shape := ⟨2, ![1024, 128]⟩
abbrev S128 : Shape := ⟨1, ![128]⟩
abbrev S_ : Shape := ⟨0, ![]⟩
abbrev S1x1x128 : Shape := ⟨3, ![1, 1, 128]⟩

abbrev nBuf : Space → Nat
  | .hbm => 12
  | .vmem => 19
  | .smem => 0
  | _ => 0

abbrev bufTy : (tb : Table) → Fin (tcTables nBuf tb) → BufTy
  | .hbm, ⟨0, _⟩ => ⟨S8x1x1024x1024, .f32⟩
  | .hbm, ⟨1, _⟩ => ⟨S8x1x1024x1024, .f32⟩
  | .hbm, ⟨2, _⟩ => ⟨S8x1024x1024, .i32⟩
  | .hbm, ⟨3, _⟩ => ⟨S512, .f32⟩
  | .hbm, ⟨4, _⟩ => ⟨S8x1x512, .f32⟩
  | .hbm, ⟨5, _⟩ => ⟨S1x1x512, .f32⟩
  | .hbm, ⟨6, _⟩ => ⟨S_, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x1024x1024, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x128x1024, .i32⟩
  | .local _ .vmem, ⟨5, _⟩ => ⟨S1x128x1024, .i32⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x128x1024, .i32⟩
  | .local _ .vmem, ⟨14, _⟩ => ⟨S1x128x1024, .i32⟩
  | .local _ .vmem, ⟨15, _⟩ => ⟨S1x1x512, .f32⟩
  | .local _ .vmem, ⟨16, _⟩ => ⟨S1x1x512, .f32⟩
  | .local _ .vmem, ⟨17, _⟩ => ⟨S1x1x128x1024, .f32⟩
  | .local _ .vmem, ⟨18, _⟩ => ⟨S1x1x128x1024, .f32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_2 : BitVec 32 := 0#32
  let c16_i32 : BitVec 32 := 16#32
  let v7 : BitVec 32 := Scalar.addi c0_i32_2 c16_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c8_i32 : BitVec 32 := 8#32
  let v47 : BitVec 32 := Scalar.muli arg7 c8_i32
  v47
def k0_off1 (k0_t1 : Fin k0_t1_loop.trips) : Fin 4 → Nat :=
  let c0_32 : Index := 0#32
  let c0_33 : Index := 0#32
  let c0_i32_2 : BitVec 32 := 0#32
  let c1_i32 : BitVec 32 := 1#32
  let arg7 : BitVec 32 := Scf.iv c0_i32_2 c1_i32 k0_t1
  let c8_i32 : BitVec 32 := 8#32
  let v47 : BitVec 32 := Scalar.muli arg7 c8_i32
  let v48 : BitVec 32 := v47
  let v49 : Index := Scalar.indexCast v48
  let c0_34 : Index := 0#32
  ![0, 0, v49.toNat, 0]
def k0_off2 (k0_t1 : Fin k0_t1_loop.trips) : Fin 3 → Nat :=
  let c0_38 : Index := 0#32
  let c0_i32_2 : BitVec 32 := 0#32
  let c1_i32 : BitVec 32 := 1#32
  let arg7 : BitVec 32 := Scf.iv c0_i32_2 c1_i32 k0_t1
  let c8_i32 : BitVec 32 := 8#32
  let v47 : BitVec 32 := Scalar.muli arg7 c8_i32
  let v48 : BitVec 32 := v47
  let v55 : Index := Scalar.indexCast v48
  let c0_39 : Index := 0#32
  ![0, v55.toNat, 0]
@[reducible] def k0_t2_loop : Scf.Loop 32 :=
  let c0_i32_8 : BitVec 32 := 0#32
  let c16_i32_9 : BitVec 32 := 16#32
  let v17 : BitVec 32 := Scalar.addi c0_i32_8 c16_i32_9
  let c1_i32_10 : BitVec 32 := 1#32
  ⟨c0_i32_8, v17, c1_i32_10⟩
def k0_mult2 (k0_t2 : Fin k0_t2_loop.trips) : BitVec 32 :=
  let c0_i32_8 : BitVec 32 := 0#32
  let c1_i32_10 : BitVec 32 := 1#32
  let arg7 : BitVec 32 := Scf.iv c0_i32_8 c1_i32_10 k0_t2
  let c8_i32 : BitVec 32 := 8#32
  let v47 : BitVec 32 := Scalar.muli arg7 c8_i32
  v47
def k0_off3 (k0_t2 : Fin k0_t2_loop.trips) : Fin 4 → Nat :=
  let c0_32 : Index := 0#32
  let c0_33 : Index := 0#32
  let c0_i32_8 : BitVec 32 := 0#32
  let c1_i32_10 : BitVec 32 := 1#32
  let arg7 : BitVec 32 := Scf.iv c0_i32_8 c1_i32_10 k0_t2
  let c8_i32 : BitVec 32 := 8#32
  let v47 : BitVec 32 := Scalar.muli arg7 c8_i32
  let v48 : BitVec 32 := v47
  let v49 : Index := Scalar.indexCast v48
  let c0_34 : Index := 0#32
  ![0, 0, v49.toNat, 0]
def k0_off4 (k0_t2 : Fin k0_t2_loop.trips) : Fin 3 → Nat :=
  let c0_38 : Index := 0#32
  let c0_i32_8 : BitVec 32 := 0#32
  let c1_i32_10 : BitVec 32 := 1#32
  let arg7 : BitVec 32 := Scf.iv c0_i32_8 c1_i32_10 k0_t2
  let c8_i32 : BitVec 32 := 8#32
  let v47 : BitVec 32 := Scalar.muli arg7 c8_i32
  let v48 : BitVec 32 := v47
  let v55 : Index := Scalar.indexCast v48
  let c0_39 : Index := 0#32
  ![0, v55.toNat, 0]
@[reducible] def k0_t3_loop : Scf.Loop 32 :=
  let c0_i32_16 : BitVec 32 := 0#32
  let c16_i32_17 : BitVec 32 := 16#32
  let v27 : BitVec 32 := Scalar.addi c0_i32_16 c16_i32_17
  let c1_i32_18 : BitVec 32 := 1#32
  ⟨c0_i32_16, v27, c1_i32_18⟩
def k0_mult3 (k0_t3 : Fin k0_t3_loop.trips) : BitVec 32 :=
  let c0_i32_16 : BitVec 32 := 0#32
  let c1_i32_18 : BitVec 32 := 1#32
  let arg7 : BitVec 32 := Scf.iv c0_i32_16 c1_i32_18 k0_t3
  let c8_i32 : BitVec 32 := 8#32
  let v47 : BitVec 32 := Scalar.muli arg7 c8_i32
  v47
def k0_off5 (k0_t3 : Fin k0_t3_loop.trips) : Fin 4 → Nat :=
  let c0_32 : Index := 0#32
  let c0_33 : Index := 0#32
  let c0_i32_16 : BitVec 32 := 0#32
  let c1_i32_18 : BitVec 32 := 1#32
  let arg7 : BitVec 32 := Scf.iv c0_i32_16 c1_i32_18 k0_t3
  let c8_i32 : BitVec 32 := 8#32
  let v47 : BitVec 32 := Scalar.muli arg7 c8_i32
  let v48 : BitVec 32 := v47
  let v49 : Index := Scalar.indexCast v48
  let c0_34 : Index := 0#32
  ![0, 0, v49.toNat, 0]
def k0_off6 (k0_t3 : Fin k0_t3_loop.trips) : Fin 3 → Nat :=
  let c0_38 : Index := 0#32
  let c0_i32_16 : BitVec 32 := 0#32
  let c1_i32_18 : BitVec 32 := 1#32
  let arg7 : BitVec 32 := Scf.iv c0_i32_16 c1_i32_18 k0_t3
  let c8_i32 : BitVec 32 := 8#32
  let v47 : BitVec 32 := Scalar.muli arg7 c8_i32
  let v48 : BitVec 32 := v47
  let v55 : Index := Scalar.indexCast v48
  let c0_39 : Index := 0#32
  ![0, v55.toNat, 0]
@[reducible] def k0_t4_loop : Scf.Loop 32 :=
  let c0_i32_24 : BitVec 32 := 0#32
  let c16_i32_25 : BitVec 32 := 16#32
  let v37 : BitVec 32 := Scalar.addi c0_i32_24 c16_i32_25
  let c1_i32_26 : BitVec 32 := 1#32
  ⟨c0_i32_24, v37, c1_i32_26⟩
def k0_mult4 (k0_t4 : Fin k0_t4_loop.trips) : BitVec 32 :=
  let c0_i32_24 : BitVec 32 := 0#32
  let c1_i32_26 : BitVec 32 := 1#32
  let arg7 : BitVec 32 := Scf.iv c0_i32_24 c1_i32_26 k0_t4
  let c8_i32 : BitVec 32 := 8#32
  let v47 : BitVec 32 := Scalar.muli arg7 c8_i32
  v47
def k0_off7 (k0_t4 : Fin k0_t4_loop.trips) : Fin 4 → Nat :=
  let c0_32 : Index := 0#32
  let c0_33 : Index := 0#32
  let c0_i32_24 : BitVec 32 := 0#32
  let c1_i32_26 : BitVec 32 := 1#32
  let arg7 : BitVec 32 := Scf.iv c0_i32_24 c1_i32_26 k0_t4
  let c8_i32 : BitVec 32 := 8#32
  let v47 : BitVec 32 := Scalar.muli arg7 c8_i32
  let v48 : BitVec 32 := v47
  let v49 : Index := Scalar.indexCast v48
  let c0_34 : Index := 0#32
  ![0, 0, v49.toNat, 0]
def k0_off8 (k0_t4 : Fin k0_t4_loop.trips) : Fin 3 → Nat :=
  let c0_38 : Index := 0#32
  let c0_i32_24 : BitVec 32 := 0#32
  let c1_i32_26 : BitVec 32 := 1#32
  let arg7 : BitVec 32 := Scf.iv c0_i32_24 c1_i32_26 k0_t4
  let c8_i32 : BitVec 32 := 8#32
  let v47 : BitVec 32 := Scalar.muli arg7 c8_i32
  let v48 : BitVec 32 := v47
  let v55 : Index := Scalar.indexCast v48
  let c0_39 : Index := 0#32
  ![0, v55.toNat, 0]
def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_31 : BitVec 32 := 0#32
  let v46 : BitVec 1 := Scalar.cmpi .ne v45 c0_i32_31
  v46

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

@[reducible] def k1_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c8_i32 : BitVec 32 := 8#32
  let v2 : BitVec 32 := Scalar.muli arg7 c8_i32
  v2
def k1_off1 (k1_t1 : Fin k1_t1_loop.trips) : Fin 3 → Nat :=
  let c0 : Index := 0#32
  let c0_i32 : BitVec 32 := 0#32
  let c1_i32 : BitVec 32 := 1#32
  let arg7 : BitVec 32 := Scf.iv c0_i32 c1_i32 k1_t1
  let c8_i32 : BitVec 32 := 8#32
  let v2 : BitVec 32 := Scalar.muli arg7 c8_i32
  let v3 : BitVec 32 := v2
  let v4 : Index := Scalar.indexCast v3
  let c0_1 : Index := 0#32
  ![0, v4.toNat, 0]
def k1_off2 (k1_t1 : Fin k1_t1_loop.trips) : Fin 4 → Nat :=
  let c0_16 : Index := 0#32
  let c0_17 : Index := 0#32
  let c0_i32 : BitVec 32 := 0#32
  let c1_i32 : BitVec 32 := 1#32
  let arg7 : BitVec 32 := Scf.iv c0_i32 c1_i32 k1_t1
  let c8_i32 : BitVec 32 := 8#32
  let v2 : BitVec 32 := Scalar.muli arg7 c8_i32
  let v3 : BitVec 32 := v2
  let v72 : Index := Scalar.indexCast v3
  let c0_18 : Index := 0#32
  ![0, 0, v72.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S8x1024x128_d2_w32 : S8x1024x128.Iotas .tc 32 [2]
  h_S1x1x8x1024 : 0 < S1x1x8x1024.numel
  shapeCasts_S1x1x8x1024_S8x1024 : S1x1x8x1024.ShapeCasts S8x1024
  h_S1x8x1024 : 0 < S1x8x1024.numel
  shapeCasts_S1x8x1024_S8x1024 : S1x8x1024.ShapeCasts S8x1024
  shapeCasts_S8x1024_S8x1024x1 : S8x1024.ShapeCasts S8x1024x1
  broadcasts_S8x1024x1_S8x1024x128 : S8x1024x1.Broadcasts S8x1024x128
  natLt_1_32 : 1 < 32
  reduces_S8x1024x128_S1024x128 : S8x1024x128.Reduces [0] S1024x128
  reduces_S1024x128_S128 : S1024x128.Reduces [0] S128
  shapeCasts_S128_S1x128 : S128.ShapeCasts S1x128
  inb_S1x512_S1x128_0_0 : ∀ a, (![0, 0] : Fin 2 → Nat) a + S1x128.size a ≤ S1x512.size a
  h_S1x128 : 0 < S1x128.numel
  shapeCasts_S1x128_S1x128 : S1x128.ShapeCasts S1x128
  inb_S1x512_S1x128_0_128 : ∀ a, (![0, 128] : Fin 2 → Nat) a + S1x128.size a ≤ S1x512.size a
  inb_S1x512_S1x128_0_256 : ∀ a, (![0, 256] : Fin 2 → Nat) a + S1x128.size a ≤ S1x512.size a
  inb_S1x512_S1x128_0_384 : ∀ a, (![0, 384] : Fin 2 → Nat) a + S1x128.size a ≤ S1x512.size a
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  bcast_S512_S1x1x512_2 : S512.BroadcastsInDim S1x1x512 (![2] : Fin 1 → Fin S1x1x512.rank)
  bcast_S_S8x1x512 : S_.BroadcastsInDim S8x1x512 (![] : Fin 0 → Fin S8x1x512.rank)
  bcast_S1x1x512_S8x1x512_0_1_2 : S1x1x512.BroadcastsInDim S8x1x512 (![0, 1, 2] : Fin 3 → Fin S8x1x512.rank)
  inb_S1x1x512_S1x1x128_0_0_0 : ∀ a, (![0, 0, 0] : Fin 3 → Nat) a + S1x1x128.size a ≤ S1x1x512.size a
  h_S1x1x128 : 0 < S1x1x128.numel
  shapeCasts_S1x1x128_S1x128 : S1x1x128.ShapeCasts S1x128
  shapeCasts_S1x128_S1x1x128 : S1x128.ShapeCasts S1x1x128
  shapeCasts_S1x1x128_S1x1x128 : S1x1x128.ShapeCasts S1x1x128
  broadcasts_S1x1x128_S8x1024x128 : S1x1x128.Broadcasts S8x1024x128
  reduces_S8x1024x128_S8x1024 : S8x1024x128.Reduces [2] S8x1024
  inb_S1x1x512_S1x1x128_0_0_128 : ∀ a, (![0, 0, 128] : Fin 3 → Nat) a + S1x1x128.size a ≤ S1x1x512.size a
  inb_S1x1x512_S1x1x128_0_0_256 : ∀ a, (![0, 0, 256] : Fin 3 → Nat) a + S1x1x128.size a ≤ S1x1x512.size a
  inb_S1x1x512_S1x1x128_0_0_384 : ∀ a, (![0, 0, 384] : Fin 3 → Nat) a + S1x1x128.size a ≤ S1x1x512.size a
  shapeCasts_S8x1024x1_S8x1024 : S8x1024x1.ShapeCasts S8x1024
  shapeCasts_S8x1024_S1x1x8x1024 : S8x1024.ShapeCasts S1x1x8x1024
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x8x1024.size a ≤ S1x1x128x1024.size a
  k0_off2_inb : ∀ k0_t1 : Fin k0_t1_loop.trips, ∀ a, (k0_off2 k0_t1) a + S1x8x1024.size a ≤ S1x128x1024.size a
  k0_t2_ok : k0_t2_loop.OK
  k0_mult2_dvd : ∀ k0_t2 : Fin k0_t2_loop.trips, 8 ∣ (k0_mult2 k0_t2).toNat
  k0_off3_inb : ∀ k0_t2 : Fin k0_t2_loop.trips, ∀ a, (k0_off3 k0_t2) a + S1x1x8x1024.size a ≤ S1x1x128x1024.size a
  k0_off4_inb : ∀ k0_t2 : Fin k0_t2_loop.trips, ∀ a, (k0_off4 k0_t2) a + S1x8x1024.size a ≤ S1x128x1024.size a
  k0_t3_ok : k0_t3_loop.OK
  k0_mult3_dvd : ∀ k0_t3 : Fin k0_t3_loop.trips, 8 ∣ (k0_mult3 k0_t3).toNat
  k0_off5_inb : ∀ k0_t3 : Fin k0_t3_loop.trips, ∀ a, (k0_off5 k0_t3) a + S1x1x8x1024.size a ≤ S1x1x128x1024.size a
  k0_off6_inb : ∀ k0_t3 : Fin k0_t3_loop.trips, ∀ a, (k0_off6 k0_t3) a + S1x8x1024.size a ≤ S1x128x1024.size a
  k0_t4_ok : k0_t4_loop.OK
  k0_mult4_dvd : ∀ k0_t4 : Fin k0_t4_loop.trips, 8 ∣ (k0_mult4 k0_t4).toNat
  k0_off7_inb : ∀ k0_t4 : Fin k0_t4_loop.trips, ∀ a, (k0_off7 k0_t4) a + S1x1x8x1024.size a ≤ S1x1x128x1024.size a
  k0_off8_inb : ∀ k0_t4 : Fin k0_t4_loop.trips, ∀ a, (k0_off8 k0_t4) a + S1x8x1024.size a ≤ S1x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x1024.size a ≤ S8x1x1024x1024.size a
  hwx0_0 : ∀ i : grid0.Coords, EltTy.bits .f32 = 32 ∨ (Rect.block (s := S8x1x1024x1024) S1x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S8x1x1024x1024.size a
  hwx0_1 : ∀ i : grid0.Coords, EltTy.bits .f32 = 32 ∨ (Rect.block (s := S8x1x1024x1024) S1x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S8x1024x1024.size a
  hwx0_2 : ∀ i : grid0.Coords, EltTy.bits .i32 = 32 ∨ (Rect.block (s := S8x1024x1024) S1x128x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x512.size a
  hwx0_3 : ∀ i : grid0.Coords, EltTy.bits .f32 = 32 ∨ (Rect.block (s := S8x1x512) S1x1x512.size (cc0_transform_3 i) (hinb0_3 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S1x8x1024.size a ≤ S1x128x1024.size a
  k1_off2_inb : ∀ k1_t1 : Fin k1_t1_loop.trips, ∀ a, (k1_off2 k1_t1) a + S1x1x8x1024.size a ≤ S1x1x128x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x128x1024.size a ≤ S8x1x1024x1024.size a
  hwx1_0 : ∀ i : grid1.Coords, EltTy.bits .f32 = 32 ∨ (Rect.block (s := S8x1x1024x1024) S1x1x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x1024.size a ≤ S8x1x1024x1024.size a
  hwx1_1 : ∀ i : grid1.Coords, EltTy.bits .f32 = 32 ∨ (Rect.block (s := S8x1x1024x1024) S1x1x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S8x1024x1024.size a
  hwx1_2 : ∀ i : grid1.Coords, EltTy.bits .i32 = 32 ∨ (Rect.block (s := S8x1024x1024) S1x128x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S8x1x512.size a
  hwx1_3 : ∀ i : grid1.Coords, EltTy.bits .f32 = 32 ∨ (Rect.block (s := S8x1x512) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128x1024.size a ≤ S8x1x1024x1024.size a
  hwx1_4 : ∀ i : grid1.Coords, EltTy.bits .f32 = 32 ∨ (Rect.block (s := S8x1x1024x1024) S1x1x128x1024.size (cc1_transform_4 i) (hinb1_4 i)).WholeWords (EltTy.packing .f32)

variable [Facts₀]

abbrev win0_0 : Pipeline.Window sig grid0 :=
  Pipeline.Window.ofSpec (Memref.whole main_arg0) S1x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1x128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x1x1024x1024 : Shape := ⟨4, ![8, 1, 1024, 1024]⟩
abbrev S8x1024x1024 : Shape := ⟨3, ![8, 1024, 1024]⟩
abbrev S512 : Shape := ⟨1, ![512]⟩
abbrev S_ : Shape := ⟨0, ![]⟩
abbrev S8 : Shape := ⟨1, ![8]⟩
abbrev S8x1x1 : Shape := ⟨3, ![8, 1, 1]⟩
abbrev S8388608 : Shape := ⟨1, ![8388608]⟩
abbrev S4096 : Shape := ⟨1, ![4096]⟩
abbrev S8388608x1 : Shape := ⟨2, ![8388608, 1]⟩
abbrev S8x512 : Shape := ⟨2, ![8, 512]⟩
abbrev S1x512 : Shape := ⟨2, ![1, 512]⟩
abbrev S8x1024x1024x1 : Shape := ⟨4, ![8, 1024, 1024, 1]⟩
abbrev S8x1024x1024x2 : Shape := ⟨4, ![8, 1024, 1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S8x1x1024x1024, .f32⟩
  | .hbm, ⟨1, _⟩ => ⟨S8x1x1024x1024, .f32⟩
  | .hbm, ⟨2, _⟩ => ⟨S8x1024x1024, .i32⟩
  | .hbm, ⟨3, _⟩ => ⟨S512, .f32⟩
  | .hbm, ⟨4, _⟩ => ⟨S_, .f32⟩
  | .hbm, ⟨5, _⟩ => ⟨S8x1x1024x1024, .f32⟩
  | .hbm, ⟨6, _⟩ => ⟨S8x1x1024x1024, .f32⟩
  | .hbm, ⟨7, _⟩ => ⟨S_, .f32⟩
  | .hbm, ⟨8, _⟩ => ⟨S8x1x1024x1024, .f32⟩
  | .hbm, ⟨9, _⟩ => ⟨S8x1x1024x1024, .f32⟩
  | .hbm, ⟨10, _⟩ => ⟨S8x1x1024x1024, .f32⟩
  | .hbm, ⟨11, _⟩ => ⟨S8, .i32⟩
  | .hbm, ⟨12, _⟩ => ⟨S8x1x1, .i32⟩
  | .hbm, ⟨13, _⟩ => ⟨S_, .i32⟩
  | .hbm, ⟨14, _⟩ => ⟨S8x1x1, .i32⟩
  | .hbm, ⟨15, _⟩ => ⟨S8x1x1, .i32⟩
  | .hbm, ⟨16, _⟩ => ⟨S8x1024x1024, .i32⟩
  | .hbm, ⟨17, _⟩ => ⟨S8x1024x1024, .i32⟩
  | .hbm, ⟨18, _⟩ => ⟨S8x1024x1024, .f32⟩
  | .hbm, ⟨19, _⟩ => ⟨S8388608, .f32⟩
  | .hbm, ⟨20, _⟩ => ⟨S8388608, .i32⟩
  | .hbm, ⟨21, _⟩ => ⟨S_, .f32⟩
  | .hbm, ⟨22, _⟩ => ⟨S4096, .f32⟩
  | .hbm, ⟨23, _⟩ => ⟨S8388608x1, .i32⟩
  | .hbm, ⟨24, _⟩ => ⟨S4096, .f32⟩
  | .hbm, ⟨25, _⟩ => ⟨S8x512, .f32⟩
  | .hbm, ⟨26, _⟩ => ⟨S_, .f32⟩
  | .hbm, ⟨27, _⟩ => ⟨S8x512, .f32⟩
  | .hbm, ⟨28, _⟩ => ⟨S8x512, .f32⟩
  | .hbm, ⟨29, _⟩ => ⟨S1x512, .f32⟩
  | .hbm, ⟨30, _⟩ => ⟨S8x512, .f32⟩
  | .hbm, ⟨31, _⟩ => ⟨S8x512, .f32⟩
  | .hbm, ⟨32, _⟩ => ⟨S8, .i32⟩
  | .hbm, ⟨33, _⟩ => ⟨S8x1x1, .i32⟩
  | .hbm, ⟨34, _⟩ => ⟨S8x1024x1024, .f32⟩
  | .hbm, ⟨35, _⟩ => ⟨S_, .i32⟩
  | .hbm, ⟨36, _⟩ => ⟨S8x1x1, .i32⟩
  | .hbm, ⟨37, _⟩ => ⟨S8x1x1, .i1⟩
  | .hbm, ⟨38, _⟩ => ⟨S_, .i32⟩
  | .hbm, ⟨39, _⟩ => ⟨S8x1x1, .i32⟩
  | .hbm, ⟨40, _⟩ => ⟨S8x1x1, .i32⟩
  | .hbm, ⟨41, _⟩ => ⟨S8x1x1, .i32⟩
  | .hbm, ⟨42, _⟩ => ⟨S_, .i32⟩
  | .hbm, ⟨43, _⟩ => ⟨S8x1024x1024, .i32⟩
  | .hbm, ⟨44, _⟩ => ⟨S8x1024x1024, .i1⟩
  | .hbm, ⟨45, _⟩ => ⟨S_, .i32⟩
  | .hbm, ⟨46, _⟩ => ⟨S8x1024x1024, .i32⟩
  | .hbm, ⟨47, _⟩ => ⟨S8x1024x1024, .i32⟩
  | .hbm, ⟨48, _⟩ => ⟨S8x1024x1024, .i32⟩
  | .hbm, ⟨49, _⟩ => ⟨S8x1024x1024, .i32⟩
  | .hbm, ⟨50, _⟩ => ⟨S8x1024x1024x1, .i32⟩
  | .hbm, ⟨51, _⟩ => ⟨S8x1024x1024x1, .i32⟩
  | .hbm, ⟨52, _⟩ => ⟨S8x1024x1024x2, .i32⟩
  | .hbm, ⟨53, _⟩ => ⟨S8x1024x1024, .f32⟩
  | .hbm, ⟨54, _⟩ => ⟨S8x1024x1024, .f32⟩
  | .hbm, ⟨55, _⟩ => ⟨S8x1x1024x1024, .f32⟩
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S_S8x1x1024x1024 : S_.BroadcastsInDim S8x1x1024x1024 (![] : Fin 0 → Fin S8x1x1024x1024.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x1024x1024_0_1_2 : S8x1x1.BroadcastsInDim S8x1024x1024 (![0, 1, 2] : Fin 3 → Fin S8x1024x1024.rank)
  shapeCasts_S8x1x1024x1024_S8x1024x1024 : S8x1x1024x1024.ShapeCasts S8x1024x1024
  shapeCasts_S8x1024x1024_S8388608 : S8x1024x1024.ShapeCasts S8388608
  bcast_S_S4096 : S_.BroadcastsInDim S4096 (![] : Fin 0 → Fin S4096.rank)
  bcast_S8388608_S8388608x1_0 : S8388608.BroadcastsInDim S8388608x1 (![0] : Fin 1 → Fin S8388608x1.rank)
  shapeCasts_S4096_S8x512 : S4096.ShapeCasts S8x512
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x2_d3 : Shape.Concatenates [S8x1024x1024x1, S8x1024x1024x1] S8x1024x1024x2 3
  bcast_S8x1024x1024_S8x1x1024x1024_0_2_3 : S8x1024x1024.BroadcastsInDim S8x1x1024x1024 (![0, 2, 3] : Fin 3 → Fin S8x1x1024x1024.rank)
  scatter_S4096_S8388608x1_S8388608_n_0_0_1_wf : ScatterDims.WF S4096 S8388608x1 S8388608 [] [0] [0] 1
  gather_S8x512_S8x1024x1024x2_S8x1024x1024_n_01_n_n_01_3_11_wf : GatherDims.WF S8x512 S8x1024x1024x2 S8x1024x1024 [] [0, 1] [] [0, 1] [] 3 ![1, 1]

variable [Facts₀]

def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf
def gather_S8x512_S8x1024x1024x2_S8x1024x1024_n_01_n_n_01_3_11 : GatherDims S8x512 S8x1024x1024x2 S8x1024x1024 where
  offsetDims := []
  collapsedSliceDims := [0, 1]
  operandBatchingDims := []
  startIndicesBatchingDims := []
  startIndexMap := [0, 1]
  indexVectorDim := 3
  sliceSizes := ![1, 1]
  wf := gather_S8x512_S8x1024x1024x2_S8x1024x1024_n_01_n_n_01_3_11_wf

class Facts : Prop extends Facts₀ where

variable [Facts]
-- ==== Proof.FrameB.R0Shared.lean ====
/-
  The segment-sum kernel (the first pallas_call) on its 8 × 8 grid of (batch, row tile): what its three control
  cases share. A grid point t = 8·b + r works on batch b, rows 128·r … 128·r + 127. The kernel keeps a [1 × 512]
  scratch across the row tiles of one batch: zeroed at r = 0, added to at every tile, copied to the output block
  of batch b at r = 7. Here: a window's block read off its array, that an input's staging buffer holds its block
  at every point, the two branch conditions in closed form over the grid, where the output window is idle, and
  the names of the staging and scratch memrefs the runs are stated over.
-/
import proofs.«416896_j26147760898484_4_alg».proof.Proof.Gen.Kernel.Launch
import proofs.«416896_j26147760898484_4_alg».proof.Proof.Gen.Kernel.Skeleton
import proofs.«416896_j26147760898484_4_alg».proof.Proof.Gen.Kernel.Points
import proofs.«416896_j26147760898484_4_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- "This is the batch's first row tile" (`pl.when(r == 0)`): the scratch is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last row tile" (`pl.when(r == n_r - 1)`): the scratch is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last row tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x512 .f32 := (Memref.whole cc0_stg3_0 : Memref sig .tc .vmem S1x1x512 .f32).view
abbrev ms0_0 (t : Fin cfg0.N) : Memref sig .tc .vmem S1x1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1x512 .f32 := Memref.whole cc0_scratch0
abbrev VS0_0 : View sig .tc .vmem S1x512 .f32 := scM0_0.view

/-- The second pallas_call's staging buffers, scoped buffers this region never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's default invariant: the scratch as a memref owned at some contents, the other scoped buffers, the
    generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Hand

end
-- ==== Proof.FrameB.R0RunA.lean ====
/-
  The segment-sum kernel's body at a batch's FIRST row tile (r = 0, and not the last): it zeroes the [1 × 512]
  scratch, then for each of the four 128-wide admin chunks sums the one-hot-weighted scores of the tile's rows
  (a counted loop over sixteen 8-row sub-chunks) and adds the chunk's sum into the scratch's slice. The output
  window is not stored into. What the scratch ends with is recorded as the list of its stores.
-/
import proofs.«416896_j26147760898484_4_alg».proof.Proof.FrameB.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents and handed back as they were, the
    output's buffer handed back untouched, the scratch at anything before and with its stores (`LS0`) written after. -/
noncomputable def kernelRun0_A (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) :
    Σ' (L3 : List (View.Piece (Elt F) S1x1x512 .f32)), { LS0 : List (View.Piece (Elt F) S1x512 .f32) //
      ∀ (xi3 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨[], ?_, fun xi3 E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameB.R0RunB.lean ====
/-
  The segment-sum kernel's body at a MIDDLE row tile of a batch (0 < r < 7): the scratch comes in holding the
  sums over the batch's earlier tiles; for each of the four admin chunks the tile's one-hot-weighted scores are
  summed (a counted loop over sixteen 8-row sub-chunks) and added into the scratch's slice. Nothing is stored into
  the output window.
-/
import proofs.«416896_j26147760898484_4_alg».proof.Proof.FrameB.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs handed back as they were, the output's buffer untouched, the scratch at the
    contents `xs0` the tile before left and with this tile's stores (`LS0`) written after. -/
noncomputable def kernelRun0_B (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) :
    Σ' (L3 : List (View.Piece (Elt F) S1x1x512 .f32)), { LS0 : List (View.Piece (Elt F) S1x512 .f32) //
      ∀ (xi3 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨[], ?_, fun xi3 E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameB.R0RunC.lean ====
/-
  The segment-sum kernel's body at a batch's LAST row tile (r = 7): as at a middle tile the four chunk sums are
  added into the scratch, which came in holding the sums over the batch's earlier tiles; then the whole scratch,
  now the batch's 512 per-admin sums, is copied into the output block.
-/
import proofs.«416896_j26147760898484_4_alg».proof.Proof.FrameB.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs handed back as they were, the output's buffer at anything before and with
    its one store (`L3`) written after, the scratch at `xs0` before and with this tile's stores (`LS0`) after. -/
noncomputable def kernelRun0_C (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) :
    Σ' (L3 : List (View.Piece (Elt F) S1x1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨?_, ?_, fun E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Hand

end
-- ==== Proof.FrameB.R0Frame.lean ====
/-
  The segment-sum kernel over its whole grid: what the output window's staging buffer and the carried scratch hold
  after each grid point (by recursion on the point: a batch's first row tile starts from zero, every later tile
  adds to what the tile before left), the region's invariant (the scratch at those contents), the proof data of
  the pipeline, and the body's obligation at every point by the three control cases.
-/
import proofs.«416896_j26147760898484_4_alg».proof.Proof.FrameB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves: its stores read back -/

/-- First row tile: nothing is stored into the output window (a placeholder nothing consults). -/
def out0_A_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) : Vec F S1x1x512 .f32 :=
  VO0_3.read (Elt F) (VO0_3.writes (Elt F) VO0_3.junk (kernelRun0_A c i arg2 harg2 arg3 harg3 arg4 harg4 arg5 harg5 arg6 harg6 hc0 hc1 x0 x1 x2).1)
/-- The scratch's stores cover it: the four 128-wide slices tile it. -/
theorem scover0_A_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) (y : S1x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x128.size (by sl_kernel_rfl) y
/-- What the first row tile leaves in the scratch. -/
def sout0_A_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) : Vec F S1x512 .f32 :=
  VS0_0.read (Elt F) (VS0_0.writes (Elt F) VS0_0.junk (kernelRun0_A c i arg2 harg2 arg3 harg3 arg4 harg4 arg5 harg5 arg6 harg6 hc0 hc1 x0 x1 x2).2.1)

/-- Middle row tile: nothing is stored into the output window. -/
def out0_B_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) : Vec F S1x1x512 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) (y : S1x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x128.size (by sl_kernel_rfl) y
/-- What a middle row tile leaves in the scratch, over what the tile before left (`xs0`). -/
def sout0_B_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) : Vec F S1x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Last row tile: the output block's one store covers it. -/
theorem cover0_C_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) (y : S1x1x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x512.size (by sl_kernel_rfl) y
/-- What the last row tile leaves in the output window's staging buffer. -/
def out0_C_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) : Vec F S1x1x512 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) (y : S1x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x128.size (by sl_kernel_rfl) y
/-- What the last row tile leaves in the scratch. -/
def sout0_C_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) : Vec F S1x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The three cases at a grid point, over the point's memrefs and input blocks -/

/-- (output buffer, scratch) after a batch's first row tile. -/
def caseA (c : Dev nD) (t : Fin cfg0.N) (h0 : t.val % 8 = 0) (h1 : ¬t.val % 8 = 7) : Vec F S1x1x512 .f32 × Vec F S1x512 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- (output buffer, scratch) after a middle row tile, the scratch having come in at `prev`. -/
def caseB (c : Dev nD) (t : Fin cfg0.N) (h0 : ¬t.val % 8 = 0) (h1 : ¬t.val % 8 = 7) (prev : Vec F S1x512 .f32) : Vec F S1x1x512 .f32 × Vec F S1x512 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev)
/-- (output buffer, scratch) after a batch's last row tile, the scratch having come in at `prev`. -/
def caseC (c : Dev nD) (t : Fin cfg0.N) (h0 : ¬t.val % 8 = 0) (h1 : t.val % 8 = 7) (prev : Vec F S1x512 .f32) : Vec F S1x1x512 .f32 × Vec F S1x512 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev)

/-! ## What the output buffer and the scratch hold after each point -/

/-- THE ACCUMULATION over the grid: (output window's staging buffer, scratch) after the body at position `n`. -/
def outsAt0 (c : Dev nD) : (n : ℕ) → n < cfg0.N → Vec F S1x1x512 .f32 × Vec F S1x512 .f32
  | 0, hn => caseA V c ⟨0, hn⟩ (Nat.zero_mod _) (show ¬(0 % 8 = 7) from by decide)
  | n + 1, hn =>
    if h0 : (n + 1) % 8 = 0 then caseA V c ⟨n + 1, hn⟩ h0 (fun h => by have h' : (n + 1) % 8 = 7 := h; omega)
    else if h1 : (n + 1) % 8 = 7 then caseC V c ⟨n + 1, hn⟩ h0 h1 (outsAt0 c n (Nat.lt_of_succ_lt hn)).2
    else caseB V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA V c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant: the scratch at what the point before left -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the body the scratch
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold caseA sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the default one back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end

end Cert.Kernel.Hand

end
-- ==== Proof.FrameB.R1Run.lean ====
/-
  The gather kernel (the second pallas_call) on its 8 × 8 grid of (batch, row tile): at a point it reads the
  tile's lights, settlement and admin-id blocks and the batch's [1 × 1 × 512] row of per-admin factors, and, one
  8-row sub-chunk at a time (a counted loop of sixteen trips), stores score · factor[admin id] into the output
  block, the factor picked by a one-hot sum over the four 128-wide admin chunks. Here: the body's run on any whole
  staging memrefs, what the output block ends with recorded as the list of the sixteen trips' stores.
-/
import proofs.«416896_j26147760898484_4_alg».proof.Proof.Gen.Kernel.Launch
import proofs.«416896_j26147760898484_4_alg».proof.Proof.Gen.Kernel.Skeleton
import proofs.«416896_j26147760898484_4_alg».proof.Proof.Gen.Kernel.Points
import proofs.«416896_j26147760898484_4_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the four inputs at their contents and handed back as they were, the output's
    buffer at anything before and with the body's stores (`L4`) written after. -/
noncomputable def kernelRun1 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) :
    { L4 : List (View.Piece (Elt F) S1x1x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__gather_kernel i arg2 harg2 arg3 harg3 arg4 harg4 arg5 harg5 arg6 harg6) K } := by
  refine ⟨?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.FrameB.R1Frame.lean ====
/-
  The gather kernel over its whole grid: a window's block read off its array, that an input's staging buffer
  holds its block at every point (the factor row is fetched only at a batch's first row tile and stays put for
  the other seven), what the output block holds after the body, the pipeline's proof data and the body's
  obligation at every point.
-/
import proofs.«416896_j26147760898484_4_alg».proof.Proof.FrameB.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

/-! ## The memrefs the body is called with -/

abbrev VO1_4 : View sig .tc .vmem S1x1x128x1024 .f32 := (Memref.whole cc1_stg4_0 : Memref sig .tc .vmem S1x1x128x1024 .f32).view
abbrev ms1_0 (t : Fin cfg1.N) : Memref sig .tc .vmem S1x1x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128x1024 .f32 := win1_4.stage (cfg1.slots t 4)
abbrev hs1_4 (t : Fin cfg1.N) : (ms1_4 t).IsWhole := hstage1_4 ((cfg1.slots t 4).cast nbuf1_4)

/-! ## What the body leaves in the output block -/

/-- The sixteen trips' stores, each an 8-row band of the block, tile it. -/
theorem cover1_4 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) (y : S1x1x128x1024.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1x1x8x1024.size (by sl_kernel_rfl) y

/-- What the body leaves in the output window's staging buffer: its stores read back. -/
def out1_4 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) : Vec F S1x1x128x1024 .f32 :=
  VO1_4.read (Elt F) (VO1_4.writes (Elt F) VO1_4.junk (kernelRun1 c i arg2 harg2 arg3 harg3 arg4 harg4 arg5 harg5 arg6 harg6 x0 x1 x2 x3).1)

section
variable (V : (c : Dev nD) → (b : Ref sig .tc) → Buf (Elt F) ((c : Thread nD τ).loc b))

/-- The output block after the body at point `t`, over the point's memrefs and input blocks. -/
def outAt1 (c : Dev nD) (t : Fin cfg1.N) : Vec F S1x1x128x1024 .f32 :=
  out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.FrameB.Run.lean ====
/-
  The whole program: the segment-sum pallas_call, the host operations that turn the per-admin sums into factors
  (census / (sum + eps)), the gather pallas_call. The buffer contents at each boundary are a fold from the launch
  memory: after a pallas_call its arrays hold what its write-backs leave and every other buffer what it held; after
  the host stretch, the operations applied. Each pallas_call enters the several-regions launch theorem as a record
  over the thread state "every unscoped buffer at the boundary's contents, the generator register at some state,
  nothing owed". The run ends with every unscoped buffer at the last boundary's contents: the arguments as
  launched, the result at what the gather's write-backs leave.
-/
import proofs.«416896_j26147760898484_4_alg».proof.Proof.FrameB.R0Frame
import proofs.«416896_j26147760898484_4_alg».proof.Proof.FrameB.R1Frame
import proofs.«416896_j26147760898484_4_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first pallas_call's entry). -/
abbrev W0 : Dev nD → Valuation τ sig (Elt F) := fun c b => m ((c : Dev nD), b)
abbrev V0e : (c : Dev nD) → (b : Ref sig .tc) → Buf (Elt F) ((c : Thread nD τ).loc b) := fun c b => W0 m c b
/-- At the first pallas_call's exit: its arrays at what the pipeline leaves, every other buffer as entered. -/
def W1 (c : Dev nD) : Valuation τ sig (Elt F) :=
  Pipeline.withArrays spec0 c (W0 m c) fun w => (dat0 (V0e m) c).arrAt w cfg0.N
theorem W1_arr (c : Dev nD) (w : Fin cfg0.W) :
    W1 m c (Proc.devRef .tc (Pipeline.arrRef spec0 w)) = (dat0 (V0e m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1e : (c : Dev nD) → (b : Ref sig .tc) → Buf (Elt F) ((c : Thread nD τ).loc b) := fun c b => W1 m c b
theorem hF0 (c : Dev nD) (w : Fin cfg0.W) : (dat0 (V0e m) c).arrAt w cfg0.N = V1e m c (Pipeline.arrRef spec0 w) :=
  (W1_arr m c w).symm
theorem hrest0 (c : Dev nD) : ∀ b, b ∉ Finset.univ.image (Pipeline.arrRef spec0) → V1e m c b = V0e m c b :=
  fun b hb => W1_of_ne m c b fun w e => hb (Finset.mem_image.mpr ⟨w, Finset.mem_univ _, e⟩)

/-- After the host stretch (the second pallas_call's entry). -/
abbrev W2 : Dev nD → Valuation τ sig (Elt F) := fun c => StableHlo.after hostOps1 (W1 m c)
abbrev V2e : (c : Dev nD) → (b : Ref sig .tc) → Buf (Elt F) ((c : Thread nD τ).loc b) := fun c b => W2 m c b
/-- At the second pallas_call's exit. -/
def W3 (c : Dev nD) : Valuation τ sig (Elt F) :=
  Pipeline.withArrays spec1 c (W2 m c) fun w => (dat1 (V2e m) c).arrAt w cfg1.N
theorem W3_arr (c : Dev nD) (w : Fin cfg1.W) :
    W3 m c (Proc.devRef .tc (Pipeline.arrRef spec1 w)) = (dat1 (V2e m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3e : (c : Dev nD) → (b : Ref sig .tc) → Buf (Elt F) ((c : Thread nD τ).loc b) := fun c b => W3 m c b
theorem hF1 (c : Dev nD) (w : Fin cfg1.W) : (dat1 (V2e m) c).arrAt w cfg1.N = V3e m c (Pipeline.arrRef spec1 w) :=
  (W3_arr m c w).symm
theorem hrest1 (c : Dev nD) : ∀ b, b ∉ Finset.univ.image (Pipeline.arrRef spec1) → V3e m c b = V2e m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2e m) c).arrAt_in 0 rfl _).trans (A_eq1 (V2e m) c 0))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0e m) c).arrAt_in 0 rfl _).trans (A_eq0 (V0e m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2e m) c).arrAt_in 1 rfl _).trans (A_eq1 (V2e m) c 1))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0e m) c).arrAt_in 1 rfl _).trans (A_eq0 (V0e m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (V2e m) c).arrAt_in 2 rfl _).trans (A_eq1 (V2e m) c 2))
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 2).trans (((dat0 (V0e m) c).arrAt_in 2 rfl _).trans (A_eq0 (V0e m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-- The result array ends at what the gather pallas_call's write-backs leave. -/
theorem W3_main_v6 (c : Dev nD) : W3 m c (Proc.devRef .tc main_v6) = (dat1 (V2e m) c).arrAt 4 cfg1.N :=
  W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0e m) c
  | ⟨1, _⟩ => fun c => dat1 (V2e m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two pallas_calls as segments -/

set_option backward.isDefEq.respectTransparency.types false in
/-- The segment-sum pallas_call: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0e m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V0e m) c
    unfold Pipeline.ΦA at h
    change (dat0 (V0e m) c).Φ (Fin.last cfg0.N) ⊢ _
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0e m c) (V1e m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pallas_call: entered from `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2e m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2e m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2e m c) (V3e m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh' : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result array at what the gather's write-backs leave, the arguments as launched. -/
theorem run_result : θ_run defs (onTc (τ := τ) (main (F := F))) ⟨m, fun _ => 0, ρ⟩ (fun r => ∀ c : Dev nD,
      r.2.mem ((c.tc : Thread nD τ).loc main_v6) = (dat1 (V2e m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W3_main_v6 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.FrameI.R0Shared.lean ====
/-
  The segment-sum kernel (the first pallas_call) on its 8 × 8 grid of (batch, row tile): what its three control
  cases share. A grid point t = 8·b + r works on batch b, rows 128·r … 128·r + 127. The kernel keeps a [1 × 512]
  scratch across the row tiles of one batch: zeroed at r = 0, added to at every tile, copied to the output block
  of batch b at r = 7. Here: a window's block read off its array, that an input's staging buffer holds its block
  at every point, the two branch conditions in closed form over the grid, where the output window is idle, and
  the names of the staging and scratch memrefs the runs are stated over.
-/
import proofs.«416896_j26147760898484_4_alg».proof.Proof.Gen.KernelIdeal.Launch
import proofs.«416896_j26147760898484_4_alg».proof.Proof.Gen.KernelIdeal.Skeleton
import proofs.«416896_j26147760898484_4_alg».proof.Proof.Gen.KernelIdeal.Points
import proofs.«416896_j26147760898484_4_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- "This is the batch's first row tile" (`pl.when(r == 0)`): the scratch is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last row tile" (`pl.when(r == n_r - 1)`): the scratch is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last row tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x512 .f32 := (Memref.whole cc0_stg3_0 : Memref sig .tc .vmem S1x1x512 .f32).view
abbrev ms0_0 (t : Fin cfg0.N) : Memref sig .tc .vmem S1x1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1x512 .f32 := Memref.whole cc0_scratch0
abbrev VS0_0 : View sig .tc .vmem S1x512 .f32 := scM0_0.view

/-- The second pallas_call's staging buffers, scoped buffers this region never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's default invariant: the scratch as a memref owned at some contents, the other scoped buffers, the
    generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Hand

end
-- ==== Proof.FrameI.R0RunA.lean ====
/-
  The segment-sum kernel's body at a batch's FIRST row tile (r = 0, and not the last): it zeroes the [1 × 512]
  scratch, then for each of the four 128-wide admin chunks sums the one-hot-weighted scores of the tile's rows
  (a counted loop over sixteen 8-row sub-chunks) and adds the chunk's sum into the scratch's slice. The output
  window is not stored into. What the scratch ends with is recorded as the list of its stores.
-/
import proofs.«416896_j26147760898484_4_alg».proof.Proof.FrameI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents and handed back as they were, the
    output's buffer handed back untouched, the scratch at anything before and with its stores (`LS0`) written after. -/
noncomputable def kernelRun0_A (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) :
    Σ' (L3 : List (View.Piece (Elt F) S1x1x512 .f32)), { LS0 : List (View.Piece (Elt F) S1x512 .f32) //
      ∀ (xi3 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨[], ?_, fun xi3 E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameI.R0RunB.lean ====
/-
  The segment-sum kernel's body at a MIDDLE row tile of a batch (0 < r < 7): the scratch comes in holding the
  sums over the batch's earlier tiles; for each of the four admin chunks the tile's one-hot-weighted scores are
  summed (a counted loop over sixteen 8-row sub-chunks) and added into the scratch's slice. Nothing is stored into
  the output window.
-/
import proofs.«416896_j26147760898484_4_alg».proof.Proof.FrameI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs handed back as they were, the output's buffer untouched, the scratch at the
    contents `xs0` the tile before left and with this tile's stores (`LS0`) written after. -/
noncomputable def kernelRun0_B (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) :
    Σ' (L3 : List (View.Piece (Elt F) S1x1x512 .f32)), { LS0 : List (View.Piece (Elt F) S1x512 .f32) //
      ∀ (xi3 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨[], ?_, fun xi3 E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameI.R0RunC.lean ====
/-
  The segment-sum kernel's body at a batch's LAST row tile (r = 7): as at a middle tile the four chunk sums are
  added into the scratch, which came in holding the sums over the batch's earlier tiles; then the whole scratch,
  now the batch's 512 per-admin sums, is copied into the output block.
-/
import proofs.«416896_j26147760898484_4_alg».proof.Proof.FrameI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs handed back as they were, the output's buffer at anything before and with
    its one store (`L3`) written after, the scratch at `xs0` before and with this tile's stores (`LS0`) after. -/
noncomputable def kernelRun0_C (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) :
    Σ' (L3 : List (View.Piece (Elt F) S1x1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sum_kernel i arg2 harg2 arg3 harg3 arg4 harg4 arg5 harg5 arg6 harg6) K } := by
  refine ⟨?_, ?_, fun E K => ?run⟩
  case run =>
    simp only [cc0__sum_kernel_eq_skeleton]; unfold cc0__sum_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Hand

end
-- ==== Proof.FrameI.R0Frame.lean ====
/-
  The segment-sum kernel over its whole grid: what the output window's staging buffer and the carried scratch hold
  after each grid point (by recursion on the point: a batch's first row tile starts from zero, every later tile
  adds to what the tile before left), the region's invariant (the scratch at those contents), the proof data of
  the pipeline, and the body's obligation at every point by the three control cases.
-/
import proofs.«416896_j26147760898484_4_alg».proof.Proof.FrameI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves: its stores read back -/

/-- First row tile: nothing is stored into the output window (a placeholder nothing consults). -/
def out0_A_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) : Vec F S1x1x512 .f32 :=
  VO0_3.read (Elt F) (VO0_3.writes (Elt F) VO0_3.junk (kernelRun0_A c i arg2 harg2 arg3 harg3 arg4 harg4 arg5 harg5 arg6 harg6 hc0 hc1 x0 x1 x2).1)
/-- The scratch's stores cover it: the four 128-wide slices tile it. -/
theorem scover0_A_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) (y : S1x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x128.size (by sl_kernel_rfl) y
/-- What the first row tile leaves in the scratch. -/
def sout0_A_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x1x128x1024 .f32) (x1 : Vec F S1x1x128x1024 .f32) (x2 : Vec F S1x128x1024 .i32) : Vec F S1x512 .f32 :=
  VS0_0.read (Elt F) (VS0_0.writes (Elt F) VS0_0.junk (kernelRun0_A c i arg2 harg2 arg3 harg3 arg4 harg4 arg5 harg5 arg6 harg6 hc0 hc1 x0 x1 x2).2.1)

/-- Middle row tile: nothing is stored into the output window. -/
def out0_B_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) : Vec F S1x1x512 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) (y : S1x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x128.size (by sl_kernel_rfl) y
/-- What a middle row tile leaves in the scratch, over what the tile before left (`xs0`). -/
def sout0_B_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x1x128x1024 .f32) (x1 : Vec F S1x1x128x1024 .f32) (x2 : Vec F S1x128x1024 .i32) (xs0 : Vec F S1x512 .f32) : Vec F S1x512 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Last row tile: the output block's one store covers it. -/
theorem cover0_C_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) (y : S1x1x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x512.size (by sl_kernel_rfl) y
/-- What the last row tile leaves in the output window's staging buffer. -/
def out0_C_3 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) : Vec F S1x1x512 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) (y : S1x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x128.size (by sl_kernel_rfl) y
/-- What the last row tile leaves in the scratch. -/
def sout0_C_0 (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x1x128x1024 .f32) (x1 : Vec F S1x1x128x1024 .f32) (x2 : Vec F S1x128x1024 .i32) (xs0 : Vec F S1x512 .f32) : Vec F S1x512 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The three cases at a grid point, over the point's memrefs and input blocks -/

/-- (output buffer, scratch) after a batch's first row tile. -/
def caseA (c : Dev nD) (t : Fin cfg0.N) (h0 : t.val % 8 = 0) (h1 : ¬t.val % 8 = 7) : Vec F S1x1x512 .f32 × Vec F S1x512 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- (output buffer, scratch) after a middle row tile, the scratch having come in at `prev`. -/
def caseB (c : Dev nD) (t : Fin cfg0.N) (h0 : ¬t.val % 8 = 0) (h1 : ¬t.val % 8 = 7) (prev : Vec F S1x512 .f32) : Vec F S1x1x512 .f32 × Vec F S1x512 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev)
/-- (output buffer, scratch) after a batch's last row tile, the scratch having come in at `prev`. -/
def caseC (c : Dev nD) (t : Fin cfg0.N) (h0 : ¬t.val % 8 = 0) (h1 : t.val % 8 = 7) (prev : Vec F S1x512 .f32) : Vec F S1x1x512 .f32 × Vec F S1x512 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev)

/-! ## What the output buffer and the scratch hold after each point -/

/-- THE ACCUMULATION over the grid: (output window's staging buffer, scratch) after the body at position `n`. -/
def outsAt0 (c : Dev nD) : (n : ℕ) → n < cfg0.N → Vec F S1x1x512 .f32 × Vec F S1x512 .f32
  | 0, hn => caseA V c ⟨0, hn⟩ (Nat.zero_mod _) (show ¬(0 % 8 = 7) from by decide)
  | n + 1, hn =>
    if h0 : (n + 1) % 8 = 0 then caseA V c ⟨n + 1, hn⟩ h0 (fun h => by have h' : (n + 1) % 8 = 7 := h; omega)
    else if h1 : (n + 1) % 8 = 7 then caseC V c ⟨n + 1, hn⟩ h0 h1 (outsAt0 c n (Nat.lt_of_succ_lt hn)).2
    else caseB V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA V c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant: the scratch at what the point before left -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the body the scratch
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold caseA sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the default one back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end

end Cert.KernelIdeal.Hand

end
-- ==== Proof.FrameI.R1Run.lean ====
/-
  The gather kernel (the second pallas_call) on its 8 × 8 grid of (batch, row tile): at a point it reads the
  tile's lights, settlement and admin-id blocks and the batch's [1 × 1 × 512] row of per-admin factors, and, one
  8-row sub-chunk at a time (a counted loop of sixteen trips), stores score · factor[admin id] into the output
  block, the factor picked by a one-hot sum over the four 128-wide admin chunks. Here: the body's run on any whole
  staging memrefs, what the output block ends with recorded as the list of the sixteen trips' stores.
-/
import proofs.«416896_j26147760898484_4_alg».proof.Proof.Gen.KernelIdeal.Launch
import proofs.«416896_j26147760898484_4_alg».proof.Proof.Gen.KernelIdeal.Skeleton
import proofs.«416896_j26147760898484_4_alg».proof.Proof.Gen.KernelIdeal.Points
import proofs.«416896_j26147760898484_4_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the four inputs at their contents and handed back as they were, the output's
    buffer at anything before and with the body's stores (`L4`) written after. -/
noncomputable def kernelRun1 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) :
    { L4 : List (View.Piece (Elt F) S1x1x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__gather_kernel i arg2 harg2 arg3 harg3 arg4 harg4 arg5 harg5 arg6 harg6) K } := by
  refine ⟨?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.FrameI.R1Frame.lean ====
/-
  The gather kernel over its whole grid: a window's block read off its array, that an input's staging buffer
  holds its block at every point (the factor row is fetched only at a batch's first row tile and stays put for
  the other seven), what the output block holds after the body, the pipeline's proof data and the body's
  obligation at every point.
-/
import proofs.«416896_j26147760898484_4_alg».proof.Proof.FrameI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

/-! ## The memrefs the body is called with -/

abbrev VO1_4 : View sig .tc .vmem S1x1x128x1024 .f32 := (Memref.whole cc1_stg4_0 : Memref sig .tc .vmem S1x1x128x1024 .f32).view
abbrev ms1_0 (t : Fin cfg1.N) : Memref sig .tc .vmem S1x1x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128x1024 .f32 := win1_4.stage (cfg1.slots t 4)
abbrev hs1_4 (t : Fin cfg1.N) : (ms1_4 t).IsWhole := hstage1_4 ((cfg1.slots t 4).cast nbuf1_4)

/-! ## What the body leaves in the output block -/

/-- The sixteen trips' stores, each an 8-row band of the block, tile it. -/
theorem cover1_4 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) (y : S1x1x128x1024.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1x1x8x1024.size (by sl_kernel_rfl) y

/-- What the body leaves in the output window's staging buffer: its stores read back. -/
def out1_4 (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole)
    (x0 : Vec F S1x1x128x1024 .f32) (x1 : Vec F S1x1x128x1024 .f32) (x2 : Vec F S1x128x1024 .i32) (x3 : Vec F S1x1x512 .f32) : Vec F S1x1x128x1024 .f32 :=
  VO1_4.read (Elt F) (VO1_4.writes (Elt F) VO1_4.junk (kernelRun1 c i arg2 harg2 arg3 harg3 arg4 harg4 arg5 harg5 arg6 harg6 x0 x1 x2 x3).1)

section
variable (V : (c : Dev nD) → (b : Ref sig .tc) → Buf (Elt F) ((c : Thread nD τ).loc b))

/-- The output block after the body at point `t`, over the point's memrefs and input blocks. -/
def outAt1 (c : Dev nD) (t : Fin cfg1.N) : Vec F S1x1x128x1024 .f32 :=
  out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.FrameI.Run.lean ====
/-
  The whole program: the segment-sum pallas_call, the host operations that turn the per-admin sums into factors
  (census / (sum + eps)), the gather pallas_call. The buffer contents at each boundary are a fold from the launch
  memory: after a pallas_call its arrays hold what its write-backs leave and every other buffer what it held; after
  the host stretch, the operations applied. Each pallas_call enters the several-regions launch theorem as a record
  over the thread state "every unscoped buffer at the boundary's contents, the generator register at some state,
  nothing owed". The run ends with every unscoped buffer at the last boundary's contents: the arguments as
  launched, the result at what the gather's write-backs leave.
-/
import proofs.«416896_j26147760898484_4_alg».proof.Proof.FrameI.R0Frame
import proofs.«416896_j26147760898484_4_alg».proof.Proof.FrameI.R1Frame
import proofs.«416896_j26147760898484_4_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first pallas_call's entry). -/
abbrev W0 : Dev nD → Valuation τ sig (Elt F) := fun c b => m ((c : Dev nD), b)
abbrev V0e : (c : Dev nD) → (b : Ref sig .tc) → Buf (Elt F) ((c : Thread nD τ).loc b) := fun c b => W0 m c b
/-- At the first pallas_call's exit: its arrays at what the pipeline leaves, every other buffer as entered. -/
def W1 (c : Dev nD) : Valuation τ sig (Elt F) :=
  Pipeline.withArrays spec0 c (W0 m c) fun w => (dat0 (V0e m) c).arrAt w cfg0.N
theorem W1_arr (c : Dev nD) (w : Fin cfg0.W) :
    W1 m c (Proc.devRef .tc (Pipeline.arrRef spec0 w)) = (dat0 (V0e m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1e : (c : Dev nD) → (b : Ref sig .tc) → Buf (Elt F) ((c : Thread nD τ).loc b) := fun c b => W1 m c b
theorem hF0 (c : Dev nD) (w : Fin cfg0.W) : (dat0 (V0e m) c).arrAt w cfg0.N = V1e m c (Pipeline.arrRef spec0 w) :=
  (W1_arr m c w).symm
theorem hrest0 (c : Dev nD) : ∀ b, b ∉ Finset.univ.image (Pipeline.arrRef spec0) → V1e m c b = V0e m c b :=
  fun b hb => W1_of_ne m c b fun w e => hb (Finset.mem_image.mpr ⟨w, Finset.mem_univ _, e⟩)

/-- After the host stretch (the second pallas_call's entry). -/
abbrev W2 : Dev nD → Valuation τ sig (Elt F) := fun c => StableHlo.after hostOps1 (W1 m c)
abbrev V2e : (c : Dev nD) → (b : Ref sig .tc) → Buf (Elt F) ((c : Thread nD τ).loc b) := fun c b => W2 m c b
/-- At the second pallas_call's exit. -/
def W3 (c : Dev nD) : Valuation τ sig (Elt F) :=
  Pipeline.withArrays spec1 c (W2 m c) fun w => (dat1 (V2e m) c).arrAt w cfg1.N
theorem W3_arr (c : Dev nD) (w : Fin cfg1.W) :
    W3 m c (Proc.devRef .tc (Pipeline.arrRef spec1 w)) = (dat1 (V2e m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3e : (c : Dev nD) → (b : Ref sig .tc) → Buf (Elt F) ((c : Thread nD τ).loc b) := fun c b => W3 m c b
theorem hF1 (c : Dev nD) (w : Fin cfg1.W) : (dat1 (V2e m) c).arrAt w cfg1.N = V3e m c (Pipeline.arrRef spec1 w) :=
  (W3_arr m c w).symm
theorem hrest1 (c : Dev nD) : ∀ b, b ∉ Finset.univ.image (Pipeline.arrRef spec1) → V3e m c b = V2e m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2e m) c).arrAt_in 0 rfl _).trans (A_eq1 (V2e m) c 0))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0e m) c).arrAt_in 0 rfl _).trans (A_eq0 (V0e m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2e m) c).arrAt_in 1 rfl _).trans (A_eq1 (V2e m) c 1))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (V0e m) c).arrAt_in 1 rfl _).trans (A_eq0 (V0e m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (V2e m) c).arrAt_in 2 rfl _).trans (A_eq1 (V2e m) c 2))
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 2).trans (((dat0 (V0e m) c).arrAt_in 2 rfl _).trans (A_eq0 (V0e m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

/-- The result array ends at what the gather pallas_call's write-backs leave. -/
theorem W3_main_v6 (c : Dev nD) : W3 m c (Proc.devRef .tc main_v6) = (dat1 (V2e m) c).arrAt 4 cfg1.N :=
  W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0e m) c
  | ⟨1, _⟩ => fun c => dat1 (V2e m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two pallas_calls as segments -/

set_option backward.isDefEq.respectTransparency.types false in
/-- The segment-sum pallas_call: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0e m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V0e m) c
    unfold Pipeline.ΦA at h
    change (dat0 (V0e m) c).Φ (Fin.last cfg0.N) ⊢ _
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0e m c) (V1e m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pallas_call: entered from `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2e m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2e m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2e m c) (V3e m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh' : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result array at what the gather's write-backs leave, the arguments as launched. -/
theorem run_result : θ_run defs (onTc (τ := τ) (main (F := F))) ⟨m, fun _ => 0, ρ⟩ (fun r => ∀ c : Dev nD,
      r.2.mem ((c.tc : Thread nD τ).loc main_v6) = (dat1 (V2e m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W3_main_v6 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.Spec.lean ====
/-
  WHAT BOTH PROGRAMS COMPUTE, over the extended reals.

  Inputs: lights L and settlement S, [8 × 1 × 1024 × 1024] floats; admin ids A, [8 × 1024 × 1024] 32-bit words; census
  totals C, [512] floats. With λ the float 0.01 and ε the float 1e-8 (as their binary values):

    score b r w   = (L[b,0,r,w] + λ) · (S[b,0,r,w] + λ)
    segSum b k    = Σ over the pixels (r, w) of batch b with A[b,r,w] = k of score b r w      (k < 512)
    factor b k    = C[k] / (segSum b k + ε)
    out[b,0,r,w]  = score b r w · factor b A[b,r,w]

  The sum over a segment is written with a one-hot weight (1 where the pixel's id is k, else 0), and the factor
  picked for a pixel as the one-hot-weighted sum over the 512 ids: that is how the kernel computes both, and on the
  extended reals 0 · x = 0 and 1 · x = x for every x, so the weighted sums ARE the segment sum and the picked factor
  whenever the id is one of the 512. The reference forms the segment sum by a scatter-add over the flattened pixels
  with segment id A + 512·b, and picks the factor by a gather at (b, A): the same numbers for ids in range.
-/
import Idealize.ShloMosaic.PureOps.Ideal
import Idealize.ShloMosaic.Lib.ValueIdx

open scoped BigOperators

noncomputable section

namespace Cert.Spec

open Idealize.ShloMosaic Idealize.ShloMosaic.ValueIdx

abbrev Simg : Shape := ⟨4, ![8, 1, 1024, 1024]⟩
abbrev Sadm : Shape := ⟨3, ![8, 1024, 1024]⟩
abbrev Scen : Shape := ⟨1, ![512]⟩
abbrev Ssum : Shape := ⟨3, ![8, 1, 512]⟩

/-- The float 0.01, as its binary value. -/
def lam : EReal := Ideal.ofBits .f32 0x3C23D70A#32
/-- The float 1e-8, as its binary value. -/
def eps : EReal := Ideal.ofBits .f32 0x322BCC77#32

/-- A pixel's score. -/
def score (Lt St : FVec Ideal Simg .f32) (b : Fin 8) (r w : Fin 1024) : EReal :=
  (Lt (ix4 b 0 r w) + lam) * (St (ix4 b 0 r w) + lam)

/-- The one-hot weight of id word `a` at admin unit `k`. -/
def oh (a : BitVec 32) (k : Fin 512) : EReal := if a = BitVec.ofNat 32 k.val then 1 else 0

/-- The sum of the scores of batch `b`'s pixels whose id is `k`. -/
def segSum (Lt St : FVec Ideal Simg .f32) (A : IVec Sadm 32) (b : Fin 8) (k : Fin 512) : EReal :=
  ∑ r : Fin 1024, ∑ w : Fin 1024, oh (A (ix3 b r w)) k * score Lt St b r w

/-- The normalising factor of admin unit `k` in batch `b`, from the segment sums. -/
def factor (C : FVec Ideal Scen .f32) (sums : Fin 8 → Fin 512 → EReal) (b : Fin 8) (k : Fin 512) : EReal :=
  Ideal.div (C (ix1 k)) (sums b k + eps)

/-- The factor picked for a pixel: the one-hot-weighted sum over the 512 admin units. -/
def pick (A : IVec Sadm 32) (fac : Fin 8 → Fin 512 → EReal) (b : Fin 8) (r w : Fin 1024) : EReal :=
  ∑ k : Fin 512, oh (A (ix3 b r w)) k * fac b k

/-- The result at a pixel. -/
def outAt (Lt St : FVec Ideal Simg .f32) (A : IVec Sadm 32) (C : FVec Ideal Scen .f32) (b : Fin 8) (r w : Fin 1024) : EReal :=
  score Lt St b r w * pick A (factor C (segSum Lt St A)) b r w

/-- The result array. -/
def out (Lt St : FVec Ideal Simg .f32) (A : IVec Sadm 32) (C : FVec Ideal Scen .f32) : FVec Ideal Simg .f32 :=
  fun i => outAt Lt St A C (i 0 : Fin 8) (i 2 : Fin 1024) (i 3 : Fin 1024)

theorem out_apply (Lt St : FVec Ideal Simg .f32) (A : IVec Sadm 32) (C : FVec Ideal Scen .f32) (b : Fin 8) (r w : Fin 1024) :
    out Lt St A C (ix4 b 0 r w) = outAt Lt St A C b r w := rfl

/-- Every admin id is one of the 512 units. -/
def InRange (A : IVec Sadm 32) : Prop := ∀ (b : Fin 8) (r w : Fin 1024), ∃ k : Fin 512, A (ix3 b r w) = BitVec.ofNat 32 k.val

/-! ## The reference's flattened pixels -/

/-- Flat pixel `p` of the 8·1024·1024 (row-major over batch, row, column): its batch, row and column. -/
def pb (p : Fin 8388608) : Fin 8 := ⟨p.val / 1048576, by have := p.isLt; omega⟩
def pr (p : Fin 8388608) : Fin 1024 := ⟨p.val / 1024 % 1024, Nat.mod_lt _ (by decide)⟩
def pw (p : Fin 8388608) : Fin 1024 := ⟨p.val % 1024, Nat.mod_lt _ (by decide)⟩

/-- The reference's segment id of flat pixel `p`: its admin id plus 512 times its batch, as 32-bit words. -/
def segWord (A : IVec Sadm 32) (p : Fin 8388608) : BitVec 32 :=
  A (ix3 (pb p) (pr p) (pw p)) + 512#32 * BitVec.ofNat 32 (pb p).val

/-- The reference's segment sum: the scores of the flat pixels whose segment id, read signed, is 512·b + k. -/
def flatSum (Lt St : FVec Ideal Simg .f32) (A : IVec Sadm 32) (b : Fin 8) (k : Fin 512) : EReal :=
  ∑ p ∈ Finset.univ.filter (fun p : Fin 8388608 => (segWord A p).toInt = ((512 * b.val + k.val : ℕ) : ℤ)), score Lt St (pb p) (pr p) (pw p)

end Cert.Spec

end
-- ==== Proof.LibKeepdims.lean ====
/-
  KEEPDIMS LAYOUT OPERATIONS READ AT AN INDEX: a [1 × 1 × a × b] block viewed as [a × b], an [a × b] array given a
  trailing unit axis, and an [a × b × 1] array repeated along its last axis to [a × b × c] — the forms a
  `sum(..., keepdims=True)` or a `x[:, :, None]` against a lane axis lowers to. Each reads its operand at the evident
  index; the proofs are row-major arithmetic over the library's `shapeCast_apply` / `broadcastTo_apply`.
-/
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, 1, a, b]` block cast to `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b, 1]` array repeated along its last axis to `[a, b, c]` reads, at `(i, j, k)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibKeepdims
-- ==== Proof.ValueI.K0Point.lean ====
/-
  The segment-sum kernel at one grid point, read as numbers: what one row tile adds to the scratch. The tile's
  contribution to admin unit k is the sum over the tile's 128 × 1024 pixels of the one-hot weight of the pixel's id at
  k times the pixel's score; the kernel forms it in four 128-wide chunks of k, each as a loop over sixteen 8-row
  sub-chunks of lane sums: the same sum, regrouped. At a batch's first tile the scratch starts from zero; at every
  later tile it adds to what came in; at the last tile the output block is the scratch.
-/
import proofs.«416896_j26147760898484_4_alg».proof.Proof.FrameI.R0Frame
import proofs.«416896_j26147760898484_4_alg».proof.Proof.Spec
import proofs.«416896_j26147760898484_4_alg».proof.Proof.LibKeepdims
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.LibKeepdims
open scoped BigOperators

/-- One row tile's contribution to admin unit `k`, from the tile's three input blocks. -/
def tileSum (x0 x1 : Vec Ideal S1x1x128x1024 .f32) (x2 : Vec Ideal S1x128x1024 .i32) (k : Fin 512) : EReal :=
  ∑ ρ : Fin 128, ∑ w : Fin 1024, Cert.Spec.oh (x2 (ix3 0 ρ w)) k * ((x0 (ix4 0 0 ρ w) + Cert.Spec.lam) * (x1 (ix4 0 0 ρ w) + Cert.Spec.lam))

/-- The one-hot word: an equality test widened to 32 bits and read as a number is 1 or 0. -/
theorem onehot_word (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.mpr h]
    show (((((1#1 : BitVec 1).setWidth 32).toInt : ℤ) : ℝ) : EReal) = 1
    have e : ((1#1 : BitVec 1).setWidth 32).toInt = 1 := by decide
    rw [e]; simp
  · rw [if_neg h, eq_zero_of_ne_one (fun e => h (StableHlo.Predicate.cmpi_eq_iff.mp e))]
    show (((((0#1 : BitVec 1).setWidth 32).toInt : ℤ) : ℝ) : EReal) = 0
    have e : ((0#1 : BitVec 1).setWidth 32).toInt = 0 := by decide
    rw [e]; simp

theorem lift_1024 (h : S1024x128.Reduces [0] S128) (l : Fin 128) (w : Fin 1024) : h.lift (ix1 l) w = ix2 w l := by
  funext a
  match a with
  | ⟨0, _⟩ => exact Fin.ext rfl
  | ⟨1, _⟩ => exact Fin.ext rfl

theorem lift_8 (h : S8x1024x128.Reduces [0] S1024x128) (w : Fin 1024) (l : Fin 128) (s : Fin 8) : h.lift (ix2 w l) s = ix3 s w l := by
  funext a
  match a with
  | ⟨0, _⟩ => exact Fin.ext rfl
  | ⟨1, _⟩ => exact Fin.ext rfl
  | ⟨2, _⟩ => exact Fin.ext rfl

/-- The trip's payload at lane l: the carried value plus the trip's 8 × 1024 one-hot-weighted scores. -/
theorem pay_apply (v25 : IVec S8x1024x128 32) (acc : FVec Ideal S1x128 .f32) (v50 v53 : Vec Ideal S1x1x8x1024 .f32) (v56 : Vec Ideal S1x8x1024 .i32) (l : Fin 128) :
    k0_pay1 (F := Ideal) v25 acc v50 v53 v56 (ix2 0 l) = acc (ix2 0 l) + ∑ w : Fin 1024, ∑ s : Fin 8,
      (if v56 (ix3 0 s w) = v25 (ix3 s w l) then (1 : EReal) else 0) * ((v50 (ix4 0 0 s w) + Cert.Spec.lam) * (v53 (ix4 0 0 s w) + Cert.Spec.lam)) := by
  unfold k0_pay1
  dsimp only
  refine (addf_apply _ _ _).trans ?_
  refine congrArg (fun z => acc (ix2 0 l) + z) ?_
  refine (shapeCast_a_1a_apply _ _ 0 l).trans ?_
  refine (Ideal.multiReduction_add_single _ _ _ _ _ (ix1 l)).trans ?_
  show ∑ w : Fin 1024, _ = _
  refine Finset.sum_congr rfl fun w _ => ?_
  rw [lift_1024]
  refine (Ideal.multiReduction_add_single _ _ _ _ _ (ix2 w l)).trans ?_
  show ∑ s : Fin 8, _ = _
  refine Finset.sum_congr rfl fun s _ => ?_
  rw [lift_8]
  refine (mulf_apply _ _ _).trans ?_
  refine congrArg₂ (· * ·) ?_ ?_
  · refine (onehot_word _ _).trans ?_
    have eA : broadcastTo S8x1024x128
              (shapeCast S8x1024x1 (shapeCast S8x1024 v56 shapeCasts_S1x8x1024_S8x1024) shapeCasts_S8x1024_S8x1024x1)
              broadcasts_S8x1024x1_S8x1024x128 (ix3 s w l) = v56 (ix3 0 s w) :=
      (broadcastTo_ab1_abc_apply _ _ s w l).trans ((shapeCast_ab_ab1_apply _ _ s w 0).trans (shapeCast_1ab_ab_apply _ _ s w))
    rw [eA]
  · refine (broadcastTo_ab1_abc_apply _ _ s w l).trans ((shapeCast_ab_ab1_apply _ _ s w 0).trans ?_)
    refine (mulf_apply _ _ _).trans ?_
    refine congrArg₂ (· * ·) ?_ ?_
    · refine (addf_apply _ _ _).trans ?_
      rw [shapeCast_11ab_ab_apply]; rfl
    · refine (addf_apply _ _ _).trans ?_
      rw [shapeCast_11ab_ab_apply]; rfl

/-- One pixel's term of a tile's contribution to admin unit k. -/
def term (x0 x1 : Vec Ideal S1x1x128x1024 .f32) (x2 : Vec Ideal S1x128x1024 .i32) (k : Fin 512) (ρ : Fin 128) (w : Fin 1024) : EReal :=
  Cert.Spec.oh (x2 (ix3 0 ρ w)) k * ((x0 (ix4 0 0 ρ w) + Cert.Spec.lam) * (x1 (ix4 0 0 ρ w) + Cert.Spec.lam))

/-- The lane ids of the chunk that starts at admin unit n. -/
def lanes (n : ℕ) : IVec S8x1024x128 32 :=
  addi (iota .tc S8x1024x128 32 [2] iota_S8x1024x128_d2_w32) (broadcast S8x1024x128 (BitVec.ofNat 32 n))

theorem lanes_apply (n : ℕ) (s : Fin 8) (w : Fin 1024) (l : Fin 128) : lanes n (ix3 s w l) = BitVec.ofNat 32 (n + l.val) := by
  unfold lanes
  show iota .tc S8x1024x128 32 [2] iota_S8x1024x128_d2_w32 (ix3 s w l) + BitVec.ofNat 32 n = _
  rw [iota_single_apply]
  show BitVec.ofNat 32 l.val + BitVec.ofNat 32 n = _
  rw [← BitVec.ofNat_add, Nat.add_comm]

/-- A trip's 8-row load of a score block, the block held whole. -/
theorem read_tile4 {m : Memref sig .tc .vmem S1x1x128x1024 .f32} (h : m.IsWhole) (x : Vec Ideal S1x1x128x1024 .f32)
    (kk : ℕ) (hkk : kk < 16) (off : Fin 4 → ℕ) (hoff : off = ![0, 0, 8 * kk, 0]) (inb : ∀ a, off a + S1x1x8x1024.size a ≤ S1x1x128x1024.size a) (s : Fin 8) (w : Fin 1024) :
    View.readAt (Elt Ideal) m.view (Rect.unit (s := S1x1x128x1024) off S1x1x8x1024.size inb).toLoadRect (h.unread x) (ix4 0 0 s w)
      = x (ix4 0 0 ⟨8 * kk + s.val, by omega⟩ w) := by
  subst hoff
  refine (Memref.IsWhole.readAt_unread h x _ _).trans ?_
  refine congrArg x ?_
  funext a
  match a with
  | ⟨0, _⟩ => exact Fin.ext rfl
  | ⟨1, _⟩ => exact Fin.ext rfl
  | ⟨2, _⟩ => exact Fin.ext (by show 8 * kk + 1 * s.val = 8 * kk + s.val; omega)
  | ⟨3, _⟩ => exact Fin.ext (by show 0 + 1 * w.val = w.val; omega)

/-- A trip's 8-row load of the id block. -/
theorem read_tile3 {m : Memref sig .tc .vmem S1x128x1024 .i32} (h : m.IsWhole) (x : Vec Ideal S1x128x1024 .i32)
    (kk : ℕ) (hkk : kk < 16) (off : Fin 3 → ℕ) (hoff : off = ![0, 8 * kk, 0]) (inb : ∀ a, off a + S1x8x1024.size a ≤ S1x128x1024.size a) (s : Fin 8) (w : Fin 1024) :
    View.readAt (Elt Ideal) m.view (Rect.unit (s := S1x128x1024) off S1x8x1024.size inb).toLoadRect (h.unread x) (ix3 0 s w)
      = x (ix3 0 ⟨8 * kk + s.val, by omega⟩ w) := by
  subst hoff
  refine (Memref.IsWhole.readAt_unread h x _ _).trans ?_
  refine congrArg x ?_
  funext a
  match a with
  | ⟨0, _⟩ => exact Fin.ext rfl
  | ⟨1, _⟩ => exact Fin.ext (by show 8 * kk + 1 * s.val = 8 * kk + s.val; omega)
  | ⟨2, _⟩ => exact Fin.ext (by show 0 + 1 * w.val = w.val; omega)

/-- One trip at lane l: the carried value plus the trip's eight rows of terms. -/
theorem trip_lane (n : ℕ) {m2 m3 : Memref sig .tc .vmem S1x1x128x1024 .f32} {m4 : Memref sig .tc .vmem S1x128x1024 .i32}
    (h2 : m2.IsWhole) (h3 : m3.IsWhole) (h4 : m4.IsWhole)
    (x0 x1 : Vec Ideal S1x1x128x1024 .f32) (x2 : Vec Ideal S1x128x1024 .i32)
    (kk : ℕ) (hkk : kk < 16) (offA : Fin 4 → ℕ) (hA : offA = ![0, 0, 8 * kk, 0]) (offB : Fin 3 → ℕ) (hB : offB = ![0, 8 * kk, 0])
    (inbA : ∀ a, offA a + S1x1x8x1024.size a ≤ S1x1x128x1024.size a) (inbB : ∀ a, offB a + S1x8x1024.size a ≤ S1x128x1024.size a)
    (acc : FVec Ideal S1x128 .f32) (l : Fin 128) (k : Fin 512) (hk : k.val = n + l.val) :
    k0_pay1 (F := Ideal) (lanes n) acc
        (View.readAt (Elt Ideal) m2.view (Rect.unit (s := S1x1x128x1024) offA S1x1x8x1024.size inbA).toLoadRect (h2.unread x0))
        (View.readAt (Elt Ideal) m3.view (Rect.unit (s := S1x1x128x1024) offA S1x1x8x1024.size inbA).toLoadRect (h3.unread x1))
        (View.readAt (Elt Ideal) m4.view (Rect.unit (s := S1x128x1024) offB S1x8x1024.size inbB).toLoadRect (h4.unread x2)) (ix2 0 l)
      = acc (ix2 0 l) + ∑ w : Fin 1024, ∑ s : Fin 8, term x0 x1 x2 k ⟨8 * kk + s.val, by omega⟩ w := by
  refine (pay_apply _ _ _ _ _ l).trans ?_
  refine congrArg (fun z => acc (ix2 0 l) + z) ?_
  refine Finset.sum_congr rfl fun w _ => Finset.sum_congr rfl fun s _ => ?_
  rw [read_tile4 h2 x0 kk hkk offA hA inbA s w, read_tile4 h3 x1 kk hkk offA hA inbA s w, read_tile3 h4 x2 kk hkk offB hB inbB s w, lanes_apply, ← hk]
  rfl

/-- A value carried through n steps, each adding its own amount at the place read, ends at the start plus the amounts. -/
theorem iter_sum {X : Type} (f : X → EReal) : ∀ (n : ℕ) (step : Fin n → X → X) (T : Fin n → EReal) (st : ℕ → X)
    (hs : ∀ k : Fin n, st (k.val + 1) = step k (st k.val)) (hf : ∀ (k : Fin n) (a : X), f (step k a) = f a + T k),
    f (st n) = f (st 0) + ∑ k : Fin n, T k
  | 0, _, _, _, _, _ => by simp
  | n + 1, step, T, st, hs, hf => by
    have ih := iter_sum f n (fun k => step k.castSucc) (fun k => T k.castSucc) st (fun k => hs k.castSucc) (fun k a => hf k.castSucc a)
    have hl : st (n + 1) = step (Fin.last n) (st n) := hs (Fin.last n)
    rw [hl, hf, ih, Fin.sum_univ_castSucc, add_assoc]

/-- Sixteen groups of eight rows are the tile's 128 rows. -/
theorem regroup (g : Fin 128 → Fin 1024 → EReal) :
    ∑ kk : Fin 16, ∑ w : Fin 1024, ∑ s : Fin 8, g ⟨8 * kk.val + s.val, by have := kk.isLt; have := s.isLt; omega⟩ w
      = ∑ ρ : Fin 128, ∑ w : Fin 1024, g ρ w := by
  have e1 : ∀ kk : Fin 16, ∑ w : Fin 1024, ∑ s : Fin 8, g ⟨8 * kk.val + s.val, by have := kk.isLt; have := s.isLt; omega⟩ w
      = ∑ s : Fin 8, ∑ w : Fin 1024, g ⟨8 * kk.val + s.val, by have := kk.isLt; have := s.isLt; omega⟩ w := fun kk => Finset.sum_comm
  rw [Finset.sum_congr rfl fun kk _ => e1 kk]
  have e2 := Fintype.sum_prod_type (fun p : Fin 16 × Fin 8 => ∑ w : Fin 1024, g ⟨8 * p.1.val + p.2.val, by have := p.1.isLt; have := p.2.isLt; omega⟩ w)
  refine e2.symm.trans ?_
  refine Fintype.sum_equiv (finProdFinEquiv.trans (finCongr (by norm_num : 16 * 8 = 128))) _ _ fun p => ?_
  refine Finset.sum_congr rfl fun w _ => congrArg (fun ρ => g ρ w) (Fin.ext ?_)
  simp [finProdFinEquiv]
  omega

/-- A chunk's loop, read at lane l: a carried value whose every step is the chunk's payload of the loads at the
    step's eight rows ends, after sixteen steps, at its start plus the tile's terms for admin unit n + l. -/
theorem loop_lane (n : ℕ) {m2 m3 : Memref sig .tc .vmem S1x1x128x1024 .f32} {m4 : Memref sig .tc .vmem S1x128x1024 .i32}
    (h2 : m2.IsWhole) (h3 : m3.IsWhole) (h4 : m4.IsWhole)
    (x0 x1 : Vec Ideal S1x1x128x1024 .f32) (x2 : Vec Ideal S1x128x1024 .i32)
    (offA : Fin 16 → Fin 4 → ℕ) (hA : ∀ kk, offA kk = ![0, 0, 8 * kk.val, 0])
    (offB : Fin 16 → Fin 3 → ℕ) (hB : ∀ kk, offB kk = ![0, 8 * kk.val, 0])
    (inbA : ∀ kk, ∀ a, offA kk a + S1x1x8x1024.size a ≤ S1x1x128x1024.size a)
    (inbB : ∀ kk, ∀ a, offB kk a + S1x8x1024.size a ≤ S1x128x1024.size a)
    (st : ℕ → FVec Ideal S1x128 .f32)
    (hs : ∀ kk : Fin 16, st (kk.val + 1) = k0_pay1 (F := Ideal) (lanes n) (st kk.val)
        (View.readAt (Elt Ideal) m2.view (Rect.unit (s := S1x1x128x1024) (offA kk) S1x1x8x1024.size (inbA kk)).toLoadRect (h2.unread x0))
        (View.readAt (Elt Ideal) m3.view (Rect.unit (s := S1x1x128x1024) (offA kk) S1x1x8x1024.size (inbA kk)).toLoadRect (h3.unread x1))
        (View.readAt (Elt Ideal) m4.view (Rect.unit (s := S1x128x1024) (offB kk) S1x8x1024.size (inbB kk)).toLoadRect (h4.unread x2)))
    (l : Fin 128) (k : Fin 512) (hk : k.val = n + l.val) :
    st 16 (ix2 0 l) = st 0 (ix2 0 l) + ∑ ρ : Fin 128, ∑ w : Fin 1024, term x0 x1 x2 k ρ w := by
  have h := iter_sum (fun v : FVec Ideal S1x128 .f32 => v (ix2 0 l)) 16
    (fun kk acc => k0_pay1 (F := Ideal) (lanes n) acc
        (View.readAt (Elt Ideal) m2.view (Rect.unit (s := S1x1x128x1024) (offA kk) S1x1x8x1024.size (inbA kk)).toLoadRect (h2.unread x0))
        (View.readAt (Elt Ideal) m3.view (Rect.unit (s := S1x1x128x1024) (offA kk) S1x1x8x1024.size (inbA kk)).toLoadRect (h3.unread x1))
        (View.readAt (Elt Ideal) m4.view (Rect.unit (s := S1x128x1024) (offB kk) S1x8x1024.size (inbB kk)).toLoadRect (h4.unread x2)))
    (fun kk => ∑ w : Fin 1024, ∑ s : Fin 8, term x0 x1 x2 k ⟨8 * kk.val + s.val, by have := kk.isLt; have := s.isLt; omega⟩ w)
    st hs
    (fun kk acc => trip_lane n h2 h3 h4 x0 x1 x2 kk.val kk.isLt (offA kk) (hA kk) (offB kk) (hB kk) (inbA kk) (inbB kk) acc l k hk)
  refine h.trans ?_
  refine congrArg (fun z => st 0 (ix2 0 l) + z) ?_
  exact regroup (fun ρ w => term x0 x1 x2 k ρ w)

/-- Trip k of the first chunk's loop yields the chunk's payload of the three loads at the trip's rows. -/
theorem tripR1_eq (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (X2 : BufTy.Contents (Elt Ideal) arg2.view.ty) (X3 : BufTy.Contents (Elt Ideal) arg3.view.ty) (X4 : BufTy.Contents (Elt Ideal) arg4.view.ty)
    (k : Fin k0_t1_loop.trips) (acc : FVec Ideal S1x128 .f32) :
    tripR_k0_t1 (F := Ideal) Variants.none c none i arg2 harg2 arg3 harg3 arg4 harg4 arg5 harg5 arg6 harg6 X2 X3 X4 k acc
      = k0_pay1 (F := Ideal) (lanes 0) acc
          (View.readAt (Elt Ideal) arg2.view (Rect.unit (s := S1x1x128x1024) (k0_off1 k) S1x1x8x1024.size (k0_off1_inb k)).toLoadRect X2)
          (View.readAt (Elt Ideal) arg3.view (Rect.unit (s := S1x1x128x1024) (k0_off1 k) S1x1x8x1024.size (k0_off1_inb k)).toLoadRect X3)
          (View.readAt (Elt Ideal) arg4.view (Rect.unit (s := S1x128x1024) (k0_off2 k) S1x8x1024.size (k0_off2_inb k)).toLoadRect X4) := by
  unfold tripR_k0_t1 trip_k0_t1
  rfl

/-- The first chunk's loop after its sixteen trips, at lane l. -/
theorem loop1_lane (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (x0 x1 : Vec Ideal S1x1x128x1024 .f32) (x2 : Vec Ideal S1x128x1024 .i32) (init : FVec Ideal S1x128 .f32) (l : Fin 128) (k : Fin 512) (hk : k.val = 0 + l.val) :
    st_k0_t1 (F := Ideal) Variants.none c none i arg2 harg2 arg3 harg3 arg4 harg4 arg5 harg5 arg6 harg6 (harg2.unread x0) (harg3.unread x1) (harg4.unread x2) init 16 (ix2 0 l)
      = init (ix2 0 l) + ∑ ρ : Fin 128, ∑ w : Fin 1024, term x0 x1 x2 k ρ w :=
  loop_lane 0 harg2 harg3 harg4 x0 x1 x2 (fun kk => k0_off1 kk) (fun kk => k0_off1_eq kk) (fun kk => k0_off2 kk) (fun kk => k0_off2_eq kk)
    (fun kk => k0_off1_inb kk) (fun kk => k0_off2_inb kk)
    (st_k0_t1 (F := Ideal) Variants.none c none i arg2 harg2 arg3 harg3 arg4 harg4 arg5 harg5 arg6 harg6 (harg2.unread x0) (harg3.unread x1) (harg4.unread x2) init)
    (fun kk => (st_k0_t1_succ (F := Ideal) Variants.none c none i arg2 harg2 arg3 harg3 arg4 harg4 arg5 harg5 arg6 harg6 (harg2.unread x0) (harg3.unread x1) (harg4.unread x2) init kk).trans
      (tripR1_eq c i arg2 harg2 arg3 harg3 arg4 harg4 arg5 harg5 arg6 harg6 _ _ _ kk _)) l k hk

/-- Trip k of the second chunk's loop yields the chunk's payload of the three loads at the trip's rows. -/
theorem tripR2_eq (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (X2 : BufTy.Contents (Elt Ideal) arg2.view.ty) (X3 : BufTy.Contents (Elt Ideal) arg3.view.ty) (X4 : BufTy.Contents (Elt Ideal) arg4.view.ty)
    (k : Fin k0_t2_loop.trips) (acc : FVec Ideal S1x128 .f32) :
    tripR_k0_t2 (F := Ideal) Variants.none c none i arg2 harg2 arg3 harg3 arg4 harg4 arg5 harg5 arg6 harg6 X2 X3 X4 k acc
      = k0_pay1 (F := Ideal) (lanes 128) acc
          (View.readAt (Elt Ideal) arg2.view (Rect.unit (s := S1x1x128x1024) (k0_off3 k) S1x1x8x1024.size (k0_off3_inb k)).toLoadRect X2)
          (View.readAt (Elt Ideal) arg3.view (Rect.unit (s := S1x1x128x1024) (k0_off3 k) S1x1x8x1024.size (k0_off3_inb k)).toLoadRect X3)
          (View.readAt (Elt Ideal) arg4.view (Rect.unit (s := S1x128x1024) (k0_off4 k) S1x8x1024.size (k0_off4_inb k)).toLoadRect X4) := by
  unfold tripR_k0_t2 trip_k0_t2
  rfl

/-- The second chunk's loop after its sixteen trips, at lane l. -/
theorem loop2_lane (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (x0 x1 : Vec Ideal S1x1x128x1024 .f32) (x2 : Vec Ideal S1x128x1024 .i32) (init : FVec Ideal S1x128 .f32) (l : Fin 128) (k : Fin 512) (hk : k.val = 128 + l.val) :
    st_k0_t2 (F := Ideal) Variants.none c none i arg2 harg2 arg3 harg3 arg4 harg4 arg5 harg5 arg6 harg6 (harg2.unread x0) (harg3.unread x1) (harg4.unread x2) init 16 (ix2 0 l)
      = init (ix2 0 l) + ∑ ρ : Fin 128, ∑ w : Fin 1024, term x0 x1 x2 k ρ w :=
  loop_lane 128 harg2 harg3 harg4 x0 x1 x2 (fun kk => k0_off3 kk) (fun kk => k0_off3_eq kk) (fun kk => k0_off4 kk) (fun kk => k0_off4_eq kk)
    (fun kk => k0_off3_inb kk) (fun kk => k0_off4_inb kk)
    (st_k0_t2 (F := Ideal) Variants.none c none i arg2 harg2 arg3 harg3 arg4 harg4 arg5 harg5 arg6 harg6 (harg2.unread x0) (harg3.unread x1) (harg4.unread x2) init)
    (fun kk => (st_k0_t2_succ (F := Ideal) Variants.none c none i arg2 harg2 arg3 harg3 arg4 harg4 arg5 harg5 arg6 harg6 (harg2.unread x0) (harg3.unread x1) (harg4.unread x2) init kk).trans
      (tripR2_eq c i arg2 harg2 arg3 harg3 arg4 harg4 arg5 harg5 arg6 harg6 _ _ _ kk _)) l k hk

/-- Trip k of the third chunk's loop, which is handed its lane ids, yields the chunk's payload likewise. -/
theorem tripR3_eq (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (X2 : BufTy.Contents (Elt Ideal) arg2.view.ty) (X3 : BufTy.Contents (Elt Ideal) arg3.view.ty) (X4 : BufTy.Contents (Elt Ideal) arg4.view.ty)
    (k : Fin k0_t3_loop.trips) (acc : FVec Ideal S1x128 .f32) :
    tripR_k0_t3 (F := Ideal) Variants.none c none i arg2 harg2 arg3 harg3 arg4 harg4 arg5 harg5 arg6 harg6 k0_pay14 X2 X3 X4 k acc
      = k0_pay1 (F := Ideal) (lanes 256) acc
          (View.readAt (Elt Ideal) arg2.view (Rect.unit (s := S1x1x128x1024) (k0_off5 k) S1x1x8x1024.size (k0_off5_inb k)).toLoadRect X2)
          (View.readAt (Elt Ideal) arg3.view (Rect.unit (s := S1x1x128x1024) (k0_off5 k) S1x1x8x1024.size (k0_off5_inb k)).toLoadRect X3)
          (View.readAt (Elt Ideal) arg4.view (Rect.unit (s := S1x128x1024) (k0_off6 k) S1x8x1024.size (k0_off6_inb k)).toLoadRect X4) := by
  unfold tripR_k0_t3 trip_k0_t3
  rfl

/-- The third chunk's loop after its sixteen trips, at lane l. -/
theorem loop3_lane (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (x0 x1 : Vec Ideal S1x1x128x1024 .f32) (x2 : Vec Ideal S1x128x1024 .i32) (init : FVec Ideal S1x128 .f32) (l : Fin 128) (k : Fin 512) (hk : k.val = 256 + l.val) :
    st_k0_t3 (F := Ideal) Variants.none c none i arg2 harg2 arg3 harg3 arg4 harg4 arg5 harg5 arg6 harg6 k0_pay14 (harg2.unread x0) (harg3.unread x1) (harg4.unread x2) init 16 (ix2 0 l)
      = init (ix2 0 l) + ∑ ρ : Fin 128, ∑ w : Fin 1024, term x0 x1 x2 k ρ w :=
  loop_lane 256 harg2 harg3 harg4 x0 x1 x2 (fun kk => k0_off5 kk) (fun kk => k0_off5_eq kk) (fun kk => k0_off6 kk) (fun kk => k0_off6_eq kk)
    (fun kk => k0_off5_inb kk) (fun kk => k0_off6_inb kk)
    (st_k0_t3 (F := Ideal) Variants.none c none i arg2 harg2 arg3 harg3 arg4 harg4 arg5 harg5 arg6 harg6 k0_pay14 (harg2.unread x0) (harg3.unread x1) (harg4.unread x2) init)
    (fun kk => (st_k0_t3_succ (F := Ideal) Variants.none c none i arg2 harg2 arg3 harg3 arg4 harg4 arg5 harg5 arg6 harg6 k0_pay14 (harg2.unread x0) (harg3.unread x1) (harg4.unread x2) init kk).trans
      (tripR3_eq c i arg2 harg2 arg3 harg3 arg4 harg4 arg5 harg5 arg6 harg6 _ _ _ kk _)) l k hk

/-- Trip k of the fourth chunk's loop, which is handed the bare lane numbers, yields the chunk's payload likewise. -/
theorem tripR4_eq (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (X2 : BufTy.Contents (Elt Ideal) arg2.view.ty) (X3 : BufTy.Contents (Elt Ideal) arg3.view.ty) (X4 : BufTy.Contents (Elt Ideal) arg4.view.ty)
    (k : Fin k0_t4_loop.trips) (acc : FVec Ideal S1x128 .f32) :
    tripR_k0_t4 (F := Ideal) Variants.none c none i arg2 harg2 arg3 harg3 arg4 harg4 arg5 harg5 arg6 harg6 (iota .tc S8x1024x128 32 [2] iota_S8x1024x128_d2_w32) X2 X3 X4 k acc
      = k0_pay1 (F := Ideal) (lanes 384) acc
          (View.readAt (Elt Ideal) arg2.view (Rect.unit (s := S1x1x128x1024) (k0_off7 k) S1x1x8x1024.size (k0_off7_inb k)).toLoadRect X2)
          (View.readAt (Elt Ideal) arg3.view (Rect.unit (s := S1x1x128x1024) (k0_off7 k) S1x1x8x1024.size (k0_off7_inb k)).toLoadRect X3)
          (View.readAt (Elt Ideal) arg4.view (Rect.unit (s := S1x128x1024) (k0_off8 k) S1x8x1024.size (k0_off8_inb k)).toLoadRect X4) := by
  unfold tripR_k0_t4 trip_k0_t4
  rfl

/-- The fourth chunk's loop after its sixteen trips, at lane l. -/
theorem loop4_lane (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (x0 x1 : Vec Ideal S1x1x128x1024 .f32) (x2 : Vec Ideal S1x128x1024 .i32) (init : FVec Ideal S1x128 .f32) (l : Fin 128) (k : Fin 512) (hk : k.val = 384 + l.val) :
    st_k0_t4 (F := Ideal) Variants.none c none i arg2 harg2 arg3 harg3 arg4 harg4 arg5 harg5 arg6 harg6 (iota .tc S8x1024x128 32 [2] iota_S8x1024x128_d2_w32) (harg2.unread x0) (harg3.unread x1) (harg4.unread x2) init 16 (ix2 0 l)
      = init (ix2 0 l) + ∑ ρ : Fin 128, ∑ w : Fin 1024, term x0 x1 x2 k ρ w :=
  loop_lane 384 harg2 harg3 harg4 x0 x1 x2 (fun kk => k0_off7 kk) (fun kk => k0_off7_eq kk) (fun kk => k0_off8 kk) (fun kk => k0_off8_eq kk)
    (fun kk => k0_off7_inb kk) (fun kk => k0_off8_inb kk)
    (st_k0_t4 (F := Ideal) Variants.none c none i arg2 harg2 arg3 harg3 arg4 harg4 arg5 harg5 arg6 harg6 (iota .tc S8x1024x128 32 [2] iota_S8x1024x128_d2_w32) (harg2.unread x0) (harg3.unread x1) (harg4.unread x2) init)
    (fun kk => (st_k0_t4_succ (F := Ideal) Variants.none c none i arg2 harg2 arg3 harg3 arg4 harg4 arg5 harg5 arg6 harg6 (iota .tc S8x1024x128 32 [2] iota_S8x1024x128_d2_w32) (harg2.unread x0) (harg3.unread x1) (harg4.unread x2) init kk).trans
      (tripR4_eq c i arg2 harg2 arg3 harg3 arg4 harg4 arg5 harg5 arg6 harg6 _ _ _ kk _)) l k hk

/-- Where lane l of the scratch slice that starts at column o sits in the scratch. -/
theorem emb_slice (o : ℕ) (inb : ∀ a, (![0, o] : Fin 2 → ℕ) a + (![1, 128] : Fin 2 → ℕ) a ≤ S1x512.size a)
    (l : Fin 128) (k : Fin 512) (hk : k.val = o + l.val) :
    (Rect.unit (s := S1x512) ![0, o] ![1, 128] inb).emb (ix2 0 l) = ix2 0 k := by
  funext a
  match a with
  | ⟨0, _⟩ => exact Fin.ext rfl
  | ⟨1, _⟩ => exact Fin.ext (by show o + 1 * l.val = k.val; omega)

/-- A last store into the slice that holds admin unit k leaves its payload there. -/
theorem canon_hit (o : ℕ) (inb : ∀ a, (![0, o] : Fin 2 → ℕ) a + (![1, 128] : Fin 2 → ℕ) a ≤ S1x512.size a)
    (w : Vec Ideal S1x128 .f32) (L : List (View.Piece (Elt Ideal) S1x512 .f32)) (l : Fin 128) (k : Fin 512) (hk : k.val = o + l.val) :
    View.canon ((⟨Rect.unit (s := S1x512) ![0, o] ![1, 128] inb, w⟩ : View.Piece (Elt Ideal) S1x512 .f32) :: L) (ix2 0 k) = w (ix2 0 l) := by
  rw [← emb_slice o inb l k hk]
  exact View.canon_cons_emb (Rect.unit (s := S1x512) ![0, o] ![1, 128] inb) w L (ix2 0 l)

/-- A store into another slice leaves admin unit k as it was. -/
theorem canon_miss (o : ℕ) (inb : ∀ a, (![0, o] : Fin 2 → ℕ) a + (![1, 128] : Fin 2 → ℕ) a ≤ S1x512.size a)
    (w : Vec Ideal S1x128 .f32) (L : List (View.Piece (Elt Ideal) S1x512 .f32)) (k : Fin 512) (hk : k.val < o ∨ o + 128 ≤ k.val) :
    View.canon ((⟨Rect.unit (s := S1x512) ![0, o] ![1, 128] inb, w⟩ : View.Piece (Elt Ideal) S1x512 .f32) :: L) (ix2 0 k) = View.canon L (ix2 0 k) := by
  refine View.canon_cons_of_not_mem _ L ?_
  intro hm
  have hm' : ix2 0 k ∈ (Rect.unit (s := S1x512) ![0, o] ![1, 128] inb).set := hm
  have h1 : o ≤ k.val ∧ k.val < o + 128 :=
    (Rect.mem_set_unit (s := S1x512) (off := ![0, o]) (size := ![1, 128]) (inb := inb) (i := ix2 0 k)).mp hm' (1 : Fin 2)
  omega

/-- Four slice stores, one per chunk, read at admin unit k: the payload of k's chunk at k's lane. -/
theorem canon4 (w3 w2 w1 w0 : Vec Ideal S1x128 .f32)
    (inb3 : ∀ a, (![0, 384] : Fin 2 → ℕ) a + (![1, 128] : Fin 2 → ℕ) a ≤ S1x512.size a)
    (inb2 : ∀ a, (![0, 256] : Fin 2 → ℕ) a + (![1, 128] : Fin 2 → ℕ) a ≤ S1x512.size a)
    (inb1 : ∀ a, (![0, 128] : Fin 2 → ℕ) a + (![1, 128] : Fin 2 → ℕ) a ≤ S1x512.size a)
    (inb0 : ∀ a, (![0, 0] : Fin 2 → ℕ) a + (![1, 128] : Fin 2 → ℕ) a ≤ S1x512.size a)
    (L : List (View.Piece (Elt Ideal) S1x512 .f32)) (g : Fin 512 → EReal)
    (h0 : ∀ (l : Fin 128) (k : Fin 512), k.val = 0 + l.val → w0 (ix2 0 l) = g k)
    (h1 : ∀ (l : Fin 128) (k : Fin 512), k.val = 128 + l.val → w1 (ix2 0 l) = g k)
    (h2 : ∀ (l : Fin 128) (k : Fin 512), k.val = 256 + l.val → w2 (ix2 0 l) = g k)
    (h3 : ∀ (l : Fin 128) (k : Fin 512), k.val = 384 + l.val → w3 (ix2 0 l) = g k) (k : Fin 512) :
    View.canon ((⟨Rect.unit (s := S1x512) ![0, 384] ![1, 128] inb3, w3⟩ : View.Piece (Elt Ideal) S1x512 .f32)
      :: ⟨Rect.unit (s := S1x512) ![0, 256] ![1, 128] inb2, w2⟩ :: ⟨Rect.unit (s := S1x512) ![0, 128] ![1, 128] inb1, w1⟩
      :: ⟨Rect.unit (s := S1x512) ![0, 0] ![1, 128] inb0, w0⟩ :: L) (ix2 0 k) = g k := by
  have hk := k.isLt
  by_cases c3 : 384 ≤ k.val
  · have e : k.val = 384 + (⟨k.val - 384, by omega⟩ : Fin 128).val := by show k.val = 384 + (k.val - 384); omega
    exact (canon_hit 384 inb3 w3 _ _ k e).trans (h3 _ k e)
  rw [canon_miss 384 inb3 w3 _ k (by omega)]
  by_cases c2 : 256 ≤ k.val
  · have e : k.val = 256 + (⟨k.val - 256, by omega⟩ : Fin 128).val := by show k.val = 256 + (k.val - 256); omega
    exact (canon_hit 256 inb2 w2 _ _ k e).trans (h2 _ k e)
  rw [canon_miss 256 inb2 w2 _ k (by omega)]
  by_cases c1 : 128 ≤ k.val
  · have e : k.val = 128 + (⟨k.val - 128, by omega⟩ : Fin 128).val := by show k.val = 128 + (k.val - 128); omega
    exact (canon_hit 128 inb1 w1 _ _ k e).trans (h1 _ k e)
  rw [canon_miss 128 inb1 w1 _ k (by omega)]
  have e : k.val = 0 + (⟨k.val, by omega⟩ : Fin 128).val := by show k.val = 0 + k.val; omega
  exact (canon_hit 0 inb0 w0 _ _ k e).trans (h0 _ k e)

/-- The zeroing store's payload is zero everywhere. -/
theorem pay7_apply (j : S1x512.Idx) : k0_pay7 (F := Ideal) j = 0 := by
  unfold k0_pay7
  rw [shapeCast_self]
  exact Ideal.ofBits_zero_f32

/-- What a chunk stores at lane l: what it loaded there plus its loop's result, the loop having started from zero. -/
theorem chunk_val (v8 : FVec Ideal S1x128 .f32) (rd : Vec Ideal S1x128 .f32) (l : Fin 128) (z T : EReal)
    (hz : z = 0) (h8 : v8 (ix2 0 l) = z + T) :
    k0_pay10 (F := Ideal) v8 rd (ix2 0 l) = rd (ix2 0 l) + T := by
  unfold k0_pay10
  rw [shapeCast_self]
  refine (addf_apply _ _ _).trans ?_
  rw [h8, hz, zero_add]

/-- A load of a scratch slice, the scratch held whole at xs, reads xs at the slice's columns. -/
theorem readAt_prev {m : Memref sig .tc .vmem S1x512 .f32} (h : m.IsWhole) (xs : Vec Ideal S1x512 .f32) (o : ℕ)
    (inb : ∀ a, (![0, o] : Fin 2 → ℕ) a + (![1, 128] : Fin 2 → ℕ) a ≤ S1x512.size a) (l : Fin 128) (k : Fin 512) (hk : k.val = o + l.val) :
    View.readAt (Elt Ideal) m.view (Rect.unit (s := S1x512) ![0, o] ![1, 128] inb).toLoadRect (h.unread xs) (ix2 0 l) = xs (ix2 0 k) := by
  refine (Memref.IsWhole.readAt_unread h xs _ _).trans ?_
  exact congrArg xs (emb_slice o inb l k hk)

theorem tileSum_eq (x0 x1 : Vec Ideal S1x1x128x1024 .f32) (x2 : Vec Ideal S1x128x1024 .i32) (k : Fin 512) :
    ∑ ρ : Fin 128, ∑ w : Fin 1024, term x0 x1 x2 k ρ w = tileSum x0 x1 x2 k := rfl

/-- The four chunk stores of a tile that adds to an incoming scratch xs0, read at admin unit k: xs0 there plus the
    tile's contribution (whatever was stored before them). -/
theorem canon_later (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (x0 x1 : Vec Ideal S1x1x128x1024 .f32) (x2 : Vec Ideal S1x128x1024 .i32) (xs0 : Vec Ideal S1x512 .f32)
    (inb384 : ∀ a, (![0, 384] : Fin 2 → ℕ) a + (![1, 128] : Fin 2 → ℕ) a ≤ S1x512.size a) (inb256 : ∀ a, (![0, 256] : Fin 2 → ℕ) a + (![1, 128] : Fin 2 → ℕ) a ≤ S1x512.size a) (inb128 : ∀ a, (![0, 128] : Fin 2 → ℕ) a + (![1, 128] : Fin 2 → ℕ) a ≤ S1x512.size a) (inb0 : ∀ a, (![0, 0] : Fin 2 → ℕ) a + (![1, 128] : Fin 2 → ℕ) a ≤ S1x512.size a)
    (L : List (View.Piece (Elt Ideal) S1x512 .f32)) (k : Fin 512) :
    View.canon ((⟨Rect.unit (s := S1x512) ![0, 384] ![1, 128] inb384,
          k0_pay5 (F := Ideal) (st_k0_t4 (F := Ideal) Variants.none c none i arg2 harg2 arg3 harg3 arg4 harg4 arg5 harg5 arg6 harg6 (iota .tc S8x1024x128 32 [2] iota_S8x1024x128_d2_w32) (harg2.unread x0) (harg3.unread x1) (harg4.unread x2) (k0_pay3 (F := Ideal)) 16)
            (View.readAt (Elt Ideal) arg6.view (Rect.unit (s := S1x512) ![0, 384] ![1, 128] inb384).toLoadRect (harg6.unread xs0))⟩ : View.Piece (Elt Ideal) S1x512 .f32)
      :: ⟨Rect.unit (s := S1x512) ![0, 256] ![1, 128] inb256,
          k0_pay2 (F := Ideal) (st_k0_t3 (F := Ideal) Variants.none c none i arg2 harg2 arg3 harg3 arg4 harg4 arg5 harg5 arg6 harg6 k0_pay14 (harg2.unread x0) (harg3.unread x1) (harg4.unread x2) (k0_pay15 (F := Ideal)) 16)
            (View.readAt (Elt Ideal) arg6.view (Rect.unit (s := S1x512) ![0, 256] ![1, 128] inb256).toLoadRect (harg6.unread xs0))⟩
      :: ⟨Rect.unit (s := S1x512) ![0, 128] ![1, 128] inb128,
          k0_pay13 (F := Ideal) (st_k0_t2 (F := Ideal) Variants.none c none i arg2 harg2 arg3 harg3 arg4 harg4 arg5 harg5 arg6 harg6 (harg2.unread x0) (harg3.unread x1) (harg4.unread x2) (k0_pay11 (F := Ideal)) 16)
            (View.readAt (Elt Ideal) arg6.view (Rect.unit (s := S1x512) ![0, 128] ![1, 128] inb128).toLoadRect (harg6.unread xs0))⟩
      :: ⟨Rect.unit (s := S1x512) ![0, 0] ![1, 128] inb0,
          k0_pay10 (F := Ideal) (st_k0_t1 (F := Ideal) Variants.none c none i arg2 harg2 arg3 harg3 arg4 harg4 arg5 harg5 arg6 harg6 (harg2.unread x0) (harg3.unread x1) (harg4.unread x2) (k0_pay8 (F := Ideal)) 16)
            (View.readAt (Elt Ideal) arg6.view (Rect.unit (s := S1x512) ![0, 0] ![1, 128] inb0).toLoadRect (harg6.unread xs0))⟩
      :: L) (ix2 0 k) = xs0 (ix2 0 k) + tileSum x0 x1 x2 k := by
  refine canon4 _ _ _ _ inb384 inb256 inb128 inb0 L (fun k => xs0 (ix2 0 k) + tileSum x0 x1 x2 k) ?_ ?_ ?_ ?_ k
  · intro l k hk
    exact (chunk_val _ _ l _ _ Ideal.ofBits_zero_f32 ((loop1_lane c i arg2 harg2 arg3 harg3 arg4 harg4 arg5 harg5 arg6 harg6 x0 x1 x2 _ l k hk).trans (congrArg (fun z => _ + z) (tileSum_eq x0 x1 x2 k)))).trans
      (congrArg (fun z => z + tileSum x0 x1 x2 k) (readAt_prev harg6 xs0 0 inb0 l k hk))
  · intro l k hk
    exact (chunk_val _ _ l _ _ Ideal.ofBits_zero_f32 ((loop2_lane c i arg2 harg2 arg3 harg3 arg4 harg4 arg5 harg5 arg6 harg6 x0 x1 x2 _ l k hk).trans (congrArg (fun z => _ + z) (tileSum_eq x0 x1 x2 k)))).trans
      (congrArg (fun z => z + tileSum x0 x1 x2 k) (readAt_prev harg6 xs0 128 inb128 l k hk))
  · intro l k hk
    exact (chunk_val _ _ l _ _ Ideal.ofBits_zero_f32 ((loop3_lane c i arg2 harg2 arg3 harg3 arg4 harg4 arg5 harg5 arg6 harg6 x0 x1 x2 _ l k hk).trans (congrArg (fun z => _ + z) (tileSum_eq x0 x1 x2 k)))).trans
      (congrArg (fun z => z + tileSum x0 x1 x2 k) (readAt_prev harg6 xs0 256 inb256 l k hk))
  · intro l k hk
    exact (chunk_val _ _ l _ _ Ideal.ofBits_zero_f32 ((loop4_lane c i arg2 harg2 arg3 harg3 arg4 harg4 arg5 harg5 arg6 harg6 x0 x1 x2 _ l k hk).trans (congrArg (fun z => _ + z) (tileSum_eq x0 x1 x2 k)))).trans
      (congrArg (fun z => z + tileSum x0 x1 x2 k) (readAt_prev harg6 xs0 384 inb384 l k hk))

/-- A middle tile's scratch: what came in plus the tile's contribution, at every admin unit. -/
theorem soutB_apply (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i) (x0 x1 : Vec Ideal S1x1x128x1024 .f32) (x2 : Vec Ideal S1x128x1024 .i32) (xs0 : Vec Ideal S1x512 .f32) (k : Fin 512) :
    sout0_B_0 (F := Ideal) c i arg2 harg2 arg3 harg3 arg4 harg4 arg5 harg5 arg6 harg6 hc0 hc1 x0 x1 x2 xs0 (ix2 0 k) = xs0 (ix2 0 k) + tileSum x0 x1 x2 k := by
  unfold sout0_B_0
  refine (View.read_writes_junk_apply_eq_canon VS0_0 (ix2 0 k) _).trans ?_
  unfold kernelRun0_B
  dsimp only
  sl_unfold_words
  exact canon_later c i arg2 harg2 arg3 harg3 arg4 harg4 arg5 harg5 arg6 harg6 x0 x1 x2 xs0 _ _ _ _ [] k

/-- A last tile's scratch: the same. -/
theorem soutC_apply (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i) (x0 x1 : Vec Ideal S1x1x128x1024 .f32) (x2 : Vec Ideal S1x128x1024 .i32) (xs0 : Vec Ideal S1x512 .f32) (k : Fin 512) :
    sout0_C_0 (F := Ideal) c i arg2 harg2 arg3 harg3 arg4 harg4 arg5 harg5 arg6 harg6 hc0 hc1 x0 x1 x2 xs0 (ix2 0 k) = xs0 (ix2 0 k) + tileSum x0 x1 x2 k := by
  unfold sout0_C_0
  refine (View.read_writes_junk_apply_eq_canon VS0_0 (ix2 0 k) _).trans ?_
  unfold kernelRun0_C
  dsimp only
  sl_unfold_words
  exact canon_later c i arg2 harg2 arg3 harg3 arg4 harg4 arg5 harg5 arg6 harg6 x0 x1 x2 xs0 _ _ _ _ [] k

/-- The whole-scratch load's index map is the identity. -/
theorem idx_whole512 (inb : ∀ a, (![0, 0] : Fin 2 → ℕ) a + (![1, 512] : Fin 2 → ℕ) a ≤ S1x512.size a) (k : Fin 512) :
    (Rect.unit (s := S1x512) ![0, 0] ![1, 512] inb).toLoadRect.idx (ix2 0 k) = ix2 0 k := by
  funext a
  match a with
  | ⟨0, _⟩ => exact Fin.ext rfl
  | ⟨1, _⟩ => exact Fin.ext (by show 0 + 1 * k.val = k.val; omega)

/-- A last tile's output block: the scratch it has just completed. -/
theorem outC_apply (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i) (x0 x1 : Vec Ideal S1x1x128x1024 .f32) (x2 : Vec Ideal S1x128x1024 .i32) (xs0 : Vec Ideal S1x512 .f32) (k : Fin 512) :
    out0_C_3 (F := Ideal) c i arg2 harg2 arg3 harg3 arg4 harg4 arg5 harg5 arg6 harg6 hc0 hc1 x0 x1 x2 xs0 (ix3 0 0 k) = xs0 (ix2 0 k) + tileSum x0 x1 x2 k := by
  unfold out0_C_3
  refine (View.read_writes_junk_apply_eq_canon VO0_3 (ix3 0 0 k) _).trans ?_
  unfold kernelRun0_C
  dsimp only
  sl_unfold_words
  rw [View.canon_unit_zero (by funext a; match a with | ⟨0, _⟩ => rfl | ⟨1, _⟩ => rfl | ⟨2, _⟩ => rfl)]
  unfold k0_pay6
  refine (shapeCast_ab_1ab_apply _ _ 0 0 k).trans ?_
  rw [View.readCov_eq_canon']
  show View.canon _ ((Rect.unit (s := S1x512) ![0, 0] ![1, 512] _).toLoadRect.idx (ix2 0 k)) = _
  rw [idx_whole512]
  exact canon_later c i arg2 harg2 arg3 harg3 arg4 harg4 arg5 harg5 arg6 harg6 x0 x1 x2 xs0 _ _ _ _ [] k

/-- After the zeroing store alone, the scratch is zero at admin unit k. -/
theorem canon_zero (inbZ : ∀ a, (![0, 0] : Fin 2 → ℕ) a + S1x512.size a ≤ S1x512.size a) (k : Fin 512) :
    View.canon [(⟨Rect.unit (s := S1x512) ![0, 0] S1x512.size inbZ, k0_pay7 (F := Ideal)⟩ : View.Piece (Elt Ideal) S1x512 .f32)] (ix2 0 k) = 0 := by
  rw [View.canon_unit_zero (by funext a; match a with | ⟨0, _⟩ => rfl | ⟨1, _⟩ => rfl) inbZ]
  exact pay7_apply _

/-- A load of a scratch slice made after the stores L reads what they left at the slice's columns. -/
theorem slice_readCov (v : View sig .tc .vmem S1x512 .f32) (L : List (View.Piece (Elt Ideal) S1x512 .f32)) (o : ℕ)
    (inb : ∀ a, (![0, o] : Fin 2 → ℕ) a + (![1, 128] : Fin 2 → ℕ) a ≤ S1x512.size a) (l : Fin 128) (k : Fin 512) (hk : k.val = o + l.val) :
    v.readCov L (Rect.unit (s := S1x512) ![0, o] ![1, 128] inb).toLoadRect (ix2 0 l) = View.canon L (ix2 0 k) := by
  rw [View.readCov_eq_canon']
  show View.canon L ((Rect.unit (s := S1x512) ![0, o] ![1, 128] inb).emb (ix2 0 l)) = _
  rw [emb_slice o inb l k hk]

/-- A first tile's scratch: the tile's contribution alone, at every admin unit. Each chunk's load finds the zero the
    tile began with, the earlier chunks' stores lying in other slices. -/
theorem soutA_apply (c : Dev nD) (i : grid0.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i) (x0 x1 : Vec Ideal S1x1x128x1024 .f32) (x2 : Vec Ideal S1x128x1024 .i32) (k : Fin 512) :
    sout0_A_0 (F := Ideal) c i arg2 harg2 arg3 harg3 arg4 harg4 arg5 harg5 arg6 harg6 hc0 hc1 x0 x1 x2 (ix2 0 k) = tileSum x0 x1 x2 k := by
  unfold sout0_A_0
  refine (View.read_writes_junk_apply_eq_canon VS0_0 (ix2 0 k) _).trans ?_
  unfold kernelRun0_A
  dsimp only
  sl_unfold_words
  refine canon4 _ _ _ _ _ _ _ _ _ (fun k => tileSum x0 x1 x2 k) ?_ ?_ ?_ ?_ k
  · intro l k hk
    refine (chunk_val _ _ l _ _ Ideal.ofBits_zero_f32 ((loop1_lane c i arg2 harg2 arg3 harg3 arg4 harg4 arg5 harg5 arg6 harg6 x0 x1 x2 _ l k hk).trans (congrArg (fun z => _ + z) (tileSum_eq x0 x1 x2 k)))).trans ?_
    exact (congrArg (fun z => z + tileSum x0 x1 x2 k)
      ((slice_readCov _ _ 0 _ l k hk).trans (canon_zero _ k))).trans (zero_add _)
  · intro l k hk
    refine (chunk_val _ _ l _ _ Ideal.ofBits_zero_f32 ((loop2_lane c i arg2 harg2 arg3 harg3 arg4 harg4 arg5 harg5 arg6 harg6 x0 x1 x2 _ l k hk).trans (congrArg (fun z => _ + z) (tileSum_eq x0 x1 x2 k)))).trans ?_
    exact (congrArg (fun z => z + tileSum x0 x1 x2 k)
      ((slice_readCov _ _ 128 _ l k hk).trans ((canon_miss 0 _ _ _ k (by omega)).trans (canon_zero _ k)))).trans (zero_add _)
  · intro l k hk
    refine (chunk_val _ _ l _ _ Ideal.ofBits_zero_f32 ((loop3_lane c i arg2 harg2 arg3 harg3 arg4 harg4 arg5 harg5 arg6 harg6 x0 x1 x2 _ l k hk).trans (congrArg (fun z => _ + z) (tileSum_eq x0 x1 x2 k)))).trans ?_
    exact (congrArg (fun z => z + tileSum x0 x1 x2 k)
      ((slice_readCov _ _ 256 _ l k hk).trans ((canon_miss 128 _ _ _ k (by omega)).trans ((canon_miss 0 _ _ _ k (by omega)).trans (canon_zero _ k))))).trans (zero_add _)
  · intro l k hk
    refine (chunk_val _ _ l _ _ Ideal.ofBits_zero_f32 ((loop4_lane c i arg2 harg2 arg3 harg3 arg4 harg4 arg5 harg5 arg6 harg6 x0 x1 x2 _ l k hk).trans (congrArg (fun z => _ + z) (tileSum_eq x0 x1 x2 k)))).trans ?_
    exact (congrArg (fun z => z + tileSum x0 x1 x2 k)
      ((slice_readCov _ _ 384 _ l k hk).trans ((canon_miss 256 _ _ _ k (by omega)).trans ((canon_miss 128 _ _ _ k (by omega)).trans ((canon_miss 0 _ _ _ k (by omega)).trans (canon_zero _ k)))))).trans (zero_add _)

section
variable (V : (c : Dev nD) → (b : Ref sig .tc) → Buf (Elt Ideal) ((c : Thread nD τ).loc b))

theorem caseA_scratch (c : Dev nD) (t : Fin cfg0.N) (h0 : t.val % 8 = 0) (h1 : ¬t.val % 8 = 7) (k : Fin 512) :
    (caseA (F := Ideal) V c t h0 h1).2 (ix2 0 k) = tileSum (iblk0 V c 0 t) (iblk0 V c 1 t) (iblk0 V c 2 t) k := by
  unfold caseA
  exact soutA_apply c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t) k

theorem caseB_scratch (c : Dev nD) (t : Fin cfg0.N) (h0 : ¬t.val % 8 = 0) (h1 : ¬t.val % 8 = 7) (prev : Vec Ideal S1x512 .f32) (k : Fin 512) :
    (caseB (F := Ideal) V c t h0 h1 prev).2 (ix2 0 k) = prev (ix2 0 k) + tileSum (iblk0 V c 0 t) (iblk0 V c 1 t) (iblk0 V c 2 t) k := by
  unfold caseB
  exact soutB_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev k

theorem caseC_scratch (c : Dev nD) (t : Fin cfg0.N) (h0 : ¬t.val % 8 = 0) (h1 : t.val % 8 = 7) (prev : Vec Ideal S1x512 .f32) (k : Fin 512) :
    (caseC (F := Ideal) V c t h0 h1 prev).2 (ix2 0 k) = prev (ix2 0 k) + tileSum (iblk0 V c 0 t) (iblk0 V c 1 t) (iblk0 V c 2 t) k := by
  unfold caseC
  exact soutC_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev k

theorem caseC_out (c : Dev nD) (t : Fin cfg0.N) (h0 : ¬t.val % 8 = 0) (h1 : t.val % 8 = 7) (prev : Vec Ideal S1x512 .f32) (k : Fin 512) :
    (caseC (F := Ideal) V c t h0 h1 prev).1 (ix3 0 0 k) = prev (ix2 0 k) + tileSum (iblk0 V c 0 t) (iblk0 V c 1 t) (iblk0 V c 2 t) k := by
  unfold caseC
  dsimp only
  exact outC_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev k

end

end Cert.KernelIdeal.Hand

end
-- ==== Proof.ValueI.K0Array.lean ====
/-
  The segment-sum pallas_call's result array: entry (b, 0, k) is the sum over ALL of batch b's pixels with id k of
  their scores. The eight row tiles of a batch accumulate in the scratch (induction over the tile), the block of
  batch b is written back once, at the batch's last tile, and the eight blocks cover the array.
-/
import proofs.«416896_j26147760898484_4_alg».proof.Proof.ValueI.K0Point
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Index bookkeeping -/

/-- The block index maps of the four windows at every grid point t = 8·b + r: the input
    blocks sit at (b, 0, r, 0) and (b, r, 0), the output block at (b, 0, 0). -/
theorem segsum_idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Row 128·r + ρ of the image: row ρ of row tile r. -/
def segRow (r : Fin 8) (ρ : Fin 128) : Fin 1024 := ⟨128 * r.val + ρ.val, by have := r.isLt; have := ρ.isLt; omega⟩

/-- A sum over the eight row tiles of a sum over the tile's 128 rows is the sum over the 1024 rows. -/
theorem segsum_sum_rows (g : Fin 1024 → EReal) : ∑ r : Fin 8, ∑ ρ : Fin 128, g (segRow r ρ) = ∑ row : Fin 1024, g row := by
  rw [← Fintype.sum_prod_type' (f := fun (r : Fin 8) (ρ : Fin 128) => g (segRow r ρ))]
  refine Fintype.sum_equiv (finProdFinEquiv (m := 8) (n := 128)) _ _ fun x => congrArg g (Fin.ext ?_)
  show 128 * x.1.val + x.2.val = x.2.val + 128 * x.1.val
  omega

section
variable (V : (c : Dev nD) → (b : Ref sig .tc) → Buf (Elt Ideal) ((c : Thread nD τ).loc b))

/-- The pallas_call's result array and its three input arrays, at their literal types. -/
abbrev sumsOut (c : Dev nD) : FVec Ideal S8x1x512 .f32 := (dat0 (F := Ideal) V c).arrAt 3 cfg0.N
abbrev lArr (c : Dev nD) : FVec Ideal S8x1x1024x1024 .f32 := V c main_arg0
abbrev sArr (c : Dev nD) : FVec Ideal S8x1x1024x1024 .f32 := V c main_arg1
abbrev aArr (c : Dev nD) : IVec S8x1024x1024 32 := V c main_arg2

/-- The three input blocks at a grid point, at their literal types. -/
abbrev segLb (c : Dev nD) (t : Fin cfg0.N) : Vec Ideal S1x1x128x1024 .f32 := iblk0 V c 0 t
abbrev segSb (c : Dev nD) (t : Fin cfg0.N) : Vec Ideal S1x1x128x1024 .f32 := iblk0 V c 1 t
abbrev segAb (c : Dev nD) (t : Fin cfg0.N) : Vec Ideal S1x128x1024 .i32 := iblk0 V c 2 t

/-! ## A block read is an array read -/

theorem segLb_apply (c : Dev nD) (t : Fin cfg0.N) (ρ : Fin 128) (w : Fin 1024) (b : Fin 8) (row : Fin 1024)
    (hb : b.val = t.val / 8) (hrow : row.val = 128 * (t.val % 8) + ρ.val) :
    segLb V c t (ix4 0 0 ρ w) = lArr V c (ix4 b 0 row w) := by
  obtain ⟨e0, e1, e2, e3, -⟩ := segsum_idx_facts t
  show V c main_arg0 (((cfg0.win 0).blk t).view.emb (ix4 0 0 ρ w)) = V c main_arg0 (ix4 b 0 row w)
  refine congrArg (V c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = 0; omega
  | ⟨2, _⟩ => show win0_0.index t (2 : Fin 4) * 128 + 1 * ρ.val = row.val; omega
  | ⟨3, _⟩ => show win0_0.index t (3 : Fin 4) * 1024 + 1 * w.val = w.val; omega

theorem segSb_apply (c : Dev nD) (t : Fin cfg0.N) (ρ : Fin 128) (w : Fin 1024) (b : Fin 8) (row : Fin 1024)
    (hb : b.val = t.val / 8) (hrow : row.val = 128 * (t.val % 8) + ρ.val) :
    segSb V c t (ix4 0 0 ρ w) = sArr V c (ix4 b 0 row w) := by
  obtain ⟨-, -, -, -, e0, e1, e2, e3, -⟩ := segsum_idx_facts t
  show V c main_arg1 (((cfg0.win 1).blk t).view.emb (ix4 0 0 ρ w)) = V c main_arg1 (ix4 b 0 row w)
  refine congrArg (V c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = 0; omega
  | ⟨2, _⟩ => show win0_1.index t (2 : Fin 4) * 128 + 1 * ρ.val = row.val; omega
  | ⟨3, _⟩ => show win0_1.index t (3 : Fin 4) * 1024 + 1 * w.val = w.val; omega

theorem segAb_apply (c : Dev nD) (t : Fin cfg0.N) (ρ : Fin 128) (w : Fin 1024) (b : Fin 8) (row : Fin 1024)
    (hb : b.val = t.val / 8) (hrow : row.val = 128 * (t.val % 8) + ρ.val) :
    segAb V c t (ix3 0 ρ w) = aArr V c (ix3 b row w) := by
  obtain ⟨-, -, -, -, -, -, -, -, e0, e1, e2, -⟩ := segsum_idx_facts t
  show V c main_arg2 (((cfg0.win 2).blk t).view.emb (ix3 0 ρ w)) = V c main_arg2 (ix3 b row w)
  refine congrArg (V c main_arg2) (funext fun a => Fin.ext ?_)
  match a with
  | ⟨0, _⟩ => show win0_2.index t (0 : Fin 3) * 1 + 1 * 0 = b.val; omega
  | ⟨1, _⟩ => show win0_2.index t (1 : Fin 3) * 128 + 1 * ρ.val = row.val; omega
  | ⟨2, _⟩ => show win0_2.index t (2 : Fin 3) * 1024 + 1 * w.val = w.val; omega

/-- Row tile r of batch b, read off the arrays: its contribution to admin unit k. -/
def segTile (c : Dev nD) (b r : Fin 8) (k : Fin 512) : EReal :=
  ∑ ρ : Fin 128, ∑ w : Fin 1024, Cert.Spec.oh (aArr V c (ix3 b (segRow r ρ) w)) k * Cert.Spec.score (lArr V c) (sArr V c) b (segRow r ρ) w

/-- The tile sum over the blocks at point t = 8·b + r is the tile sum over the arrays. -/
theorem segTile_eq (c : Dev nD) (t : Fin cfg0.N) (b r : Fin 8) (hb : b.val = t.val / 8) (hr : r.val = t.val % 8) (k : Fin 512) :
    tileSum (segLb V c t) (segSb V c t) (segAb V c t) k = segTile V c b r k := by
  unfold tileSum segTile
  refine Finset.sum_congr rfl fun ρ _ => Finset.sum_congr rfl fun w _ => ?_
  have hrow : (segRow r ρ).val = 128 * (t.val % 8) + ρ.val := by show 128 * r.val + ρ.val = _; rw [hr]
  have e0 := segLb_apply V c t ρ w b (segRow r ρ) hb hrow
  have e1 := segSb_apply V c t ρ w b (segRow r ρ) hb hrow
  have e2 := segAb_apply V c t ρ w b (segRow r ρ) hb hrow
  show Cert.Spec.oh (segAb V c t (ix3 0 ρ w)) k * ((segLb V c t (ix4 0 0 ρ w) + Cert.Spec.lam) * (segSb V c t (ix4 0 0 ρ w) + Cert.Spec.lam))
    = Cert.Spec.oh (aArr V c (ix3 b (segRow r ρ) w)) k * ((lArr V c (ix4 b 0 (segRow r ρ) w) + Cert.Spec.lam) * (sArr V c (ix4 b 0 (segRow r ρ) w) + Cert.Spec.lam))
  rw [e0, e1, e2]

/-! ## The accumulation over a batch's row tiles -/

/-- The contribution of the row tile at grid point n to admin unit k (zero past the grid). -/
def segPt (c : Dev nD) (k : Fin 512) (n : ℕ) : EReal :=
  if h : n < cfg0.N then tileSum (segLb V c ⟨n, h⟩) (segSb V c ⟨n, h⟩) (segAb V c ⟨n, h⟩) k else 0

theorem segPt_of_lt (c : Dev nD) (k : Fin 512) (n : ℕ) (h : n < cfg0.N) :
    segPt V c k n = tileSum (segLb V c ⟨n, h⟩) (segSb V c ⟨n, h⟩) (segAb V c ⟨n, h⟩) k := dif_pos h

/-- After the body at point n = 8·b + r the scratch holds the contributions of row tiles 0 … r of batch b. -/
theorem segsum_scratch (c : Dev nD) (k : Fin 512) : ∀ (n : ℕ) (h : n < cfg0.N),
    (outsAt0 (F := Ideal) V c n h).2 (ix2 0 k) = ∑ s ∈ Finset.range (n % 8 + 1), segPt V c k (8 * (n / 8) + s) := by
  intro n
  induction n with
  | zero =>
    intro h
    have hA : ∀ h1, (caseA (F := Ideal) V c ⟨0, h⟩ (Nat.zero_mod 8) h1).2 (ix2 0 k) = segPt V c k 0 := fun h1 =>
      (caseA_scratch V c ⟨0, h⟩ (Nat.zero_mod 8) h1 k).trans (segPt_of_lt V c k 0 h).symm
    rw [outsAt0_A V c ⟨0, h⟩ (Nat.zero_mod 8) (show ¬(0 % 8 = 7) from by decide), hA]
    show segPt V c k 0 = ∑ s ∈ Finset.range 1, segPt V c k (8 * (0 / 8) + s)
    rw [Finset.sum_range_one]
  | succ n ih =>
    intro h
    have hn : n < cfg0.N := Nat.lt_of_succ_lt h
    by_cases h0 : (n + 1) % 8 = 0
    · have h1 : ¬(n + 1) % 8 = 7 := by omega
      have hA : (caseA (F := Ideal) V c ⟨n + 1, h⟩ h0 h1).2 (ix2 0 k) = segPt V c k (n + 1) :=
        (caseA_scratch V c ⟨n + 1, h⟩ h0 h1 k).trans (segPt_of_lt V c k (n + 1) h).symm
      rw [outsAt0_A V c ⟨n + 1, h⟩ h0 h1, hA, h0, Finset.sum_range_one]
      congr 1
      omega
    · have e1 : (n + 1) % 8 = n % 8 + 1 := by omega
      have e2 : (n + 1) / 8 = n / 8 := by omega
      have e3 : 8 * (n / 8) + (n % 8 + 1) = n + 1 := by omega
      by_cases h1 : (n + 1) % 8 = 7
      · have hC : ∀ prev : Vec Ideal S1x512 .f32, (caseC (F := Ideal) V c ⟨n + 1, h⟩ h0 h1 prev).2 (ix2 0 k) = prev (ix2 0 k) + segPt V c k (n + 1) := fun prev =>
          (caseC_scratch V c ⟨n + 1, h⟩ h0 h1 prev k).trans (congrArg (prev (ix2 0 k) + ·) (segPt_of_lt V c k (n + 1) h).symm)
        rw [outsAt0_C V c ⟨n + 1, h⟩ h0 h1, hC]
        show (outsAt0 (F := Ideal) V c n hn).2 (ix2 0 k) + segPt V c k (n + 1) = _
        rw [ih hn, e1, e2, Finset.sum_range_succ _ (n % 8 + 1), e3]
      · have hB : ∀ prev : Vec Ideal S1x512 .f32, (caseB (F := Ideal) V c ⟨n + 1, h⟩ h0 h1 prev).2 (ix2 0 k) = prev (ix2 0 k) + segPt V c k (n + 1) := fun prev =>
          (caseB_scratch V c ⟨n + 1, h⟩ h0 h1 prev k).trans (congrArg (prev (ix2 0 k) + ·) (segPt_of_lt V c k (n + 1) h).symm)
        rw [outsAt0_B V c ⟨n + 1, h⟩ h0 h1, hB]
        show (outsAt0 (F := Ideal) V c n hn).2 (ix2 0 k) + segPt V c k (n + 1) = _
        rw [ih hn, e1, e2, Finset.sum_range_succ _ (n % 8 + 1), e3]

/-- At a batch's last row tile the output block holds the contributions of all eight row tiles of the batch. -/
theorem segsum_out_last (c : Dev nD) (k : Fin 512) (t : Fin cfg0.N) (h1 : t.val % 8 = 7) :
    (outsAt0 (F := Ideal) V c t.val t.isLt).1 (ix3 0 0 k) = ∑ s ∈ Finset.range 8, segPt V c k (8 * (t.val / 8) + s) := by
  have h0 : ¬t.val % 8 = 0 := by omega
  have hp : t.val - 1 < cfg0.N := Nat.lt_of_le_of_lt (Nat.sub_le _ _) t.isLt
  have hC : ∀ prev : Vec Ideal S1x512 .f32, (caseC (F := Ideal) V c t h0 h1 prev).1 (ix3 0 0 k) = prev (ix2 0 k) + segPt V c k t.val := fun prev =>
    (caseC_out V c t h0 h1 prev k).trans (congrArg (prev (ix2 0 k) + ·) (segPt_of_lt V c k t.val t.isLt).symm)
  have e1 : (t.val - 1) % 8 + 1 = 7 := by omega
  have e2 : (t.val - 1) / 8 = t.val / 8 := by omega
  have e3 : 8 * (t.val / 8) + 7 = t.val := by omega
  rw [outsAt0_C V c t h0 h1, hC]
  show (outsAt0 (F := Ideal) V c (t.val - 1) hp).2 (ix2 0 k) + segPt V c k t.val = _
  rw [segsum_scratch V c k (t.val - 1) hp, e1, e2, Finset.sum_range_succ _ 7, e3]

/-! ## From the blocks to the array -/

/-- The whole result array: entry (b, ·, k) is the sum over batch b's eight row tiles of their contributions to
    admin unit k. -/
def segsumFn (c : Dev nD) : FVec Ideal S8x1x512 .f32 := fun i =>
  ∑ s ∈ Finset.range 8, segPt V c (i 2 : Fin 512) (8 * (i 0 : Fin 8).val + s)

/-- What a batch's last point writes back is its block of that array. -/
theorem segsum_flushed_eq (c : Dev nD) (t : Fin cfg0.N) (hf : (cfg0.win 3).flush t = true) :
    (dat0 (F := Ideal) V c).flushed 3 t = ((cfg0.win 3).blk t).view.read (Elt Ideal) (segsumFn V c) := by
  have h7 : t.val % 8 = 7 := (flush0_3 t).mp hf
  have hN : cfg0.N = 64 := N_0
  obtain ⟨-, -, -, -, -, -, -, -, -, -, -, e0, e1, e2⟩ := segsum_idx_facts t
  show (cfg0.win 3).cut (grid0.coords t) ((dat0 (F := Ideal) V c).after 3 t) = _
  rw [after0_3]
  refine funext fun (y : S1x1x512.Idx) => ?_
  obtain ⟨y0, y1, k, rfl⟩ : ∃ (y0 : Fin 1) (y1 : Fin 1) (k : Fin 512), y = ix3 y0 y1 k := ⟨y 0, y 1, y 2, eq_ix3 y⟩
  obtain rfl : y0 = 0 := Subsingleton.elim _ _
  obtain rfl : y1 = 0 := Subsingleton.elim _ _
  show (outsAt0 (F := Ideal) V c t.val t.isLt).1 (ix3 0 0 k) = segsumFn V c (((cfg0.win 3).blk t).view.emb (ix3 0 0 k))
  have hemb : ((cfg0.win 3).blk t).view.emb (ix3 0 0 k) = ix3 (⟨t.val / 8, by have := t.isLt; omega⟩ : Fin 8) 0 k := by
    funext a; apply Fin.ext
    match a with
    | ⟨0, _⟩ => show win0_3.index t (0 : Fin 3) * 1 + 1 * 0 = t.val / 8; omega
    | ⟨1, _⟩ => show win0_3.index t (1 : Fin 3) * 1 + 1 * 0 = 0; omega
    | ⟨2, _⟩ => show win0_3.index t (2 : Fin 3) * 512 + 1 * k.val = k.val; omega
  refine (segsum_out_last V c k t h7).trans (Eq.trans ?_ (congrArg (segsumFn V c) hemb).symm)
  rfl

/-- An index of the result array is in point t's block iff each coordinate is in the block's range on its axis. -/
theorem segsum_mem_blk (t : Fin cfg0.N) (i : S8x1x512.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v0).slice (win0_3.rect t)).set ↔ _
  rw [View.set_slice_whole, Rect.mem_set_unit]
  exact Iff.rfl

/-- Row (b, ·, ·) of the result array is covered by the block written back at batch b's last point. -/
theorem segsum_cover (i : S8x1x512.Idx) : ∃ t : Fin cfg0.N, (cfg0.win 3).flush t = true ∧ i ∈ ((cfg0.win 3).blk t).view.set := by
  have hN : cfg0.N = 64 := N_0
  have hi0 : (i 0).val < 8 := (i 0).isLt
  have hi1 : (i 1).val < 1 := (i 1).isLt
  have hi2 : (i 2).val < 512 := (i 2).isLt
  have ht : 8 * (i 0).val + 7 < cfg0.N := by omega
  refine ⟨⟨8 * (i 0).val + 7, ht⟩, (flush0_3 _).mpr (by show (8 * (i 0).val + 7) % 8 = 7; omega), ?_⟩
  obtain ⟨-, -, -, -, -, -, -, -, -, -, -, e0, e1, e2⟩ := segsum_idx_facts ⟨8 * (i 0).val + 7, ht⟩
  have e0' : win0_3.index ⟨8 * (i 0).val + 7, ht⟩ (0 : Fin 3) = (i 0).val := by rw [e0]; show (8 * (i 0).val + 7) / 8 = _; omega
  rw [segsum_mem_blk]
  intro a
  match a with
  | ⟨0, _⟩ => show win0_3.index ⟨8 * (i 0).val + 7, ht⟩ (0 : Fin 3) * 1 ≤ (i 0).val ∧ (i 0).val < win0_3.index ⟨8 * (i 0).val + 7, ht⟩ (0 : Fin 3) * 1 + 1; omega
  | ⟨1, _⟩ => show win0_3.index ⟨8 * (i 0).val + 7, ht⟩ (1 : Fin 3) * 1 ≤ (i 1).val ∧ (i 1).val < win0_3.index ⟨8 * (i 0).val + 7, ht⟩ (1 : Fin 3) * 1 + 1; omega
  | ⟨2, _⟩ => show win0_3.index ⟨8 * (i 0).val + 7, ht⟩ (2 : Fin 3) * 512 ≤ (i 2).val ∧ (i 2).val < win0_3.index ⟨8 * (i 0).val + 7, ht⟩ (2 : Fin 3) * 512 + 512; omega

/-- The result array after the run. -/
theorem segsum_final (c : Dev nD) : sumsOut V c = segsumFn V c :=
  (dat0 (F := Ideal) V c).arrAt_eq_of_cover 3 (segsumFn V c) (segsum_flushed_eq V c) segsum_cover

theorem segsum_value (c : Dev nD) (b : Fin 8) (k : Fin 512) :
    sumsOut V c (ix3 b 0 k) = Cert.Spec.segSum (lArr V c) (sArr V c) (aArr V c) b k := by
  have hN : cfg0.N = 64 := N_0
  refine (congrFun (segsum_final V c) (ix3 b 0 k)).trans ?_
  show ∑ s ∈ Finset.range 8, segPt V c k (8 * b.val + s) = _
  rw [Finset.sum_range (fun s => segPt V c k (8 * b.val + s))]
  have hpt : ∀ r : Fin 8, segPt V c k (8 * b.val + r.val) = segTile V c b r k := fun r => by
    have hlt : 8 * b.val + r.val < cfg0.N := by have := b.isLt; have := r.isLt; omega
    rw [segPt_of_lt V c k _ hlt]
    exact segTile_eq V c ⟨8 * b.val + r.val, hlt⟩ b r (by show b.val = (8 * b.val + r.val) / 8; have := r.isLt; omega)
      (by show r.val = (8 * b.val + r.val) % 8; have := r.isLt; omega) k
  rw [Finset.sum_congr rfl fun r _ => hpt r]
  unfold segTile Cert.Spec.segSum
  exact segsum_sum_rows fun row => ∑ w : Fin 1024, Cert.Spec.oh (aArr V c (ix3 b row w)) k * Cert.Spec.score (lArr V c) (sArr V c) b row w

end

end Cert.KernelIdeal.Hand

end
-- ==== Proof.ValueI.K1Point.lean ====
/-
  The gather kernel at one grid point, read as numbers: pixel (ρ, w) of the output block is the pixel's score times
  the factor picked for it, the one-hot-weighted sum of the batch's 512 factors (formed in four 128-wide chunks of
  lane sums: the same sum, regrouped). The block is stored in sixteen 8-row bands by a counted loop.
-/
import proofs.«416896_j26147760898484_4_alg».proof.Proof.FrameI.R1Frame
import proofs.«416896_j26147760898484_4_alg».proof.Proof.Spec
import proofs.«416896_j26147760898484_4_alg».proof.Proof.LibKeepdims
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.LibKeepdims
open scoped BigOperators

/-! ## Indices, layout operations and the one-hot weight read at a point -/

section Layout
variable {α : Type}

/-- An index of a block with two leading unit axes is `(0, 0, r, w)`. -/
theorem exists_ix4_11 {a b : ℕ} (x : (⟨4, ![1, 1, a, b]⟩ : Shape).Idx) :
    ∃ (r : Fin a) (w : Fin b), x = ix4 (0 : Fin 1) (0 : Fin 1) r w := by
  refine ⟨x 2, x 3, funext fun d => ?_⟩
  match d with
  | ⟨0, _⟩ => exact Subsingleton.elim (α := Fin 1) _ _
  | ⟨1, _⟩ => exact Subsingleton.elim (α := Fin 1) _ _
  | ⟨2, _⟩ => rfl
  | ⟨3, _⟩ => rfl

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[1, 1, a, b]` reads, at `(0, 0, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-- A `[1, 1, c]` array broadcast to `[a, b, c]` reads, at `(i, j, l)`, the operand at `(0, 0, l)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (l : Fin c) :
    broadcastTo ⟨3, ![a, b, c]⟩ v h (ix3 i j l) = v (ix3 (0 : Fin 1) (0 : Fin 1) l) := by
  refine broadcastTo_apply v h (ix3 i j l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

end Layout

/-- The lane reduction's inserted index: lane `l` of pixel `(r, w)`. -/
theorem lift_ix2 (r : Fin 8) (w : Fin 1024) (l : Fin 128) :
    Shape.Reduces.lift (s := S8x1024x128) (a := 2) (t := S8x1024) reduces_S8x1024x128_S8x1024 (ix2 r w) l = ix3 r w l := by
  funext d
  match d with
  | ⟨0, _⟩ => exact Fin.ext rfl
  | ⟨1, _⟩ => exact Fin.ext rfl
  | ⟨2, _⟩ => exact Fin.ext rfl

/-- The compare of two id words, widened and read as a number, is the one-hot weight. -/
theorem onehot_eq (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    have : (IntOp.cmpi .eq a a).setWidth 32 = 1#32 := by simp [IntOp.cmpi]
    rw [this, if_pos rfl]; simp
  · have hb : (a == b) = false := by simpa using h
    have : (IntOp.cmpi .eq a b).setWidth 32 = 0#32 := by simp [IntOp.cmpi, hb]
    rw [this, if_neg h]; simp

/-! ## One trip's store -/

/-- The value one trip stores, over the blocks the trip's loads read. -/
def tripPay (v0 : IVec S8x1024x128 32) (a : Vec Ideal S1x8x1024 .i32) (f0 f1 f2 f3 : Vec Ideal S1x1x128 .f32)
    (l s : Vec Ideal S1x1x8x1024 .f32) : FVec Ideal S1x1x8x1024 .f32 :=
  k1_pay1 (k1_pay5 v0 (k1_pay2 a) (k1_pay3 v0 a f0 f1) (k1_pay4 v0) f2 f3 l s)

/-- Trip `k` makes one store: the band of rows `8k … 8k+7`, holding the trip's value of its loads. -/
theorem tripL_eq (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole) (v0 : IVec S8x1024x128 32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (k : Fin k1_t1_loop.trips) :
    tripL_k1_t1 (F := Ideal) Variants.none c none i arg2 harg2 arg3 harg3 arg4 harg4 arg5 harg5 arg6 harg6 v0 X2 X3 X4 X5 k
      = [⟨Rect.unit (k1_off2 k) S1x1x8x1024.size (k1_off2_inb k),
          tripPay v0
            (View.ld (arg4.view.read (Elt Ideal) X4) (Rect.unit (k1_off1 k) S1x8x1024.size (k1_off1_inb k)))
            (View.ld (arg5.view.read (Elt Ideal) X5) (Rect.unit ![0, 0, 0] S1x1x128.size inb_S1x1x512_S1x1x128_0_0_0))
            (View.ld (arg5.view.read (Elt Ideal) X5) (Rect.unit ![0, 0, 128] S1x1x128.size inb_S1x1x512_S1x1x128_0_0_128))
            (View.ld (arg5.view.read (Elt Ideal) X5) (Rect.unit ![0, 0, 256] S1x1x128.size inb_S1x1x512_S1x1x128_0_0_256))
            (View.ld (arg5.view.read (Elt Ideal) X5) (Rect.unit ![0, 0, 384] S1x1x128.size inb_S1x1x512_S1x1x128_0_0_384))
            (View.ld (arg2.view.read (Elt Ideal) X2) (Rect.unit (k1_off2 k) S1x1x8x1024.size (k1_off2_inb k)))
            (View.ld (arg3.view.read (Elt Ideal) X3) (Rect.unit (k1_off2 k) S1x1x8x1024.size (k1_off2_inb k)))⟩] := by
  unfold tripL_k1_t1 trip_k1_t1
  dsimp only
  sl_unfold_run_names
  rfl

/-! ## The trip's value at a pixel -/

/-- One 128-lane chunk's lane sum of one-hot times factor, as the kernel forms it. -/
def chunkSum (idv : IVec S8x1024 32) (cmpv : IVec S8x1024x128 32) (f : Vec Ideal S1x1x128 .f32) : FVec Ideal S8x1024x1 .f32 :=
  shapeCast S8x1024x1
    (multiReduction (F := Ideal) .add [2] S8x1024
      (mulf (sitofp .f32 (extui 32 (cmpi .eq (broadcastTo S8x1024x128 (shapeCast S8x1024x1 idv shapeCasts_S8x1024_S8x1024x1) broadcasts_S8x1024x1_S8x1024x128) cmpv) natLt_1_32))
        (broadcastTo S8x1024x128 (shapeCast S1x1x128 (shapeCast S1x1x128 (shapeCast S1x128 f shapeCasts_S1x1x128_S1x128) shapeCasts_S1x128_S1x1x128) shapeCasts_S1x1x128_S1x1x128) broadcasts_S1x1x128_S8x1024x128))
      0x00000000#32 reduces_S8x1024x128_S8x1024 (.inl rfl) rfl)
    shapeCasts_S8x1024_S8x1024x1

/-- The chunk's lane sum at pixel `(r, w)`: the sum over the lanes of the one-hot weight times the lane's factor. -/
theorem chunkSum_apply (idv : IVec S8x1024 32) (cmpv : IVec S8x1024x128 32) (f : Vec Ideal S1x1x128 .f32)
    (r : Fin 8) (w : Fin 1024) :
    chunkSum idv cmpv f (ix3 r w (0 : Fin 1))
      = ∑ j : Fin 128, (if idv (ix2 r w) = cmpv (ix3 r w j) then (1 : EReal) else 0) * f (ix3 (0 : Fin 1) (0 : Fin 1) j) := by
  unfold chunkSum
  refine (shapeCast_ab_ab1_apply _ _ r w 0).trans ?_
  refine (Ideal.multiReduction_add_single _ 0x00000000#32 reduces_S8x1024x128_S8x1024 (.inl rfl) rfl (ix2 r w)).trans ?_
  refine Finset.sum_congr rfl fun j _ => ?_
  refine (congrArg _ (lift_ix2 r w j)).trans ?_
  refine congrArg₂ (· * ·) ?_ ?_
  · refine (onehot_eq _ _).trans ?_
    refine congrArg (fun z => if z = cmpv (ix3 r w j) then (1 : EReal) else 0) ?_
    refine (broadcastTo_ab1_abc_apply _ _ r w j).trans ?_
    exact shapeCast_ab_ab1_apply _ _ r w 0
  · refine (broadcastTo_11c_abc_apply _ _ r w j).trans ?_
    rw [shapeCast_self]
    refine (shapeCast_ab_1ab_apply _ _ 0 0 j).trans ?_
    exact shapeCast_1ab_ab_apply _ _ 0 j

theorem pay1_eq (v : FVec Ideal S8x1024 .f32) :
    k1_pay1 (F := Ideal) v = shapeCast S1x1x8x1024 v shapeCasts_S8x1024_S1x1x8x1024 := rfl

theorem pay2_eq (a : Vec Ideal S1x8x1024 .i32) :
    k1_pay2 (F := Ideal) a = shapeCast S8x1024 a shapeCasts_S1x8x1024_S8x1024 := rfl

theorem pay3_eq (v0 : IVec S8x1024x128 32) (a : Vec Ideal S1x8x1024 .i32) (f0 f1 : Vec Ideal S1x1x128 .f32) :
    k1_pay3 (F := Ideal) v0 a f0 f1
      = addf (addf (broadcast S8x1024x1 (Scalar.ofBits (F := Ideal) .f32 0x00000000#32))
            (chunkSum (k1_pay2 a) (addi v0 (broadcast S8x1024x128 0#32)) f0))
          (chunkSum (k1_pay2 a) (addi v0 (broadcast S8x1024x128 128#32)) f1) := rfl

theorem pay5_eq (v0 : IVec S8x1024x128 32) (v6 : IVec S8x1024 32) (v39 : FVec Ideal S8x1024x1 .f32) (v41 : IVec S8x1024x128 32)
    (f2 f3 : Vec Ideal S1x1x128 .f32) (l s : Vec Ideal S1x1x8x1024 .f32) :
    k1_pay5 (F := Ideal) v0 v6 v39 v41 f2 f3 l s
      = mulf (mulf (addf (shapeCast S8x1024 l shapeCasts_S1x1x8x1024_S8x1024) (broadcast S8x1024 (Scalar.ofBits (F := Ideal) .f32 0x3C23D70A#32)))
              (addf (shapeCast S8x1024 s shapeCasts_S1x1x8x1024_S8x1024) (broadcast S8x1024 (Scalar.ofBits (F := Ideal) .f32 0x3C23D70A#32))))
          (shapeCast S8x1024
            (addf (addf v39 (chunkSum v6 v41 f2)) (chunkSum v6 (addi v0 (broadcast S8x1024x128 384#32)) f3))
            shapeCasts_S8x1024x1_S8x1024) := rfl

theorem pay4_eq (v0 : IVec S8x1024x128 32) :
    k1_pay4 v0 = addi v0 (broadcast S8x1024x128 256#32) := rfl

/-! ## The four chunk sums are the sum over the 512 admin units -/

/-- A sum over 512 indices, in four runs of 128. -/
theorem sum_four_chunks (g : Fin 512 → EReal) :
    (((0 + ∑ j : Fin 128, g ⟨j.val, by have := j.isLt; omega⟩) + ∑ j : Fin 128, g ⟨128 + j.val, by have := j.isLt; omega⟩)
        + ∑ j : Fin 128, g ⟨256 + j.val, by have := j.isLt; omega⟩) + ∑ j : Fin 128, g ⟨384 + j.val, by have := j.isLt; omega⟩
      = ∑ k : Fin 512, g k := by
  have h3 := Fin.sum_univ_add (a := 384) (b := 128) g
  have h2 := Fin.sum_univ_add (a := 256) (b := 128) (fun i => g (Fin.castAdd 128 i))
  have h1 := Fin.sum_univ_add (a := 128) (b := 128) (fun i => g (Fin.castAdd 128 (Fin.castAdd 128 i)))
  rw [zero_add]
  refine Eq.symm (h3.trans ?_)
  refine congrArg₂ (· + ·) (h2.trans ?_) rfl
  refine congrArg₂ (· + ·) (h1.trans ?_) rfl
  rfl

/-- Lane `j` of the chunk at offset `o`, compared as words: admin unit `o + j`. -/
theorem lane_word (j o : ℕ) : BitVec.ofNat 32 j + BitVec.ofNat 32 o = BitVec.ofNat 32 (o + j) := by
  rw [Nat.add_comm, BitVec.ofNat_add]

/-- The lane numbers `0 … 127` along the last axis. -/
abbrev laneIota : IVec S8x1024x128 32 := iota .tc S8x1024x128 32 [2] iota_S8x1024x128_d2_w32

/-- The chunk at offset `o` compares against admin unit `o + j` in lane `j`. -/
theorem cmpv_apply (o : ℕ) (r : Fin 8) (w : Fin 1024) (j : Fin 128) :
    addi laneIota (broadcast S8x1024x128 (BitVec.ofNat 32 o)) (ix3 r w j) = BitVec.ofNat 32 (o + j.val) := by
  show laneIota (ix3 r w j) + BitVec.ofNat 32 o = _
  refine (congrArg (· + BitVec.ofNat 32 o) (iota_single_apply .tc S8x1024x128 32 2 iota_S8x1024x128_d2_w32 (ix3 r w j))).trans ?_
  exact lane_word j.val o

/-- The trip's stored value at pixel `(r, w)` of its band, over the vectors its loads read. -/
theorem tripPay_apply (a : Vec Ideal S1x8x1024 .i32) (f0 f1 f2 f3 : Vec Ideal S1x1x128 .f32)
    (l s : Vec Ideal S1x1x8x1024 .f32) (r : Fin 8) (w : Fin 1024) :
    tripPay laneIota a f0 f1 f2 f3 l s (ix4 (0 : Fin 1) (0 : Fin 1) r w)
      = ((l (ix4 (0 : Fin 1) (0 : Fin 1) r w) + Cert.Spec.lam) * (s (ix4 (0 : Fin 1) (0 : Fin 1) r w) + Cert.Spec.lam))
        * ((((0 + ∑ j : Fin 128, (if a (ix3 (0 : Fin 1) r w) = BitVec.ofNat 32 (0 + j.val) then (1 : EReal) else 0) * f0 (ix3 (0 : Fin 1) (0 : Fin 1) j))
              + ∑ j : Fin 128, (if a (ix3 (0 : Fin 1) r w) = BitVec.ofNat 32 (128 + j.val) then (1 : EReal) else 0) * f1 (ix3 (0 : Fin 1) (0 : Fin 1) j))
            + ∑ j : Fin 128, (if a (ix3 (0 : Fin 1) r w) = BitVec.ofNat 32 (256 + j.val) then (1 : EReal) else 0) * f2 (ix3 (0 : Fin 1) (0 : Fin 1) j))
          + ∑ j : Fin 128, (if a (ix3 (0 : Fin 1) r w) = BitVec.ofNat 32 (384 + j.val) then (1 : EReal) else 0) * f3 (ix3 (0 : Fin 1) (0 : Fin 1) j)) := by
  unfold tripPay
  rw [pay1_eq, pay5_eq, pay3_eq, pay2_eq, pay4_eq]
  refine (shapeCast_ab_11ab_apply _ _ r w).trans ?_
  simp only [mulf_apply, addf_apply, broadcast_apply]
  rw [shapeCast_11ab_ab_apply, shapeCast_11ab_ab_apply, shapeCast_ab1_ab_apply]
  simp only [addf_apply, broadcast_apply, chunkSum_apply, shapeCast_1ab_ab_apply, cmpv_apply]
  refine congrArg₂ (· * ·) rfl ?_
  refine congrArg₂ (· + ·) (congrArg₂ (· + ·) (congrArg₂ (· + ·) (congrArg₂ (· + ·) ?_ rfl) rfl) rfl) rfl
  exact Ideal.ofBits_zero_f32

/-! ## A trip's loads read the blocks at the band's rows -/

/-- The pixel's value over the point's four blocks: its score times the factor picked for it. -/
def pixVal (x0 x1 : Vec Ideal S1x1x128x1024 .f32) (x2 : Vec Ideal S1x128x1024 .i32) (x3 : Vec Ideal S1x1x512 .f32) (ρ : Fin 128) (w : Fin 1024) : EReal :=
  ((x0 (ix4 (0 : Fin 1) (0 : Fin 1) ρ w) + Cert.Spec.lam) * (x1 (ix4 (0 : Fin 1) (0 : Fin 1) ρ w) + Cert.Spec.lam))
    * ∑ k : Fin 512, Cert.Spec.oh (x2 (ix3 (0 : Fin 1) ρ w)) k * x3 (ix3 (0 : Fin 1) (0 : Fin 1) k)

/-- Row `r` of trip `k`'s band is row `8k + r` of the block (a rank-4 block). -/
theorem idx_band4 (k : Fin k1_t1_loop.trips) (r : Fin 8) (w : Fin 1024) (ρ : Fin 128) (hρ : ρ.val = 8 * k.val + r.val) :
    (Rect.unit (s := S1x1x128x1024) (k1_off2 k) S1x1x8x1024.size (k1_off2_inb k)).idx (ix4 (0 : Fin 1) (0 : Fin 1) r w)
      = ix4 (0 : Fin 1) (0 : Fin 1) ρ w := by
  have h := k1_off2_eq k
  funext d
  match d with
  | ⟨0, _⟩ => exact Fin.ext (show k1_off2 k 0 + 1 * 0 = 0 by rw [h]; rfl)
  | ⟨1, _⟩ => exact Fin.ext (show k1_off2 k 1 + 1 * 0 = 0 by rw [h]; rfl)
  | ⟨2, _⟩ => exact Fin.ext (show k1_off2 k 2 + 1 * r.val = ρ.val by rw [h, hρ]; show 8 * k.val + 1 * r.val = _; omega)
  | ⟨3, _⟩ => exact Fin.ext (show k1_off2 k 3 + 1 * w.val = w.val by rw [h]; show 0 + 1 * w.val = _; omega)

/-- The same for the rank-3 block of admin ids. -/
theorem idx_band3 (k : Fin k1_t1_loop.trips) (r : Fin 8) (w : Fin 1024) (ρ : Fin 128) (hρ : ρ.val = 8 * k.val + r.val) :
    (Rect.unit (s := S1x128x1024) (k1_off1 k) S1x8x1024.size (k1_off1_inb k)).idx (ix3 (0 : Fin 1) r w)
      = ix3 (0 : Fin 1) ρ w := by
  have h := k1_off1_eq k
  funext d
  match d with
  | ⟨0, _⟩ => exact Fin.ext (show k1_off1 k 0 + 1 * 0 = 0 by rw [h]; rfl)
  | ⟨1, _⟩ => exact Fin.ext (show k1_off1 k 1 + 1 * r.val = ρ.val by rw [h, hρ]; show 8 * k.val + 1 * r.val = _; omega)
  | ⟨2, _⟩ => exact Fin.ext (show k1_off1 k 2 + 1 * w.val = w.val by rw [h]; show 0 + 1 * w.val = _; omega)

/-- Lane `j` of the factor row's chunk at offset `o` is admin unit `o + j`. -/
theorem idx_fac (o : ℕ) (inb : ∀ a, (![0, 0, o] : Fin 3 → ℕ) a + S1x1x128.size a ≤ S1x1x512.size a)
    (j : Fin 128) (kk : Fin 512) (hk : kk.val = o + j.val) :
    (Rect.unit (s := S1x1x512) ![0, 0, o] S1x1x128.size inb).idx (ix3 (0 : Fin 1) (0 : Fin 1) j)
      = ix3 (0 : Fin 1) (0 : Fin 1) kk := by
  funext d
  match d with
  | ⟨0, _⟩ => exact Fin.ext rfl
  | ⟨1, _⟩ => exact Fin.ext rfl
  | ⟨2, _⟩ => exact Fin.ext (show o + 1 * j.val = kk.val by omega)

/-- One lane's term of a chunk's sum is the admin unit's term of the pick. -/
theorem chunk_at (x2 : Vec Ideal S1x128x1024 .i32) (x3 : Vec Ideal S1x1x512 .f32)
    (k : Fin k1_t1_loop.trips) (r : Fin 8) (w : Fin 1024) (ρ : Fin 128) (hρ : ρ.val = 8 * k.val + r.val)
    (o : ℕ) (inb : ∀ a, (![0, 0, o] : Fin 3 → ℕ) a + S1x1x128.size a ≤ S1x1x512.size a)
    (j : Fin 128) (kk : Fin 512) (hk : kk.val = o + j.val) :
    (if View.ld x2 (Rect.unit (s := S1x128x1024) (k1_off1 k) S1x8x1024.size (k1_off1_inb k)) (ix3 (0 : Fin 1) r w) = BitVec.ofNat 32 (o + j.val)
        then (1 : EReal) else 0)
        * View.ld x3 (Rect.unit (s := S1x1x512) ![0, 0, o] S1x1x128.size inb) (ix3 (0 : Fin 1) (0 : Fin 1) j)
      = Cert.Spec.oh (x2 (ix3 (0 : Fin 1) ρ w)) kk * x3 (ix3 (0 : Fin 1) (0 : Fin 1) kk) := by
  refine congrArg₂ (· * ·) ?_ (congrArg x3 (idx_fac o inb j kk hk))
  refine (congrArg (fun z => if z = BitVec.ofNat 32 (o + j.val) then (1 : EReal) else 0) (congrArg x2 (idx_band3 k r w ρ hρ))).trans ?_
  unfold Cert.Spec.oh
  rw [hk]

/-- Trip `k`'s value at pixel `(r, w)` of its band is the pixel value at row `8k + r` of the block. -/
theorem trip_value (x0 x1 : Vec Ideal S1x1x128x1024 .f32) (x2 : Vec Ideal S1x128x1024 .i32) (x3 : Vec Ideal S1x1x512 .f32)
    (k : Fin k1_t1_loop.trips) (r : Fin 8) (w : Fin 1024) (ρ : Fin 128) (hρ : ρ.val = 8 * k.val + r.val) :
    tripPay laneIota
        (View.ld x2 (Rect.unit (s := S1x128x1024) (k1_off1 k) S1x8x1024.size (k1_off1_inb k)))
        (View.ld x3 (Rect.unit (s := S1x1x512) ![0, 0, 0] S1x1x128.size inb_S1x1x512_S1x1x128_0_0_0))
        (View.ld x3 (Rect.unit (s := S1x1x512) ![0, 0, 128] S1x1x128.size inb_S1x1x512_S1x1x128_0_0_128))
        (View.ld x3 (Rect.unit (s := S1x1x512) ![0, 0, 256] S1x1x128.size inb_S1x1x512_S1x1x128_0_0_256))
        (View.ld x3 (Rect.unit (s := S1x1x512) ![0, 0, 384] S1x1x128.size inb_S1x1x512_S1x1x128_0_0_384))
        (View.ld x0 (Rect.unit (s := S1x1x128x1024) (k1_off2 k) S1x1x8x1024.size (k1_off2_inb k)))
        (View.ld x1 (Rect.unit (s := S1x1x128x1024) (k1_off2 k) S1x1x8x1024.size (k1_off2_inb k)))
        (ix4 (0 : Fin 1) (0 : Fin 1) r w)
      = pixVal x0 x1 x2 x3 ρ w := by
  refine (tripPay_apply _ _ _ _ _ _ _ r w).trans ?_
  unfold pixVal
  refine congrArg₂ (· * ·)
    (congrArg₂ (· * ·) (congrArg (· + Cert.Spec.lam) (congrArg x0 (idx_band4 k r w ρ hρ)))
      (congrArg (· + Cert.Spec.lam) (congrArg x1 (idx_band4 k r w ρ hρ)))) ?_
  refine Eq.trans ?_ (sum_four_chunks fun kk => Cert.Spec.oh (x2 (ix3 (0 : Fin 1) ρ w)) kk * x3 (ix3 (0 : Fin 1) (0 : Fin 1) kk))
  refine congrArg₂ (· + ·) (congrArg₂ (· + ·) (congrArg₂ (· + ·) (congrArg₂ (· + ·) rfl ?_) ?_) ?_) ?_
  · exact Finset.sum_congr rfl fun j _ => chunk_at x2 x3 k r w ρ hρ 0 _ j _ (Nat.zero_add _).symm
  · exact Finset.sum_congr rfl fun j _ => chunk_at x2 x3 k r w ρ hρ 128 _ j _ rfl
  · exact Finset.sum_congr rfl fun j _ => chunk_at x2 x3 k r w ρ hρ 256 _ j _ rfl
  · exact Finset.sum_congr rfl fun j _ => chunk_at x2 x3 k r w ρ hρ 384 _ j _ rfl

/-! ## The sixteen bands are one function of the block's index -/

/-- The pixel value as a function of the block's index. -/
def blockFn (x0 x1 : Vec Ideal S1x1x128x1024 .f32) (x2 : Vec Ideal S1x128x1024 .i32) (x3 : Vec Ideal S1x1x512 .f32) : S1x1x128x1024.Idx → Elt Ideal .f32 :=
  fun y => pixVal x0 x1 x2 x3 ⟨(y 2).val, (y 2).isLt⟩ ⟨(y 3).val, (y 3).isLt⟩

/-- What the body's run stores: the loop's pieces after all its trips. -/
theorem kernelRun1_list (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole) (x0 x1 : Vec Ideal S1x1x128x1024 .f32) (x2 : Vec Ideal S1x128x1024 .i32) (x3 : Vec Ideal S1x1x512 .f32) :
    (kernelRun1 (F := Ideal) c i arg2 harg2 arg3 harg3 arg4 harg4 arg5 harg5 arg6 harg6 x0 x1 x2 x3).1
      = pb_k1_t1 (F := Ideal) Variants.none c none i arg2 harg2 arg3 harg3 arg4 harg4 arg5 harg5 arg6 harg6 laneIota (harg2.unread x0) (harg3.unread x1) (harg4.unread x2) (harg5.unread x3) k1_t1_loop.trips := by
  unfold kernelRun1
  dsimp only
  sl_unfold_words
  rfl

/-- Every stored piece holds the pixel value at the block indices it covers. -/
theorem pieces_ok (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole) (x0 x1 : Vec Ideal S1x1x128x1024 .f32) (x2 : Vec Ideal S1x128x1024 .i32) (x3 : Vec Ideal S1x1x512 .f32) :
    ∀ n : ℕ, n ≤ k1_t1_loop.trips →
      ∀ p ∈ pb_k1_t1 (F := Ideal) Variants.none c none i arg2 harg2 arg3 harg3 arg4 harg4 arg5 harg5 arg6 harg6 laneIota (harg2.unread x0) (harg3.unread x1) (harg4.unread x2) (harg5.unread x3) n,
        ∀ x : p.1.shape.Idx, p.2 x = blockFn x0 x1 x2 x3 (p.1.emb x)
  | 0, _, p, hp, _ => absurd hp (by rw [pb_k1_t1.eq_1]; exact List.not_mem_nil)
  | n + 1, hn, p, hp, x => by
    have hk : n < 16 := Nat.lt_of_lt_of_le hn k1_t1_abs.2.1
    have e : pb_k1_t1 (F := Ideal) Variants.none c none i arg2 harg2 arg3 harg3 arg4 harg4 arg5 harg5 arg6 harg6 laneIota (harg2.unread x0) (harg3.unread x1) (harg4.unread x2) (harg5.unread x3) (n + 1)
        = tripL_k1_t1 (F := Ideal) Variants.none c none i arg2 harg2 arg3 harg3 arg4 harg4 arg5 harg5 arg6 harg6 laneIota (harg2.unread x0) (harg3.unread x1) (harg4.unread x2) (harg5.unread x3) ⟨n, hn⟩
          ++ pb_k1_t1 (F := Ideal) Variants.none c none i arg2 harg2 arg3 harg3 arg4 harg4 arg5 harg5 arg6 harg6 laneIota (harg2.unread x0) (harg3.unread x1) (harg4.unread x2) (harg5.unread x3) n :=
      pb_k1_t1_succ (F := Ideal) Variants.none c none i arg2 harg2 arg3 harg3 arg4 harg4 arg5 harg5 arg6 harg6 laneIota (harg2.unread x0) (harg3.unread x1) (harg4.unread x2) (harg5.unread x3) ⟨n, hn⟩
    rw [e] at hp
    rcases List.mem_append.mp hp with h | h
    · rw [tripL_eq] at h
      obtain rfl := List.mem_singleton.mp h
      obtain ⟨r, w, rfl⟩ := exists_ix4_11 x
      have hr := r.isLt
      refine Eq.trans ?_ (congrArg (blockFn x0 x1 x2 x3) (idx_band4 ⟨n, hn⟩ r w ⟨8 * n + r.val, by omega⟩ rfl)).symm
      rw [harg2.read_unread, harg3.read_unread, harg4.read_unread, harg5.read_unread]
      exact trip_value x0 x1 x2 x3 ⟨n, hn⟩ r w ⟨8 * n + r.val, by omega⟩ rfl
    · exact pieces_ok c i arg2 harg2 arg3 harg3 arg4 harg4 arg5 harg5 arg6 harg6 x0 x1 x2 x3 n (Nat.le_of_succ_le hn) p h x

/-- The output block after the body, at pixel `(ρ, w)`, over any whole staging memrefs and input blocks. -/
theorem out1_4_apply (c : Dev nD) (i : grid1.Coords) (arg2 : Memref sig .tc .vmem S1x1x128x1024 .f32) (harg2 : arg2.IsWhole) (arg3 : Memref sig .tc .vmem S1x1x128x1024 .f32) (harg3 : arg3.IsWhole) (arg4 : Memref sig .tc .vmem S1x128x1024 .i32) (harg4 : arg4.IsWhole) (arg5 : Memref sig .tc .vmem S1x1x512 .f32) (harg5 : arg5.IsWhole) (arg6 : Memref sig .tc .vmem S1x1x128x1024 .f32) (harg6 : arg6.IsWhole) (x0 x1 : Vec Ideal S1x1x128x1024 .f32) (x2 : Vec Ideal S1x128x1024 .i32) (x3 : Vec Ideal S1x1x512 .f32) (ρ : Fin 128) (w : Fin 1024) :
    out1_4 (F := Ideal) c i arg2 harg2 arg3 harg3 arg4 harg4 arg5 harg5 arg6 harg6 x0 x1 x2 x3 (ix4 (0 : Fin 1) (0 : Fin 1) ρ w)
      = pixVal x0 x1 x2 x3 ρ w := by
  unfold out1_4
  refine (congrFun (View.read_writes_eq_canon VO1_4 VO1_4.junk
    (kernelRun1 (F := Ideal) c i arg2 harg2 arg3 harg3 arg4 harg4 arg5 harg5 arg6 harg6 x0 x1 x2 x3).1
    (cover1_4 (F := Ideal) c i arg2 harg2 arg3 harg3 arg4 harg4 arg5 harg5 arg6 harg6 x0 x1 x2 x3)) (ix4 (0 : Fin 1) (0 : Fin 1) ρ w)).trans ?_
  refine (View.canon_apply_of_pieces (blockFn x0 x1 x2 x3)
    (kernelRun1 (F := Ideal) c i arg2 harg2 arg3 harg3 arg4 harg4 arg5 harg5 arg6 harg6 x0 x1 x2 x3).1 ?_ (ix4 (0 : Fin 1) (0 : Fin 1) ρ w)
    (cover1_4 (F := Ideal) c i arg2 harg2 arg3 harg3 arg4 harg4 arg5 harg5 arg6 harg6 x0 x1 x2 x3 (ix4 (0 : Fin 1) (0 : Fin 1) ρ w))).trans ?_
  · rw [kernelRun1_list]
    exact pieces_ok c i arg2 harg2 arg3 harg3 arg4 harg4 arg5 harg5 arg6 harg6 x0 x1 x2 x3 k1_t1_loop.trips (Nat.le_refl _)
  · rfl

section
variable (V : (c : Dev nD) → (b : Ref sig .tc) → Buf (Elt Ideal) ((c : Thread nD τ).loc b))

/-- The point's four input blocks, at their literal types: lights, settlement, admin ids, the batch's factor row. -/
abbrev lblk (c : Dev nD) (t : Fin cfg1.N) : Vec Ideal S1x1x128x1024 .f32 := iblk1 V c 0 t
abbrev sblk (c : Dev nD) (t : Fin cfg1.N) : Vec Ideal S1x1x128x1024 .f32 := iblk1 V c 1 t
abbrev ablk (c : Dev nD) (t : Fin cfg1.N) : Vec Ideal S1x128x1024 .i32 := iblk1 V c 2 t
abbrev fblk (c : Dev nD) (t : Fin cfg1.N) : Vec Ideal S1x1x512 .f32 := iblk1 V c 3 t

theorem outAt1_apply (c : Dev nD) (t : Fin cfg1.N) (ρ : Fin 128) (w : Fin 1024) :
    (outAt1 (F := Ideal) V c t) (ix4 0 0 ρ w)
      = ((lblk V c t (ix4 0 0 ρ w) + Cert.Spec.lam) * (sblk V c t (ix4 0 0 ρ w) + Cert.Spec.lam))
        * ∑ k : Fin 512, Cert.Spec.oh (ablk V c t (ix3 0 ρ w)) k * fblk V c t (ix3 0 0 k) :=
  out1_4_apply c (grid1.coords t) (ms1_0 t) (hs1_0 t) (ms1_1 t) (hs1_1 t) (ms1_2 t) (hs1_2 t) (ms1_3 t) (hs1_3 t) (ms1_4 t) (hs1_4 t)
    (lblk V c t) (sblk V c t) (ablk V c t) (fblk V c t) ρ w

end

end Cert.KernelIdeal.Hand

end
-- ==== Proof.ValueI.K1Array.lean ====
/-
  The gather pallas_call's result array: entry (b, 0, r, w) is the pixel's score times the factor picked for it out of
  batch b's row of the factor array. Every grid point writes its block back, and the 8 × 8 blocks cover the array.
-/
import proofs.«416896_j26147760898484_4_alg».proof.Proof.ValueI.K1Point
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The five windows' block indices at grid point t = 8·b + r: batch b = t / 8 and row tile r = t % 8. -/
theorem gather_idx_facts : ∀ t : Fin cfg1.N,
    win1_0.index t (0 : Fin 4) = t.val / 8 ∧ win1_0.index t (1 : Fin 4) = 0 ∧ win1_0.index t (2 : Fin 4) = t.val % 8 ∧ win1_0.index t (3 : Fin 4) = 0
    ∧ win1_1.index t (0 : Fin 4) = t.val / 8 ∧ win1_1.index t (1 : Fin 4) = 0 ∧ win1_1.index t (2 : Fin 4) = t.val % 8 ∧ win1_1.index t (3 : Fin 4) = 0
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 4) = t.val / 8 ∧ win1_4.index t (1 : Fin 4) = 0 ∧ win1_4.index t (2 : Fin 4) = t.val % 8 ∧ win1_4.index t (3 : Fin 4) = 0 :=
  (by decide +kernel : ∀ t : Fin grid1.N, _)

section
variable (V : (c : Dev nD) → (b : Ref sig .tc) → Buf (Elt Ideal) ((c : Thread nD τ).loc b))

/-- The pallas_call's result array and its four input arrays, at their literal types. -/
abbrev gatherOut (c : Dev nD) : FVec Ideal S8x1x1024x1024 .f32 := (dat1 (F := Ideal) V c).arrAt 4 cfg1.N
abbrev lArr1 (c : Dev nD) : FVec Ideal S8x1x1024x1024 .f32 := V c main_arg0
abbrev sArr1 (c : Dev nD) : FVec Ideal S8x1x1024x1024 .f32 := V c main_arg1
abbrev aArr1 (c : Dev nD) : IVec S8x1024x1024 32 := V c main_arg2
abbrev fArr1 (c : Dev nD) : FVec Ideal S8x1x512 .f32 := V c main_v5

/-- Pixel (ρ, w) of the lights block at point t is pixel (128·(t % 8) + ρ, w) of batch t / 8. -/
theorem lblk_apply (c : Dev nD) (t : Fin cfg1.N) (ρ : Fin 128) (w : Fin 1024) (b : Fin 8) (r : Fin 1024)
    (hb : b.val = t.val / 8) (hr : r.val = 128 * (t.val % 8) + ρ.val) :
    lblk V c t (ix4 0 0 ρ w) = lArr1 V c (ix4 b 0 r w) := by
  obtain ⟨e0, e1, e2, e3, -⟩ := gather_idx_facts t
  show V c main_arg0 (((cfg1.win 0).blk t).view.emb (ix4 0 0 ρ w)) = V c main_arg0 (ix4 b 0 r w)
  refine congrArg (V c main_arg0) (funext fun a => Fin.ext ?_)
  match a with
  | ⟨0, _⟩ => show win1_0.index t (0 : Fin 4) * 1 + 1 * (0 : Fin 1).val = b.val; rw [e0, hb]; simp
  | ⟨1, _⟩ => show win1_0.index t (1 : Fin 4) * 1 + 1 * (0 : Fin 1).val = (0 : Fin 1).val; rw [e1]; simp
  | ⟨2, _⟩ => show win1_0.index t (2 : Fin 4) * 128 + 1 * ρ.val = r.val; rw [e2, hr]; omega
  | ⟨3, _⟩ => show win1_0.index t (3 : Fin 4) * 1024 + 1 * w.val = w.val; rw [e3]; omega

/-- The same for the settlement block. -/
theorem sblk_apply (c : Dev nD) (t : Fin cfg1.N) (ρ : Fin 128) (w : Fin 1024) (b : Fin 8) (r : Fin 1024)
    (hb : b.val = t.val / 8) (hr : r.val = 128 * (t.val % 8) + ρ.val) :
    sblk V c t (ix4 0 0 ρ w) = sArr1 V c (ix4 b 0 r w) := by
  obtain ⟨-, -, -, -, e0, e1, e2, e3, -⟩ := gather_idx_facts t
  show V c main_arg1 (((cfg1.win 1).blk t).view.emb (ix4 0 0 ρ w)) = V c main_arg1 (ix4 b 0 r w)
  refine congrArg (V c main_arg1) (funext fun a => Fin.ext ?_)
  match a with
  | ⟨0, _⟩ => show win1_1.index t (0 : Fin 4) * 1 + 1 * (0 : Fin 1).val = b.val; rw [e0, hb]; simp
  | ⟨1, _⟩ => show win1_1.index t (1 : Fin 4) * 1 + 1 * (0 : Fin 1).val = (0 : Fin 1).val; rw [e1]; simp
  | ⟨2, _⟩ => show win1_1.index t (2 : Fin 4) * 128 + 1 * ρ.val = r.val; rw [e2, hr]; omega
  | ⟨3, _⟩ => show win1_1.index t (3 : Fin 4) * 1024 + 1 * w.val = w.val; rw [e3]; omega

/-- The same for the admin-id block. -/
theorem ablk_apply (c : Dev nD) (t : Fin cfg1.N) (ρ : Fin 128) (w : Fin 1024) (b : Fin 8) (r : Fin 1024)
    (hb : b.val = t.val / 8) (hr : r.val = 128 * (t.val % 8) + ρ.val) :
    ablk V c t (ix3 0 ρ w) = aArr1 V c (ix3 b r w) := by
  obtain ⟨-, -, -, -, -, -, -, -, e0, e1, e2, -⟩ := gather_idx_facts t
  show V c main_arg2 (((cfg1.win 2).blk t).view.emb (ix3 0 ρ w)) = V c main_arg2 (ix3 b r w)
  refine congrArg (V c main_arg2) (funext fun a => Fin.ext ?_)
  match a with
  | ⟨0, _⟩ => show win1_2.index t (0 : Fin 3) * 1 + 1 * (0 : Fin 1).val = b.val; rw [e0, hb]; simp
  | ⟨1, _⟩ => show win1_2.index t (1 : Fin 3) * 128 + 1 * ρ.val = r.val; rw [e1, hr]; omega
  | ⟨2, _⟩ => show win1_2.index t (2 : Fin 3) * 1024 + 1 * w.val = w.val; rw [e2]; omega

/-- Entry k of the factor row at point t is entry k of batch t / 8's row of the factor array. -/
theorem fblk_apply (c : Dev nD) (t : Fin cfg1.N) (k : Fin 512) (b : Fin 8) (hb : b.val = t.val / 8) :
    fblk V c t (ix3 0 0 k) = fArr1 V c (ix3 b 0 k) := by
  obtain ⟨-, -, -, -, -, -, -, -, -, -, -, e0, e1, e2, -⟩ := gather_idx_facts t
  show V c main_v5 (((cfg1.win 3).blk t).view.emb (ix3 0 0 k)) = V c main_v5 (ix3 b 0 k)
  refine congrArg (V c main_v5) (funext fun a => Fin.ext ?_)
  match a with
  | ⟨0, _⟩ => show win1_3.index t (0 : Fin 3) * 1 + 1 * (0 : Fin 1).val = b.val; rw [e0, hb]; simp
  | ⟨1, _⟩ => show win1_3.index t (1 : Fin 3) * 1 + 1 * (0 : Fin 1).val = (0 : Fin 1).val; rw [e1]; simp
  | ⟨2, _⟩ => show win1_3.index t (2 : Fin 3) * 512 + 1 * k.val = k.val; rw [e2]; omega

/-- The whole result array as one function of the four input arrays: at each pixel, its score times the factor
    picked for it out of its batch's row of the factor array. -/
abbrev gatherFn (c : Dev nD) : FVec Ideal S8x1x1024x1024 .f32 := fun i =>
  Cert.Spec.score (lArr1 V c) (sArr1 V c) (i 0 : Fin 8) (i 2 : Fin 1024) (i 3 : Fin 1024)
    * Cert.Spec.pick (aArr1 V c) (fun b k => fArr1 V c (ix3 b 0 k)) (i 0 : Fin 8) (i 2 : Fin 1024) (i 3 : Fin 1024)

/-- The output block at point t, pixel by pixel, is the result function at the pixel's place in the array. -/
theorem gather_point (c : Dev nD) (t : Fin cfg1.N) (y : S1x1x128x1024.Idx) (i : S8x1x1024x1024.Idx)
    (h0 : (i 0).val = t.val / 8) (h2 : (i 2).val = 128 * (t.val % 8) + (y 2).val) (h3 : (i 3).val = (y 3).val) :
    outAt1 (F := Ideal) V c t y = gatherFn V c i := by
  obtain ⟨ρ, w, rfl⟩ : ∃ (ρ : Fin 128) (w : Fin 1024), y = ix4 0 0 ρ w :=
    ⟨y 2, y 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  obtain ⟨b, r, rfl⟩ : ∃ (b : Fin 8) (r : Fin 1024), i = ix4 b 0 r w :=
    ⟨i 0, i 2, funext fun a => by
      match a with
      | ⟨0, _⟩ => rfl
      | ⟨1, _⟩ => exact Subsingleton.elim (α := Fin 1) _ _
      | ⟨2, _⟩ => rfl
      | ⟨3, _⟩ => exact Fin.ext h3⟩
  have hb : b.val = t.val / 8 := h0
  have hr : r.val = 128 * (t.val % 8) + ρ.val := h2
  rw [outAt1_apply, lblk_apply V c t ρ w b r hb hr, sblk_apply V c t ρ w b r hb hr, ablk_apply V c t ρ w b r hb hr]
  simp only [fblk_apply V c t _ b hb]
  rfl

/-- What grid point t writes back is the result function read through the point's block. -/
theorem gather_flushed_eq (c : Dev nD) (t : Fin cfg1.N) :
    (dat1 (F := Ideal) V c).flushed 4 t = ((cfg1.win 4).blk t).view.read (Elt Ideal) (gatherFn V c) := by
  show (cfg1.win 4).cut (grid1.coords t) ((dat1 (F := Ideal) V c).after 4 t) = _
  rw [after1_4]
  obtain ⟨-, -, -, -, -, -, -, -, -, -, -, -, -, -, e0, e1, e2, e3⟩ := gather_idx_facts t
  funext y
  refine gather_point V c t y (((cfg1.win 4).blk t).view.emb y) ?_ ?_ ?_
  · show win1_4.index t (0 : Fin 4) * 1 + 1 * (y 0).val = t.val / 8
    have hy : (y 0).val < 1 := (y 0).isLt
    rw [e0]; omega
  · show win1_4.index t (2 : Fin 4) * 128 + 1 * (y 2).val = 128 * (t.val % 8) + (y 2).val
    rw [e2]; omega
  · show win1_4.index t (3 : Fin 4) * 1024 + 1 * (y 3).val = (y 3).val
    rw [e3]; omega

/-- An index of the result array lies in point t's block iff each coordinate lies in the block's range on its axis. -/
theorem gather_mem_blk (t : Fin cfg1.N) (i : S8x1x1024x1024.Idx) :
    i ∈ ((cfg1.win 4).blk t).view.set ↔ ∀ a : Fin 4, win1_4.index t a * S1x1x128x1024.size a ≤ (i a).val
      ∧ (i a).val < win1_4.index t a * S1x1x128x1024.size a + S1x1x128x1024.size a := by
  show i ∈ ((View.whole main_v6).slice (win1_4.rect t)).set ↔ _
  rw [View.set_slice_whole, Rect.mem_set_unit]
  exact Iff.rfl

/-- The 8 × 8 blocks cover the array: pixel (b, 0, r, w) lies in the block of point 8·b + r / 128. -/
theorem gather_cover (i : S8x1x1024x1024.Idx) :
    ∃ t : Fin cfg1.N, (cfg1.win 4).flush t = true ∧ i ∈ ((cfg1.win 4).blk t).view.set := by
  have hi0 : (i 0).val < 8 := (i 0).isLt
  have hi1 : (i 1).val < 1 := (i 1).isLt
  have hi2 : (i 2).val < 1024 := (i 2).isLt
  have hi3 : (i 3).val < 1024 := (i 3).isLt
  have hlt : 8 * (i 0).val + (i 2).val / 128 < cfg1.N := by rw [show cfg1.N = 64 from N_1]; omega
  obtain ⟨t, ht⟩ : ∃ t : Fin cfg1.N, t.val = 8 * (i 0).val + (i 2).val / 128 := ⟨⟨_, hlt⟩, rfl⟩
  obtain ⟨-, -, -, -, -, -, -, -, -, -, -, -, -, -, e0, e1, e2, e3⟩ := gather_idx_facts t
  refine ⟨t, flush1_4 t, ?_⟩
  rw [gather_mem_blk]
  intro a
  match a with
  | ⟨0, _⟩ => show win1_4.index t (0 : Fin 4) * 1 ≤ (i 0).val ∧ (i 0).val < win1_4.index t (0 : Fin 4) * 1 + 1; rw [e0]; omega
  | ⟨1, _⟩ => show win1_4.index t (1 : Fin 4) * 1 ≤ (i 1).val ∧ (i 1).val < win1_4.index t (1 : Fin 4) * 1 + 1; rw [e1]; omega
  | ⟨2, _⟩ => show win1_4.index t (2 : Fin 4) * 128 ≤ (i 2).val ∧ (i 2).val < win1_4.index t (2 : Fin 4) * 128 + 128; rw [e2]; omega
  | ⟨3, _⟩ => show win1_4.index t (3 : Fin 4) * 1024 ≤ (i 3).val ∧ (i 3).val < win1_4.index t (3 : Fin 4) * 1024 + 1024; rw [e3]; omega

/-- The result array after the pallas_call is the result function. -/
theorem gather_final (c : Dev nD) : gatherOut V c = gatherFn V c :=
  (dat1 (F := Ideal) V c).arrAt_eq_of_cover 4 (gatherFn V c) (fun t _ => gather_flushed_eq V c t) gather_cover

theorem gather_value (c : Dev nD) (b : Fin 8) (r w : Fin 1024) :
    gatherOut V c (ix4 b 0 r w)
      = Cert.Spec.score (lArr1 V c) (sArr1 V c) b r w
        * Cert.Spec.pick (aArr1 V c) (fun b k => fArr1 V c (ix3 b 0 k)) b r w :=
  congrFun (gather_final V c) (ix4 b 0 r w)

end

end Cert.KernelIdeal.Hand

end
-- ==== Proof.ValueI.Host.lean ====
/-
  The host operations between the two pallas_calls: the factor array is census[k] / (sum[b,0,k] + ε), entry by entry,
  and the three arrays both pallas_calls read are untouched.
-/
import proofs.«416896_j26147760898484_4_alg».proof.Proof.FrameI.Run
import proofs.«416896_j26147760898484_4_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators
open Idealize.ShloMosaic.StableHlo

section
variable (m : (ℓ : Loc nD τ sig) → Buf (Elt Ideal) ℓ)

/-- The sums array after the first pallas_call, the factor array after the host stretch, the census input. -/
abbrev sumsArr (c : Dev nD) : FVec Ideal S8x1x512 .f32 := V1e m c main_v0
abbrev facArr (c : Dev nD) : FVec Ideal S8x1x512 .f32 := V2e m c main_v5
abbrev cenArr (c : Dev nD) : FVec Ideal S512 .f32 := m ((c : Thread nD τ).loc main_arg3)
/-- The census array as the host stretch finds it. -/
abbrev cenIn (c : Dev nD) : FVec Ideal S512 .f32 := V1e m c main_arg3

theorem cenIn_eq (c : Dev nD) : cenIn m c = cenArr m c := W1_of_ne m c main_arg3 (by decide)

/-- The host stretch's operations, composed: the factor array as one term of the sums and the census. -/
theorem facArr_eq (c : Dev nD) :
    facArr m c = Host.divf (broadcastInDim S8x1x512 ![0, 1, 2] bcast_S1x1x512_S8x1x512_0_1_2 (broadcastInDim S1x1x512 ![2] bcast_S512_S1x1x512_2 (cenIn m c)))
      (addf (sumsArr m c) (broadcastInDim S8x1x512 ![] bcast_S_S8x1x512 (constant (F := Ideal) S_ .f32 0x322BCC77#32))) := by
  show StableHlo.after hostOps1 (W1 m c) (Proc.devRef .tc main_v5) = _
  after_results

/-- The census row laid along the last axis of [1 × 1 × 512] reads, at (0, 0, k), the census at k. -/
theorem bcast_row (x : FVec Ideal S512 .f32) (k : Fin 512) :
    broadcastInDim S1x1x512 ![2] bcast_S512_S1x1x512_2 x (ix3 0 0 k) = x (ix1 k) :=
  broadcastInDim_apply _ bcast_S512_S1x1x512_2 x (ix3 0 0 k) (ix1 k) (fun a => match a with
    | ⟨0, _⟩ => by show k.val = if (512 : Nat) = 1 then 0 else k.val; rw [if_neg (by decide)])

/-- That row repeated over the 8 batches reads, at (b, 0, k), the row at (0, 0, k). -/
theorem bcast_batches (y : FVec Ideal S1x1x512 .f32) (b : Fin 8) (k : Fin 512) :
    broadcastInDim S8x1x512 ![0, 1, 2] bcast_S1x1x512_S8x1x512_0_1_2 y (ix3 b 0 k) = y (ix3 0 0 k) :=
  broadcastInDim_apply _ bcast_S1x1x512_S8x1x512_0_1_2 y (ix3 b 0 k) (ix3 0 0 k) (fun a => match a with
    | ⟨0, _⟩ => by show 0 = if (1 : Nat) = 1 then 0 else b.val; rw [if_pos rfl]
    | ⟨1, _⟩ => by show 0 = if (1 : Nat) = 1 then 0 else (0 : Fin 1).val; rw [if_pos rfl]
    | ⟨2, _⟩ => by show k.val = if (512 : Nat) = 1 then 0 else k.val; rw [if_neg (by decide)])

/-- A scalar spread over [8 × 1 × 512] reads the scalar everywhere. -/
theorem bcast_eps (i : S8x1x512.Idx) :
    broadcastInDim S8x1x512 ![] bcast_S_S8x1x512 (constant (F := Ideal) S_ .f32 0x322BCC77#32) i = Cert.Spec.eps :=
  broadcastInDim_apply _ bcast_S_S8x1x512 _ i ix0 (fun a => a.elim0)

theorem factor_value (c : Dev nD) (b : Fin 8) (k : Fin 512) :
    facArr m c (ix3 b 0 k) = Ideal.div (cenArr m c (ix1 k)) (sumsArr m c (ix3 b 0 k) + Cert.Spec.eps) := by
  rw [facArr_eq]
  show Ideal.div (broadcastInDim S8x1x512 ![0, 1, 2] bcast_S1x1x512_S8x1x512_0_1_2 (broadcastInDim S1x1x512 ![2] bcast_S512_S1x1x512_2 (cenIn m c)) (ix3 b 0 k))
      (sumsArr m c (ix3 b 0 k) + broadcastInDim S8x1x512 ![] bcast_S_S8x1x512 (constant (F := Ideal) S_ .f32 0x322BCC77#32) (ix3 b 0 k)) = _
  rw [bcast_batches, bcast_row, bcast_eps, cenIn_eq]

theorem V2e_main_arg0 (c : Dev nD) : V2e m c main_arg0 = V1e m c main_arg0 :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V2e_main_arg1 (c : Dev nD) : V2e m c main_arg1 = V1e m c main_arg1 :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V2e_main_arg2 (c : Dev nD) : V2e m c main_arg2 = V1e m c main_arg2 :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first pallas_call leaves the arrays it only reads as launched. -/
theorem V1e_main_arg0 (c : Dev nD) : V1e m c main_arg0 = m ((c : Thread nD τ).loc main_arg0) :=
  (W1_arr m c 0).trans (((dat0 (V0e m) c).arrAt_in 0 rfl _).trans (A_eq0 (V0e m) c 0))
theorem V1e_main_arg1 (c : Dev nD) : V1e m c main_arg1 = m ((c : Thread nD τ).loc main_arg1) :=
  (W1_arr m c 1).trans (((dat0 (V0e m) c).arrAt_in 1 rfl _).trans (A_eq0 (V0e m) c 1))
theorem V1e_main_arg2 (c : Dev nD) : V1e m c main_arg2 = m ((c : Thread nD τ).loc main_arg2) :=
  (W1_arr m c 2).trans (((dat0 (V0e m) c).arrAt_in 2 rfl _).trans (A_eq0 (V0e m) c 2))

/-- The sums array the host stretch reads is what the first pallas_call's write-backs left. -/
theorem sumsArr_eq (c : Dev nD) : sumsArr m c = (dat0 (F := Ideal) (V0e m) c).arrAt 3 cfg0.N := W1_arr m c 3

end

end Cert.KernelIdeal.Hand

end
-- ==== Proof.ValueI.KernelOut.lean ====
/-
  The kernel program's result, read as numbers: the gather pallas_call's array, with the factor array the host
  stretch made of the segment-sum pallas_call's array, is the array both programs are compared through.
-/
import proofs.«416896_j26147760898484_4_alg».proof.Proof.ValueI.K0Array
import proofs.«416896_j26147760898484_4_alg».proof.Proof.ValueI.K1Array
import proofs.«416896_j26147760898484_4_alg».proof.Proof.ValueI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section
variable (m : (ℓ : Loc nD τ sig) → Buf (Elt Ideal) ℓ)

/-- The factor array the gather reads: census / (segment sum + ε), entry by entry. -/
theorem factor_eq (c : Dev nD) :
    (fun (b : Fin 8) (k : Fin 512) => fArr1 (V2e m) c (ix3 b 0 k))
      = Cert.Spec.factor (m ((c : Thread nD τ).loc main_arg3))
          (Cert.Spec.segSum (m ((c : Thread nD τ).loc main_arg0)) (m ((c : Thread nD τ).loc main_arg1)) (m ((c : Thread nD τ).loc main_arg2))) := by
  funext b k
  show facArr m c (ix3 b 0 k) = _
  rw [factor_value, sumsArr_eq]
  show Ideal.div _ (sumsOut (V0e m) c (ix3 b 0 k) + _) = _
  rw [segsum_value]
  rfl

theorem kernel_out (c : Dev nD) :
    gatherOut (V2e m) c
      = Cert.Spec.out (m ((c : Thread nD τ).loc main_arg0)) (m ((c : Thread nD τ).loc main_arg1)) (m ((c : Thread nD τ).loc main_arg2)) (m ((c : Thread nD τ).loc main_arg3)) := by
  funext i
  obtain ⟨b, z, r, w, rfl⟩ : ∃ (b : Fin 8) (z : Fin 1) (r w : Fin 1024), i = ix4 b z r w := ⟨i 0, i 1, i 2, i 3, eq_ix4 i⟩
  obtain rfl : z = 0 := Subsingleton.elim _ _
  rw [gather_value, Cert.Spec.out_apply]
  unfold Cert.Spec.outAt
  have e0 : lArr1 (V2e m) c = m ((c : Thread nD τ).loc main_arg0) := (V2e_main_arg0 m c).trans (V1e_main_arg0 m c)
  have e1 : sArr1 (V2e m) c = m ((c : Thread nD τ).loc main_arg1) := (V2e_main_arg1 m c).trans (V1e_main_arg1 m c)
  have e2 : aArr1 (V2e m) c = m ((c : Thread nD τ).loc main_arg2) := (V2e_main_arg2 m c).trans (V1e_main_arg2 m c)
  rw [e0, e1, e2, factor_eq]

end

end Cert.KernelIdeal.Hand

end
-- ==== Proof.RefGen.lean ====
/-
  The reference program's run and its stages read at an index, as generated; the hand part over them is in the
  modules that import this one.
-/
import proofs.«416896_j26147760898484_4_alg».proof.Proof.Gen.ReferenceIdeal.Run
import proofs.«416896_j26147760898484_4_alg».proof.Proof.Gen.ReferenceIdeal.Read
-- ==== Proof.Algebra.lean ====
/-
  The two laws that join the kernel's form and the reference's, on the extended reals, for ids among the 512 units:
  the one-hot-weighted sum over the units picks the entry at the id; and the one-hot-weighted sum over a batch's
  pixels is the sum over the flattened pixels whose segment id A + 512·b is 512·b + k.
-/
import proofs.«416896_j26147760898484_4_alg».proof.Proof.Spec
import Mathlib.Algebra.BigOperators.Group.Finset.Basic
import Mathlib.Algebra.BigOperators.Ring.Finset
import Mathlib.Data.Fintype.BigOperators

open scoped BigOperators

noncomputable section

namespace Cert.Spec

open Idealize.ShloMosaic Idealize.ShloMosaic.ValueIdx

/-- Two id words below 512 are equal only if the numbers are. -/
theorem ofNat_inj_small {a c : ℕ} (ha : a < 512) (hc : c < 512) (h : BitVec.ofNat 32 a = BitVec.ofNat 32 c) : a = c := by
  have e := congrArg BitVec.toNat h
  simp only [BitVec.toNat_ofNat] at e
  omega

/-- The one-hot-weighted sum over the 512 units is the entry at the id. -/
theorem pick_eq (A : IVec Sadm 32) (fac : Fin 8 → Fin 512 → EReal) (b : Fin 8) (r w : Fin 1024) (k : Fin 512)
    (h : A (ix3 b r w) = BitVec.ofNat 32 k.val) : pick A fac b r w = fac b k := by
  unfold pick
  rw [Finset.sum_eq_single k]
  · simp only [oh, h, if_true, one_mul]
  · intro k' _ hk'
    have hne : ¬ (A (ix3 b r w) = BitVec.ofNat 32 k'.val) := by
      intro h'
      exact hk' (Fin.ext (ofNat_inj_small k'.isLt k.isLt (h'.symm.trans h)))
    simp only [oh, hne, if_false, zero_mul]
  · intro hk; exact absurd (Finset.mem_univ k) hk

/-- A word whose unsigned value is below 2^31 reads the same signed. -/
theorem toInt_of_toNat_small (x : BitVec 32) (n : ℕ) (hx : x.toNat = n) (hn : n < 2 ^ 31) : x.toInt = (n : ℤ) := by
  rw [BitVec.toInt_eq_toNat_cond]
  have h2 : 2 * x.toNat < 2 ^ 32 := by omega
  rw [if_pos h2, hx]

/-- The segment id of an id k' < 512 in batch b' < 8 does not wrap: read signed it is 512·b' + k'. -/
theorem toInt_segWord_small (k' b' : ℕ) (hk : k' < 512) (hb : b' < 8) :
    (BitVec.ofNat 32 k' + 512#32 * BitVec.ofNat 32 b').toInt = ((512 * b' + k' : ℕ) : ℤ) := by
  apply toInt_of_toNat_small _ _ _ (by omega)
  simp only [BitVec.toNat_add, BitVec.toNat_mul, BitVec.toNat_ofNat]
  omega

/-- For ids in range, a flat pixel's segment id is 512·b + k exactly when its batch is b and its id is k. -/
theorem segWord_toInt_iff (A : IVec Sadm 32) (hA : InRange A) (b : Fin 8) (k : Fin 512) (p : Fin 8388608) :
    (segWord A p).toInt = ((512 * b.val + k.val : ℕ) : ℤ) ↔
      (pb p = b ∧ A (ix3 (pb p) (pr p) (pw p)) = BitVec.ofNat 32 k.val) := by
  obtain ⟨k', hk'⟩ := hA (pb p) (pr p) (pw p)
  unfold segWord
  rw [hk', toInt_segWord_small k'.val (pb p).val k'.isLt (pb p).isLt]
  have hk := k.isLt
  have hk2 := k'.isLt
  constructor
  · intro h
    have h' : 512 * (pb p).val + k'.val = 512 * b.val + k.val := by exact_mod_cast h
    refine ⟨Fin.ext (by omega), ?_⟩
    have e : k'.val = k.val := by omega
    rw [e]
  · rintro ⟨h1, h2⟩
    have e : k'.val = k.val := ofNat_inj_small k'.isLt k.isLt h2
    rw [h1, e]

/-- The flat pixels are the triples (batch, row, column), row-major. -/
def flatEquiv : Fin 8388608 ≃ Fin 8 × Fin 1024 × Fin 1024 where
  toFun p := (pb p, pr p, pw p)
  invFun x := ⟨1048576 * x.1.val + 1024 * x.2.1.val + x.2.2.val, by
    have h1 := x.1.isLt; have h2 := x.2.1.isLt; have h3 := x.2.2.isLt; omega⟩
  left_inv p := by
    apply Fin.ext
    simp only [pb, pr, pw]
    omega
  right_inv x := by
    obtain ⟨x1, x2, x3⟩ := x
    have h1 := x1.isLt; have h2 := x2.isLt; have h3 := x3.isLt
    refine Prod.ext (Fin.ext ?_) (Prod.ext (Fin.ext ?_) (Fin.ext ?_))
    · simp only [pb]; omega
    · simp only [pr]; omega
    · simp only [pw]; omega

/-- The one-hot-weighted sum over a batch's pixels is the sum over the flat pixels whose segment id is 512·b + k. -/
theorem segSum_eq_flatSum (Lt St : FVec Ideal Simg .f32) (A : IVec Sadm 32) (hA : InRange A) (b : Fin 8) (k : Fin 512) :
    segSum Lt St A b k = flatSum Lt St A b k := by
  unfold flatSum
  rw [Finset.filter_congr (fun p _ => segWord_toInt_iff A hA b k p), Finset.sum_filter]
  refine Eq.trans ?_ (Fintype.sum_equiv flatEquiv _
    (fun x : Fin 8 × Fin 1024 × Fin 1024 =>
      if x.1 = b ∧ A (ix3 x.1 x.2.1 x.2.2) = BitVec.ofNat 32 k.val then score Lt St x.1 x.2.1 x.2.2 else 0)
    (fun p => rfl)).symm
  rw [Fintype.sum_prod_type, Finset.sum_eq_single b]
  · rw [Fintype.sum_prod_type]
    unfold segSum
    refine Finset.sum_congr rfl (fun r _ => Finset.sum_congr rfl (fun w _ => ?_))
    unfold oh
    by_cases h : A (ix3 b r w) = BitVec.ofNat 32 k.val
    · simp only [h, and_self, if_true, one_mul]
    · simp only [h, and_false, if_false, zero_mul]
  · intro b' _ hb'
    apply Finset.sum_eq_zero
    intro y _
    simp only [hb', false_and, if_false]
  · intro h; exact absurd (Finset.mem_univ b) h

end Cert.Spec

end
-- ==== Proof.LibScatterAddRows.lean ====
/-
  THE ACCUMULATING SCATTER BY ROWS, at the ideal instance.

  The scatter considered has an add body, scatter indices that are an [n × 1] column of row positions, operand axis 0
  inserted and start-indexed, and the remaining operand axes (none for a vector, axis 1 for a matrix of rows) as window
  axes: the accumulation x[idx[p]] += v[p] over all rows p. At the ideal instance the result is the exact sum: every
  operand element plus the sum of the update elements that land on it. An update element (p) resp. (p, q) lands on
  operand element (r) resp. (r, q) exactly when the start index of row p, read SIGNED and NOT clamped, is r; a start
  index outside the operand drops the update. So

    scatterAdd x idx upd (r)    = x (r)    + ∑ over rows p with idx[p] = r of upd (p),
    scatterAdd x idx upd (r, q) = x (r, q) + ∑ over rows p with idx[p] = r of upd (p, q).

  The proof: (1) for any dimension numbers, an update index lands on operand index i iff on every axis the start plus the
  window coordinate is i's coordinate; (2) at these dimension numbers the start on axis 0 is the row's start index and
  the window coordinate is 0 there, and on axis 1 (rows) the start is 0 and the window coordinate is the update's column;
  (3) the sum over the landing update indices is re-indexed by the row.
-/
import Idealize.ShloMosaic.PureOps.Ideal
import Idealize.ShloMosaic.Lib.ValueIdx
import Idealize.ShloMosaic.Lib.StableHlo.Predicate

open scoped BigOperators

namespace Cert.LibScatterAddRows

open Idealize.ShloMosaic Idealize.ShloMosaic.ValueIdx Idealize.ShloMosaic.StableHlo.Predicate

/-! ## Any dimension numbers: landing on an operand index, axis by axis -/

/-- An update index lands on operand index i exactly when, on every operand axis, the (signed, unclamped) start plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have h2 := congrArg Fin.val (congrFun (Option.some.inj h) a)
      simp only at h2
      have := hc a
      omega
    · cases h
  · intro h
    have hc : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

/-- The one entry of a one-element list. -/
theorem getElem_of_eq_singleton {α : Type} {l : List α} {x : α} (h : l = [x]) (k : Nat) (hk : k < l.length) :
    l[k] = x := by
  subst h
  have : k = 0 := by simpa using hk
  subst this
  rfl

/-! ## A vector scattered by a column of start indices -/

section Vec
variable {N n w : Nat} (d : ScatterDims ⟨1, ![N]⟩ ⟨2, ![n, 1]⟩ ⟨1, ![n]⟩)

/-- The start on the operand's one axis for update index j: row (j 0)'s start index, read signed. -/
theorem start_vec (hsd : d.scatterDimsToOperandDims = [0]) (hivd : d.indexVectorDim = 1)
    (j : (⟨1, ![n]⟩ : Shape).Idx) (idx : IVec ⟨2, ![n, 1]⟩ w) (a : Fin 1) :
    d.start j idx a = (idx (ixP (j 0))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: no window coordinate. -/
theorem window_vec (hiw : d.insertedWindowDims = [0]) (j : (⟨1, ![n]⟩ : Shape).Idx) (a : Fin 1) : d.window j a = 0 := by
  have hk : a ∉ d.sKept := by
    have ha0 : a = 0 := Subsingleton.elim _ _
    subst ha0
    simp [ScatterDims.sKept, Shape.kept, hiw]
  unfold ScatterDims.window
  rw [dif_neg hk]

/-- Update index j lands on operand index i exactly when row (j 0)'s start index is i's coordinate. -/
theorem resultIdx?_vec (hiw : d.insertedWindowDims = [0]) (hsd : d.scatterDimsToOperandDims = [0])
    (hivd : d.indexVectorDim = 1) (j : (⟨1, ![n]⟩ : Shape).Idx) (idx : IVec ⟨2, ![n, 1]⟩ w) (i : (⟨1, ![N]⟩ : Shape).Idx) :
    d.resultIdx? j idx = some i ↔ (idx (ixP (j 0))).toInt = ((i 0).val : ℤ) := by
  rw [resultIdx?_eq_some_iff]
  constructor
  · intro h
    have := h 0
    rw [start_vec d hsd hivd, window_vec d hiw] at this
    simpa using this
  · intro h a
    have ha0 : a = 0 := Subsingleton.elim _ _
    subst ha0
    rw [start_vec d hsd hivd, window_vec d hiw]
    simpa using h

end Vec

section VecSum
variable {N n w : Nat} {φ : FTy}

/-- The accumulating scatter of a vector: entry r ends at its old value plus the sum of the updates whose (signed,
    unclamped) start index is r. -/
theorem scatterAdd_vec (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (r : Fin N) :
    Host.scatterAdd d x idx upd (ix1 r)
      = x (ix1 r) + ∑ p ∈ Finset.univ.filter (fun p : Fin n => (idx (ixP p)).toInt = (r.val : ℤ)), upd (ix1 p) := by
  show x (ix1 r) + ∑ j ∈ Finset.univ.filter (fun j => d.resultIdx? j idx = some (ix1 r)), upd j = _
  congr 1
  refine Finset.sum_bij' (fun j _ => (j 0 : Fin n)) (fun p _ => ix1 p) ?_ ?_ ?_ ?_ ?_
  · intro j hj
    exact Finset.mem_filter.2 ⟨Finset.mem_univ _,
      (resultIdx?_vec d hiw hsd hivd j idx (ix1 r)).1 (Finset.mem_filter.1 hj).2⟩
  · intro p _hp
    exact Finset.mem_filter.2 ⟨Finset.mem_univ _,
      (resultIdx?_vec d hiw hsd hivd (ix1 p) idx (ix1 r)).2 (Finset.mem_filter.1 _hp).2⟩
  · intro j _; exact (eq_ix1 j).symm
  · intro p _; rfl
  · intro j _; exact congrArg upd (eq_ix1 j)

end VecSum

/-! ## Rows scattered by a column of start indices -/

section Rows
variable {N C n w : Nat} (d : ScatterDims ⟨2, ![N, C]⟩ ⟨2, ![n, 1]⟩ ⟨2, ![n, C]⟩)

/-- The updates' one scatter axis is their axis 0 (axis 1 is the window axis). -/
theorem uScatter_rows (huw : d.updateWindowDims = [1]) : d.uScatter = [0] := by
  simp [ScatterDims.uScatter, Shape.kept, huw, List.finRange_succ]

/-- The operand's one kept axis is its axis 1 (axis 0 is inserted). -/
theorem sKept_rows (hiw : d.insertedWindowDims = [0]) : d.sKept = [1] := by
  simp [ScatterDims.sKept, Shape.kept, hiw, List.finRange_succ]

/-- The start on operand axis 0 for update index j: row (j 0)'s start index, read signed. -/
theorem start_rows_zero (huw : d.updateWindowDims = [1]) (hsd : d.scatterDimsToOperandDims = [0])
    (hivd : d.indexVectorDim = 1) (j : (⟨2, ![n, C]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val) (getElem_of_eq_singleton (uScatter_rows d huw) _ _)
  | ⟨1, _⟩ =>
    unfold ScatterDims.siIdx
    rw [dif_pos (by rw [hivd])]
    apply Fin.ext
    show List.idxOf (0 : Fin 2) d.scatterDimsToOperandDims = 0
    rw [hsd]; simp

/-- Operand axis 1 is not start-indexed: the start there is 0. -/
theorem start_rows_one (hsd : d.scatterDimsToOperandDims = [0]) (j : (⟨2, ![n, C]⟩ : Shape).Idx)
    (idx : IVec ⟨2, ![n, 1]⟩ w) : d.start j idx 1 = 0 := by
  unfold ScatterDims.start
  rw [dif_neg (by rw [hsd]; simp)]

/-- Operand axis 0 is inserted: no window coordinate. -/
theorem window_rows_zero (hiw : d.insertedWindowDims = [0]) (j : (⟨2, ![n, C]⟩ : Shape).Idx) : d.window j 0 = 0 := by
  unfold ScatterDims.window
  rw [dif_neg (by rw [sKept_rows d hiw]; simp)]

/-- On operand axis 1 the window coordinate is the update's column. -/
theorem window_rows_one (huw : d.updateWindowDims = [1]) (hiw : d.insertedWindowDims = [0])
    (j : (⟨2, ![n, C]⟩ : Shape).Idx) : d.window j 1 = (j 1).val := by
  unfold ScatterDims.window
  rw [dif_pos (by rw [sKept_rows d hiw]; simp)]
  exact congrArg (fun a => (j a).val) (getElem_of_eq_singleton huw _ _)

/-- Update index j lands on operand index i exactly when row (j 0)'s start index is i's row and j's column is i's. -/
theorem resultIdx?_rows (huw : d.updateWindowDims = [1]) (hiw : d.insertedWindowDims = [0])
    (hsd : d.scatterDimsToOperandDims = [0]) (hivd : d.indexVectorDim = 1)
    (j : (⟨2, ![n, C]⟩ : Shape).Idx) (idx : IVec ⟨2, ![n, 1]⟩ w) (i : (⟨2, ![N, C]⟩ : Shape).Idx) :
    d.resultIdx? j idx = some i ↔ (idx (ixP (j 0))).toInt = ((i 0).val : ℤ) ∧ (j 1).val = (i 1).val := by
  rw [resultIdx?_eq_some_iff]
  constructor
  · intro h
    have h0 := h 0
    have h1 := h 1
    rw [start_rows_zero d huw hsd hivd, window_rows_zero d hiw] at h0
    rw [start_rows_one d hsd, window_rows_one d huw hiw] at h1
    exact ⟨by simpa using h0, by exact_mod_cast (by simpa using h1 : ((j 1).val : ℤ) = ((i 1).val : ℤ))⟩
  · intro h a
    match a with
    | ⟨0, _⟩ =>
      show d.start j idx 0 + (d.window j 0 : ℤ) = ((i 0).val : ℤ)
      rw [start_rows_zero d huw hsd hivd, window_rows_zero d hiw]
      simpa using h.1
    | ⟨1, _⟩ =>
      show d.start j idx 1 + (d.window j 1 : ℤ) = ((i 1).val : ℤ)
      rw [start_rows_one d hsd, window_rows_one d huw hiw, h.2]
      simp

end Rows

section RowsSum
variable {N C n w : Nat} {φ : FTy}

/-- The accumulating scatter of rows: entry (r, q) ends at its old value plus the sum over the update rows whose start
    index is r of their entry in column q. -/
theorem scatterAdd_rows (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd d x idx upd (ix2 r q)
      = x (ix2 r q) + ∑ p ∈ Finset.univ.filter (fun p : Fin n => (idx (ixP p)).toInt = (r.val : ℤ)), upd (ix2 p q) := by
  show x (ix2 r q) + ∑ j ∈ Finset.univ.filter (fun j => d.resultIdx? j idx = some (ix2 r q)), upd j = _
  congr 1
  have hback : ∀ j : (⟨2, ![n, C]⟩ : Shape).Idx, d.resultIdx? j idx = some (ix2 r q) → ix2 (j 0 : Fin n) q = j := by
    intro j hj
    have h1 := ((resultIdx?_rows d huw hiw hsd hivd j idx (ix2 r q)).1 hj).2
    funext a
    match a with
    | ⟨0, _⟩ => rfl
    | ⟨1, _⟩ => exact Fin.ext h1.symm
  refine Finset.sum_bij' (fun j _ => (j 0 : Fin n)) (fun p _ => ix2 p q) ?_ ?_ ?_ ?_ ?_
  · intro j hj
    exact Finset.mem_filter.2 ⟨Finset.mem_univ _,
      ((resultIdx?_rows d huw hiw hsd hivd j idx (ix2 r q)).1 (Finset.mem_filter.1 hj).2).1⟩
  · intro p hp
    exact Finset.mem_filter.2 ⟨Finset.mem_univ _,
      (resultIdx?_rows d huw hiw hsd hivd (ix2 p q) idx (ix2 r q)).2 ⟨(Finset.mem_filter.1 hp).2, rfl⟩⟩
  · intro j hj; exact hback j (Finset.mem_filter.1 hj).2
  · intro p _; rfl
  · intro j hj; exact congrArg upd (hback j (Finset.mem_filter.1 hj).2).symm

end RowsSum

end Cert.LibScatterAddRows
-- ==== Proof.RefValue.lean ====
/-
  The reference, read as numbers: its segment sums are a scatter-add over the 8·1024·1024 flattened pixels with
  segment id (admin id + 512·batch), its factors census / (sum + ε) on an [8 × 512] table, and each pixel's result its
  score times the table's entry gathered at (batch, admin id). For ids among the 512 units every segment id is in
  range and names (batch, id) uniquely, and the gather reads the table at the id itself; so the reference's result
  is the array both programs are compared through.
-/
import proofs.«416896_j26147760898484_4_alg».proof.Proof.RefGen
import proofs.«416896_j26147760898484_4_alg».proof.Proof.Spec
import proofs.«416896_j26147760898484_4_alg».proof.Proof.Algebra
import proofs.«416896_j26147760898484_4_alg».proof.Proof.LibScatterAddRows
import Idealize.ShloMosaic.Lib.Pipeline.Value
import Idealize.ShloMosaic.Lib.ValueIdx
import Idealize.ShloMosaic.Lib.StableHlo.Predicate
import Idealize.ShloMosaic.PureOps.Ideal.Laws

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.ShloMosaic.StableHlo.Predicate

/-! ## The point gather read at an index -/

/-- The table gather of the reference: each result element (b, r, w) reads the [8 × 512] table at the pair of start
    indices found at (b, r, w, 0) and (b, r, w, 1), each read signed and clamped into its axis. -/
theorem gather_point {α : Type} (x : S8x512.Idx → α) (idx : IVec S8x1024x1024x2 32) (b : Fin 8) (r w : Fin 1024) :
    Host.gather gather_S8x512_S8x1024x1024x2_S8x1024x1024_n_01_n_n_01_3_11 x idx (ix3 b r w) =
      x (ix2 (⟨min (idx (ix4 b r w (0 : Fin 2))).toInt.toNat 7, by omega⟩ : Fin 8)
             (⟨min (idx (ix4 b r w (1 : Fin 2))).toInt.toNat 511, by omega⟩ : Fin 512)) := by
  unfold Host.gather
  congr 1
  funext a
  match a with
  | ⟨0, _⟩ =>
    refine Fin.ext ?_
    show gather_S8x512_S8x1024x1024x2_S8x1024x1024_n_01_n_n_01_3_11.start (ix3 b r w) idx 0
      + gather_S8x512_S8x1024x1024x2_S8x1024x1024_n_01_n_n_01_3_11.batchCoord (ix3 b r w) 0
      + gather_S8x512_S8x1024x1024x2_S8x1024x1024_n_01_n_n_01_3_11.offCoord (ix3 b r w) 0 = _
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S8x512_S8x1024x1024x2_S8x1024x1024_n_01_n_n_01_3_11.startIndexMap from List.mem_cons_self ..)]
    have hsi : gather_S8x512_S8x1024x1024x2_S8x1024x1024_n_01_n_n_01_3_11.siIdx (ix3 b r w)
        ⟨List.idxOf (0 : Fin 2) gather_S8x512_S8x1024x1024x2_S8x1024x1024_n_01_n_n_01_3_11.startIndexMap,
          List.idxOf_lt_length_iff.2 (List.mem_cons_self ..)⟩ = ix4 b r w (0 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    refine Fin.ext ?_
    show gather_S8x512_S8x1024x1024x2_S8x1024x1024_n_01_n_n_01_3_11.start (ix3 b r w) idx 1
      + gather_S8x512_S8x1024x1024x2_S8x1024x1024_n_01_n_n_01_3_11.batchCoord (ix3 b r w) 1
      + gather_S8x512_S8x1024x1024x2_S8x1024x1024_n_01_n_n_01_3_11.offCoord (ix3 b r w) 1 = _
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 2) ∈ gather_S8x512_S8x1024x1024x2_S8x1024x1024_n_01_n_n_01_3_11.startIndexMap from
      List.mem_cons_of_mem _ (List.mem_cons_self ..))]
    have hsi : gather_S8x512_S8x1024x1024x2_S8x1024x1024_n_01_n_n_01_3_11.siIdx (ix3 b r w)
        ⟨List.idxOf (1 : Fin 2) gather_S8x512_S8x1024x1024x2_S8x1024x1024_n_01_n_n_01_3_11.startIndexMap,
          List.idxOf_lt_length_iff.2 (List.mem_cons_of_mem _ (List.mem_cons_self ..))⟩ = ix4 b r w (1 : Fin 2) := by
      funext c; refine Fin.ext ?_
      match c with
      | ⟨0, _⟩ => rfl
      | ⟨1, _⟩ => rfl
      | ⟨2, _⟩ => rfl
      | ⟨3, _⟩ => rfl
    rw [hsi]
    rfl

/-! ## The two columns of start indices, joined on the last axis -/

/-- Component 0 of the joined start-index array is the first column. -/
theorem cat_zero {α : Type} (x₁ x₂ : S8x1024x1024x1.Idx → α) (b : Fin 8) (r w : Fin 1024) :
    concatenate S8x1024x1024x2 3 [⟨S8x1024x1024x1, x₁⟩, ⟨S8x1024x1024x1, x₂⟩]
        concatenates_S8x1024x1024x1_S8x1024x1024x1_S8x1024x1024x2_d3 (ix4 b r w (0 : Fin 2))
      = x₁ (ix4 b r w (0 : Fin 1)) :=
  concatenate_pair_apply_left 3 x₁ x₂ _ (ix4 b r w (0 : Fin 2)) rfl (ix4 b r w (0 : Fin 1))
    (fun c => match c with | ⟨0, _⟩ => rfl | ⟨1, _⟩ => rfl | ⟨2, _⟩ => rfl | ⟨3, _⟩ => rfl)

/-- Component 1 of the joined start-index array is the second column. -/
theorem cat_one {α : Type} (x₁ x₂ : S8x1024x1024x1.Idx → α) (b : Fin 8) (r w : Fin 1024) :
    concatenate S8x1024x1024x2 3 [⟨S8x1024x1024x1, x₁⟩, ⟨S8x1024x1024x1, x₂⟩]
        concatenates_S8x1024x1024x1_S8x1024x1024x1_S8x1024x1024x2_d3 (ix4 b r w (1 : Fin 2))
      = x₂ (ix4 b r w (0 : Fin 1)) :=
  concatenate_pair_apply_right 3 x₁ x₂ _ (ix4 b r w (1 : Fin 2)) rfl rfl (ix4 b r w (0 : Fin 1))
    (fun c => match c with
      | ⟨0, _⟩ => fun _ => rfl | ⟨1, _⟩ => fun _ => rfl | ⟨2, _⟩ => fun _ => rfl
      | ⟨3, _⟩ => fun h => absurd rfl h)
    rfl

/-! ## The words of the start indices -/

/-- A small natural's word is not below zero, read signed. -/
theorem slt_zero_ofNat (a : ℕ) (ha : a < 2 ^ 31) : IntOp.cmpi .slt (BitVec.ofNat 32 a) 0#32 = 0#1 := by
  refine eq_zero_of_ne_one (fun h => ?_)
  have := (slt_ofNat_iff a 0 ha (by decide)).mp h
  omega

/-- The wrap of a negative index leaves a small natural's word as it is. -/
theorem wrap_ofNat (a : ℕ) (ha : a < 2 ^ 31) (y : BitVec 32) :
    Scalar.select (IntOp.cmpi .slt (BitVec.ofNat 32 a) 0#32) y (BitVec.ofNat 32 a) = BitVec.ofNat 32 a := by
  rw [slt_zero_ofNat a ha, select_zero]

/-- The batch column at (b, r, w): the word of b. -/
theorem batch_col (b : Fin 8) (r w : Fin 1024) :
    val_main_v37 (F := Ideal) (ix4 b r w (0 : Fin 1)) = BitVec.ofNat 32 b.val := by
  rw [val_main_v37_apply, val_main_v36_apply, val_main_v30_apply, val_main_v27_apply, val_main_v24_apply,
    val_main_v23_apply, val_main_v26_apply, val_main_c_3_apply]
  exact wrap_ofNat b.val (by have := b.isLt; omega) _

/-- The id column at (b, r, w), for an id among the 512 units: the id's word. -/
theorem id_col (A : IVec S8x1024x1024 32) (b : Fin 8) (r w : Fin 1024) (k : Fin 512)
    (h : A (ix3 b r w) = BitVec.ofNat 32 k.val) :
    val_main_v38 (F := Ideal) A (ix4 b r w (0 : Fin 1)) = BitVec.ofNat 32 k.val := by
  have e : idx_main_v38 (ix4 b r w (0 : Fin 1)) = ix3 b r w := by
    funext a; match a with | ⟨0, _⟩ => rfl | ⟨1, _⟩ => rfl | ⟨2, _⟩ => rfl
  rw [val_main_v38_apply, val_main_v35_apply, val_main_v32_apply, val_main_v31_apply, val_main_c_5_apply, e, h]
  exact wrap_ofNat k.val (by have := k.isLt; omega) _

/-- The gather at a pixel whose id is unit k reads the table at (b, k): both start indices are in range, so the
    clamp changes nothing. -/
theorem gather_at {α : Type} (x : S8x512.Idx → α) (idx : IVec S8x1024x1024x2 32) (b : Fin 8) (r w : Fin 1024)
    (k : Fin 512) (h0 : idx (ix4 b r w (0 : Fin 2)) = BitVec.ofNat 32 b.val)
    (h1 : idx (ix4 b r w (1 : Fin 2)) = BitVec.ofNat 32 k.val) :
    Host.gather gather_S8x512_S8x1024x1024x2_S8x1024x1024_n_01_n_n_01_3_11 x idx (ix3 b r w) = x (ix2 b k) := by
  refine (gather_point x idx b r w).trans (congrArg x ?_)
  funext a
  match a with
  | ⟨0, _⟩ =>
    refine Fin.ext ?_
    show min (idx (ix4 b r w (0 : Fin 2))).toInt.toNat 7 = b.val
    rw [h0, toInt_ofNat_small _ (by have := b.isLt; omega), Int.toNat_natCast]
    have := b.isLt; omega
  | ⟨1, _⟩ =>
    refine Fin.ext ?_
    show min (idx (ix4 b r w (1 : Fin 2))).toInt.toNat 511 = k.val
    rw [h1, toInt_ofNat_small _ (by have := k.isLt; omega), Int.toNat_natCast]
    have := k.isLt; omega

/-! ## The flattened pixels: the scatter's indices and updates -/

/-- The reshape [8, 1024, 1024] → [8, 1, 1024, 1024] read backwards: (b, r, w) comes from (b, 0, r, w). -/
theorem unflat_idx (b : Fin 8) (r w : Fin 1024) : idx_main_v11 (ix3 b r w) = ix4 b (0 : Fin 1) r w := by
  have hb := b.isLt; have hr := r.isLt; have hw := w.isLt
  funext a
  match a with
  | ⟨0, _⟩ => exact Fin.ext (by show ((b.val * 1024 + r.val) * 1024 + w.val) / 1048576 = b.val; omega)
  | ⟨1, _⟩ => rfl
  | ⟨2, _⟩ => exact Fin.ext (by show ((b.val * 1024 + r.val) * 1024 + w.val) / 1024 % 1024 = r.val; omega)
  | ⟨3, _⟩ => exact Fin.ext (by show ((b.val * 1024 + r.val) * 1024 + w.val) % 1024 = w.val; omega)

/-- The score array at (b, 0, r, w) is the specification's score. -/
theorem score_at (Lt St : FVec Ideal S8x1x1024x1024 .f32) (b : Fin 8) (r w : Fin 1024) :
    val_main_v4 (F := Ideal) Lt St (ix4 b (0 : Fin 1) r w) = Cert.Spec.score Lt St b r w := by
  rw [val_main_v4_apply, val_main_v1_apply, val_main_v3_apply, val_main_v0_apply, val_main_v2_apply,
    val_main_cst_apply, val_main_cst_0_apply]
  rfl

/-- Flat pixel p of the reshaped score array is the score at p's batch, row and column. -/
theorem upd_at (Lt St : FVec Ideal S8x1x1024x1024 .f32) (p : Fin 8388608) :
    val_main_v12 (F := Ideal) Lt St (ix1 p) = Cert.Spec.score Lt St (Cert.Spec.pb p) (Cert.Spec.pr p) (Cert.Spec.pw p) := by
  have e : idx_main_v12 (ix1 p) = ix3 (Cert.Spec.pb p) (Cert.Spec.pr p) (Cert.Spec.pw p) := by
    funext a; match a with | ⟨0, _⟩ => rfl | ⟨1, _⟩ => rfl | ⟨2, _⟩ => rfl
  rw [val_main_v12_apply, e, val_main_v11_apply, unflat_idx, score_at]

/-- Row p of the scatter's index column is the reference's segment id of flat pixel p. -/
theorem seg_at (A : IVec S8x1024x1024 32) (p : Fin 8388608) :
    val_main_v15 (F := Ideal) A (ixP p) = Cert.Spec.segWord A p := by
  have e : idx_main_v13 (idx_main_v15 (ixP p)) = ix3 (Cert.Spec.pb p) (Cert.Spec.pr p) (Cert.Spec.pw p) := by
    funext a; match a with | ⟨0, _⟩ => rfl | ⟨1, _⟩ => rfl | ⟨2, _⟩ => rfl
  rw [val_main_v15_apply, val_main_v13_apply, e, val_main_v10_apply, val_main_v9_apply, val_main_v8_apply,
    val_main_v7_apply, val_main_c_apply, val_main_v6_apply, val_main_v5_apply]
  rfl

/-- Entry (b, k) of the reshaped scatter result is the reference's segment sum. -/
theorem sums_at (Lt St : FVec Ideal S8x1x1024x1024 .f32) (A : IVec S8x1024x1024 32) (b : Fin 8) (k : Fin 512) :
    val_main_v17 (F := Ideal) Lt St A (ix2 b k) = Cert.Spec.flatSum Lt St A b k := by
  have e : idx_main_v17 (ix2 b k) = ix1 (⟨b.val * 512 + k.val, by have := b.isLt; have := k.isLt; omega⟩ : Fin 4096) := by
    funext a; match a with | ⟨0, _⟩ => rfl
  rw [val_main_v17_apply, e]
  unfold val_main_v16
  refine (Cert.LibScatterAddRows.scatterAdd_vec scatter_S4096_S8388608x1_S8388608_n_0_0_1 rfl rfl rfl rfl
    (val_main_v14 (F := Ideal)) (val_main_v15 (F := Ideal) A) (val_main_v12 (F := Ideal) Lt St) _).trans ?_
  rw [val_main_v14_apply, val_main_cst_1_apply]
  show Ideal.ofBits .f32 0x00000000#32 + _ = _
  rw [Ideal.ofBits_zero_f32, zero_add]
  unfold Cert.Spec.flatSum
  refine Finset.sum_congr (Finset.filter_congr (fun p _ => ?_)) (fun p _ => upd_at Lt St p)
  rw [seg_at]
  have : ((⟨b.val * 512 + k.val, by have := b.isLt; have := k.isLt; omega⟩ : Fin 4096).val : ℤ)
      = ((512 * b.val + k.val : ℕ) : ℤ) := by
    show ((b.val * 512 + k.val : ℕ) : ℤ) = _
    rw [Nat.mul_comm]
  rw [this]

/-! ## The table of factors, the gathered factor, and the result -/

/-- Entry (b, k) of the reference's table, for ids among the 512 units: the specification's factor of unit k in
    batch b, from the segment sums. -/
theorem table_at (Lt St : FVec Ideal S8x1x1024x1024 .f32) (A : IVec S8x1024x1024 32) (C : FVec Ideal S512 .f32)
    (hA : Cert.Spec.InRange A) (b : Fin 8) (k : Fin 512) :
    val_main_v22 (F := Ideal) Lt St A C (ix2 b k) = Cert.Spec.factor C (Cert.Spec.segSum Lt St A) b k := by
  have e : idx_main_v20 (idx_main_v21 (ix2 b k)) = ix1 k := by
    funext a; match a with | ⟨0, _⟩ => rfl
  rw [val_main_v22_apply, val_main_v21_apply, val_main_v20_apply, e, val_main_v19_apply, val_main_v18_apply,
    val_main_cst_2_apply, sums_at, ← Cert.Spec.segSum_eq_flatSum Lt St A hA b k]
  rfl

/-- The gathered factor at a pixel whose id is unit k: the table's entry (b, k), which is the one-hot-weighted
    pick of the factors at that pixel. -/
theorem gathered_at (Lt St : FVec Ideal S8x1x1024x1024 .f32) (A : IVec S8x1024x1024 32) (C : FVec Ideal S512 .f32)
    (hA : Cert.Spec.InRange A) (b : Fin 8) (r w : Fin 1024) (k : Fin 512) (hk : A (ix3 b r w) = BitVec.ofNat 32 k.val) :
    val_main_v40 (F := Ideal) Lt St A C (ix3 b r w)
      = Cert.Spec.pick A (Cert.Spec.factor C (Cert.Spec.segSum Lt St A)) b r w := by
  unfold val_main_v40
  refine (gather_at _ _ b r w k ?_ ?_).trans ?_
  · exact (cat_zero (val_main_v37 (F := Ideal)) (val_main_v38 (F := Ideal) A) b r w).trans (batch_col b r w)
  · exact (cat_one (val_main_v37 (F := Ideal)) (val_main_v38 (F := Ideal) A) b r w).trans (id_col A b r w k hk)
  · rw [table_at Lt St A C hA b k]
    exact (Cert.Spec.pick_eq A _ b r w k hk).symm

/-- The reference's result is the specification's array: at pixel (b, 0, r, w) with id unit k, the score times the
    table's entry (b, k), the table being census / (segment sum + ε) and the segment sums the scatter's. -/
theorem ref_out (Lt St : FVec Ideal S8x1x1024x1024 .f32) (A : IVec S8x1024x1024 32) (C : FVec Ideal S512 .f32)
    (hA : Cert.Spec.InRange A) :
    Read.val_main_v42 (F := Ideal) Lt St A C = Cert.Spec.out Lt St A C := by
  funext i
  obtain ⟨b, z, r, w, rfl⟩ : ∃ (b : Fin 8) (z : Fin 1) (r w : Fin 1024), i = ix4 b z r w :=
    ⟨i 0, i 1, i 2, i 3, eq_ix4 i⟩
  obtain rfl : z = 0 := Subsingleton.elim _ _
  obtain ⟨k, hk⟩ := hA b r w
  have e : idx_main_v42 (ix4 b (0 : Fin 1) r w) = ix3 b r w := by
    funext a; match a with | ⟨0, _⟩ => rfl | ⟨1, _⟩ => rfl | ⟨2, _⟩ => rfl
  have e25 : idx_main_v25 (ix3 b r w) = ix4 b (0 : Fin 1) r w := unflat_idx b r w
  rw [Cert.Spec.out_apply, val_main_v42_apply, e, val_main_v41_apply, val_main_v25_apply, e25, score_at,
    gathered_at Lt St A C hA b r w k hk]
  rfl

end Cert.ReferenceIdeal.RefValue

end
-- ==== Proof.PreDecode.lean ====
/-
  What the precondition says of the admin ids: the two added conjuncts, `all(ids ≥ 0)` and `all(ids < 512)` (signed
  compares, each under a reduction by `and` from 1), read back entry by entry: every id word is one of the 512 units.
-/
import proofs.«416896_j26147760898484_4_alg».proof.Defs
import proofs.«416896_j26147760898484_4_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- A word that is ≥ 0 and < 512 as a signed number is the word of one of the 512 units. -/
theorem word_range (a : BitVec 32) (h0 : IntOp.cmpi .sge a 0#32 = 1#1) (h1 : IntOp.cmpi .slt a 512#32 = 1#1) :
    ∃ k : Fin 512, a = BitVec.ofNat 32 k.val := by
  unfold IntOp.cmpi at h0 h1
  rw [StableHlo.Predicate.ofBool_eq_one_iff] at h0 h1
  have h0' : (0#32 : BitVec 32).toInt ≤ a.toInt := by simpa [BitVec.sle] using h0
  have h1' : a.toInt < (512#32 : BitVec 32).toInt := by simpa [BitVec.slt] using h1
  have e0 : (0#32 : BitVec 32).toInt = 0 := by decide
  have e512 : (512#32 : BitVec 32).toInt = 512 := by decide
  rw [e0] at h0'
  rw [e512] at h1'
  have hc := BitVec.toInt_eq_toNat_cond a
  have hlt : a.toNat < 512 := by
    split at hc <;> omega
  exact ⟨⟨a.toNat, hlt⟩, BitVec.eq_of_toNat_eq (by rw [BitVec.toNat_ofNat]; exact (Nat.mod_eq_of_lt (by omega)).symm)⟩

instance : Subsingleton Cert.Pre_finite_inputs.S_.Idx := ⟨fun a b => funext fun d => d.elim0⟩

variable [Cert.Pre_finite_inputs.Facts]

/-- The printed precondition being all ones, every admin id is one of the 512 units. -/
theorem inRange_of_fn {F : FTy → Type} [FloatOps F] (x0 x1 : FVec F Cert.Pre_finite_inputs.S8x1x1024x1024 .f32) (A : IVec Cert.Pre_finite_inputs.S8x1024x1024 32)
    (x3 : FVec F Cert.Pre_finite_inputs.S512 .f32) (h : Cert.Pre_finite_inputs.fn (F := F) x0 x1 A x3 = fun _ => 1#1) :
    Cert.Spec.InRange A := by
  intro b r w
  have hc := congrFun h ix0
  dsimp only [Cert.Pre_finite_inputs.fn, Cert.Pre_finite_inputs.fn_part1] at hc
  obtain ⟨h17, h20⟩ := IntOp.andi_eq_one.1 hc
  obtain ⟨_, h16⟩ := IntOp.andi_eq_one.1 h17
  have hge := Host.reduce_andi_all _ _ _ _ _ h16 (ix3 b r w)
  have hlt := Host.reduce_andi_all _ _ _ _ _ h20 (ix3 b r w)
  exact word_range _ hge hlt

end Cert.PreDecode

end
-- ==== Proof.lean ====
/-
  The kernel computes a dasymetric baseline in two pallas_calls: per batch and admin unit the sum of the pixels'
  scores (a one-hot-weighted sum, accumulated over row tiles in a scratch), then per pixel the score times
  census / (sum + ε) of the pixel's unit (picked by a one-hot-weighted sum over the 512 units). The reference does
  the same with a scatter-add over the flattened pixels and a gather. On the extended reals both results are one
  array (Spec.lean) as soon as every admin id is one of the 512 units — the precondition's two added conjuncts —,
  with no appeal to finiteness: 0 · x = 0, 1 · x = x and the reordering of sums hold for every extended real.

  The frames of the two kernel programs are proved by hand over the several-regions launch theorem (FrameB/, FrameI/:
  the first pallas_call's invariant carries the scratch between grid points); the reference's frame is its run with
  the result dropped; no operation was rewritten by the idealization, so `preserves` is trivial.
-/
import proofs.«416896_j26147760898484_4_alg».proof.Defs
import proofs.«416896_j26147760898484_4_alg».proof.Proof.Gen.Kernel
import proofs.«416896_j26147760898484_4_alg».proof.Proof.Gen.KernelIdeal
import proofs.«416896_j26147760898484_4_alg».proof.Proof.Gen.ReferenceIdeal
import proofs.«416896_j26147760898484_4_alg».proof.Proof.Gen.Pre_finite_inputs
import proofs.«416896_j26147760898484_4_alg».proof.Proof.FrameB.Run
import proofs.«416896_j26147760898484_4_alg».proof.Proof.FrameI.Run
import proofs.«416896_j26147760898484_4_alg».proof.Proof.ValueI.KernelOut
import proofs.«416896_j26147760898484_4_alg».proof.Proof.RefValue
import proofs.«416896_j26147760898484_4_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result array at `Cert.Spec.out` of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_out m c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    have hA : Cert.Spec.InRange (m ((c.tc : Thread Cert.KernelIdeal.nD Cert.KernelIdeal.τ).loc Cert.KernelIdeal.main_arg2)) :=
      Cert.PreDecode.inRange_of_fn _ _ _ _ (hpre c)
    obtain ⟨e0, e1, e2, e3⟩ := hagree c
    rw [(h c).1, Cert.ReferenceIdeal.Read.val_main_v42_eq, e0, e1, e2, e3]
    exact Cert.ReferenceIdeal.RefValue.ref_out _ _ _ _ hA

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
